-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S3x256x128 : Shape := ⟨3, ![3, 256, 128]⟩
abbrev S3x128 : Shape := ⟨2, ![3, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S3x256x128 : S_.BroadcastsInDim S3x256x128 (![] : Fin 0 → Fin S3x256x128.rank)
  reducesTo_S3x256x128_S_d0_1_2 : S3x256x128.ReducesTo [0, 1, 2] S_
  bcast_S_S3x128 : S_.BroadcastsInDim S3x128 (![] : Fin 0 → Fin S3x128.rank)
  reducesTo_S3x128_S_d0_1 : S3x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S32x1 .f32) (main_arg13 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x1 .f32 := Host.absf main_arg12
  let main_cst_20 : FVec F S_ .f32 := constant S_ .f32 0x7F800000#32
  let main_v55 : FVec F S32x1 .f32 := broadcastInDim S32x1 ![] bcast_S_S32x1 main_cst_20
  let main_v56 : IVec S32x1 1 := cmpf .olt main_v54 main_v55
  let main_c_21 : IVec S_ 1 := constantI S_ 1 1#1
  let main_v57 : IVec S_ 1 := (fun x v => Host.reduce IntOp.andi x v reducesTo_S32x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S128x64 .f32) (main_arg9 : FVec F S64 .f32) (main_arg10 : FVec F S64x32 .f32) (main_arg11 : FVec F S32 .f32) (main_arg12 : FVec F S32x1 .f32) (main_arg13 : FVec F S1 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x32 .f32 := Host.absf main_arg10
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg12 main_arg13 main_v48 main_v49 main_v50

def fn_part1 {F : FTy → Type} [FloatOps F] (main_arg5 : FVec F S3x128 .f32) (main_arg6 : FVec F S3x256x128 .f32) (main_arg7 : FVec F S3x128 .f32) (main_arg8 : FVec F S128x64 .f32) (main_arg9 : FVec F S64 .f32) (main_arg10 : FVec F S64x32 .f32) (main_arg11 : FVec F S32 .f32) (main_arg12 : FVec F S32x1 .f32) (main_arg13 : FVec F S1 .f32) (main_v13 : IVec S_ 1) (main_v16 : IVec S3x256x128 1) : IVec S_ 1 :=
  let main_c_5 : IVec S_ 1 := constantI S_ 1 1#1
  let main_v17 : IVec S_ 1 := (fun x v => Host.reduce IntOp.andi x v reducesTo_S3x256x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x256x128 .f32 := Host.absf main_arg6
  let main_cst_8 : FVec F S_ .f32 := constant S_ .f32 0x7F800000#32
  let main_v25 : FVec F S3x256x128 .f32 := broadcastInDim S3x256x128 ![] bcast_S_S3x256x128 main_cst_8
  let main_v26 : IVec S3x256x128 1 := cmpf .olt main_v24 main_v25
  let main_c_9 : IVec S_ 1 := constantI S_ 1 1#1
  let main_v27 : IVec S_ 1 := (fun x v => Host.reduce IntOp.andi x v reducesTo_S3x256x128_S_d0_1_2 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x64 .f32) (main_arg1 : IVec S2x800000 32) (main_arg2 : FVec F S64x128 .f32) (main_arg3 : FVec F S128 .f32) (main_arg4 : FVec F S3x256x128 .f32) (main_arg5 : FVec F S3x128 .f32) (main_arg6 : FVec F S3x256x128 .f32) (main_arg7 : FVec F S3x128 .f32) (main_arg8 : FVec F S128x64 .f32) (main_arg9 : FVec F S64 .f32) (main_arg10 : FVec F S64x32 .f32) (main_arg11 : FVec F S32 .f32) (main_arg12 : FVec F S32x1 .f32) (main_arg13 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x256x128 .f32 := Host.absf main_arg4
  let main_cst_4 : FVec F S_ .f32 := constant S_ .f32 0x7F800000#32
  let main_v15 : FVec F S3x256x128 .f32 := broadcastInDim S3x256x128 ![] bcast_S_S3x256x128 main_cst_4
  let main_v16 : IVec S3x256x128 1 := cmpf .olt main_v14 main_v15
  fn_part1 (F := F) main_arg5 main_arg6 main_arg7 main_arg8 main_arg9 main_arg10 main_arg11 main_arg12 main_arg13 main_v13 main_v16
-- ==== Kernel.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S3x256x128 : Shape := ⟨3, ![3, 256, 128]⟩
abbrev S3x128 : Shape := ⟨2, ![3, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x800000 : Shape := ⟨2, ![1, 800000]⟩
abbrev S800000 : Shape := ⟨1, ![800000]⟩
abbrev S50000x128 : Shape := ⟨2, ![50000, 128]⟩
abbrev S5000x64 : Shape := ⟨2, ![5000, 64]⟩
abbrev S5000x128 : Shape := ⟨2, ![5000, 128]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S10000x128 : Shape := ⟨2, ![10000, 128]⟩
abbrev S1x64 : Shape := ⟨2, ![1, 64]⟩
abbrev S1x32 : Shape := ⟨2, ![1, 32]⟩
abbrev S1x1 : Shape := ⟨2, ![1, 1]⟩

abbrev nBuf : Space → Nat
  | .hbm => 148
  | .vmem => 60
  | .smem => 0
  | _ => 0

abbrev hbmTy0_0 (i : Nat) : BufTy := match i % 128 with
  | 0 => ⟨S50000x64, .f32⟩
  | 1 => ⟨S2x800000, .i32⟩
  | 2 => ⟨S64x128, .f32⟩
  | 3 => ⟨S128, .f32⟩
  | 4 => ⟨S3x256x128, .f32⟩
  | 5 => ⟨S3x128, .f32⟩
  | 6 => ⟨S3x256x128, .f32⟩
  | 7 => ⟨S3x128, .f32⟩
  | 8 => ⟨S128x64, .f32⟩
  | 9 => ⟨S64, .f32⟩
  | 10 => ⟨S64x32, .f32⟩
  | 11 => ⟨S32, .f32⟩
  | 12 => ⟨S32x1, .f32⟩
  | 13 => ⟨S1, .f32⟩
  | 14 => ⟨S1x800000, .i32⟩
  | 15 => ⟨S800000, .i32⟩
  | 16 => ⟨S1x800000, .i32⟩
  | 17 => ⟨S800000, .i32⟩
  | 18 => ⟨S50000x128, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x128, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x128, .f32⟩
  | 37 => ⟨S1x128x128, .f32⟩
  | 38 => ⟨S128x128, .f32⟩
  | 39 => ⟨S1x128x128, .f32⟩
  | 40 => ⟨S128x128, .f32⟩
  | 41 => ⟨S1x128, .f32⟩
  | 42 => ⟨S128, .f32⟩
  | 43 => ⟨S800000x128, .f32⟩
  | 44 => ⟨S_, .f32⟩
  | 45 => ⟨S50000x128, .f32⟩
  | 46 => ⟨S800000x1, .i32⟩
  | 47 => ⟨S50000x128, .f32⟩
  | 48 => ⟨S1x128x128, .f32⟩
  | 49 => ⟨S128x128, .f32⟩
  | 50 => ⟨S1x128x128, .f32⟩
  | 51 => ⟨S128x128, .f32⟩
  | 52 => ⟨S1x128, .f32⟩
  | 53 => ⟨S128, .f32⟩
  | 54 => ⟨S50000x128, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x128, .f32⟩
  | 73 => ⟨S1x128x128, .f32⟩
  | 74 => ⟨S128x128, .f32⟩
  | 75 => ⟨S1x128x128, .f32⟩
  | 76 => ⟨S128x128, .f32⟩
  | 77 => ⟨S1x128, .f32⟩
  | 78 => ⟨S128, .f32⟩
  | 79 => ⟨S800000x128, .f32⟩
  | 80 => ⟨S_, .f32⟩
  | 81 => ⟨S50000x128, .f32⟩
  | 82 => ⟨S800000x1, .i32⟩
  | 83 => ⟨S50000x128, .f32⟩
  | 84 => ⟨S1x128x128, .f32⟩
  | 85 => ⟨S128x128, .f32⟩
  | 86 => ⟨S1x128x128, .f32⟩
  | 87 => ⟨S128x128, .f32⟩
  | 88 => ⟨S1x128, .f32⟩
  | 89 => ⟨S128, .f32⟩
  | 90 => ⟨S50000x128, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x128, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x128, .f32⟩
  | 109 => ⟨S1x128x128, .f32⟩
  | 110 => ⟨S128x128, .f32⟩
  | 111 => ⟨S1x128x128, .f32⟩
  | 112 => ⟨S128x128, .f32⟩
  | 113 => ⟨S1x128, .f32⟩
  | 114 => ⟨S128, .f32⟩
  | 115 => ⟨S800000x128, .f32⟩
  | 116 => ⟨S_, .f32⟩
  | 117 => ⟨S50000x128, .f32⟩
  | 118 => ⟨S800000x1, .i32⟩
  | 119 => ⟨S50000x128, .f32⟩
  | 120 => ⟨S1x128x128, .f32⟩
  | 121 => ⟨S128x128, .f32⟩
  | 122 => ⟨S1x128x128, .f32⟩
  | 123 => ⟨S128x128, .f32⟩
  | 124 => ⟨S1x128, .f32⟩
  | 125 => ⟨S128, .f32⟩
  | 126 => ⟨S50000x128, .f32⟩
  | 127 => ⟨S_, .f32⟩
  | _ => ⟨S50000x64, .f32⟩

abbrev hbmTy0_1 (i : Nat) : BufTy := match i % 128 with
  | 0 => ⟨S128, .f32⟩
  | 1 => ⟨S1x128, .f32⟩
  | 2 => ⟨S_, .f32⟩
  | 3 => ⟨S1x128, .f32⟩
  | 4 => ⟨S1x128, .f32⟩
  | 5 => ⟨S1x64, .f32⟩
  | 6 => ⟨S1x64, .f32⟩
  | 7 => ⟨S1x64, .f32⟩
  | 8 => ⟨S_, .f32⟩
  | 9 => ⟨S1x64, .f32⟩
  | 10 => ⟨S1x64, .f32⟩
  | 11 => ⟨S1x32, .f32⟩
  | 12 => ⟨S1x32, .f32⟩
  | 13 => ⟨S1x32, .f32⟩
  | 14 => ⟨S_, .f32⟩
  | 15 => ⟨S1x32, .f32⟩
  | 16 => ⟨S1x32, .f32⟩
  | 17 => ⟨S1x1, .f32⟩
  | 18 => ⟨S1x1, .f32⟩
  | 19 => ⟨S1x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S128x128, .f32⟩
  | .local _ .vmem, ⟨11, _⟩ => ⟨S128x128, .f32⟩
  | .local _ .vmem, ⟨12, _⟩ => ⟨S128, .f32⟩
  | .local _ .vmem, ⟨13, _⟩ => ⟨S10000x128, .f32⟩
  | .local _ .vmem, ⟨14, _⟩ => ⟨S10000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S128x128, .f32⟩
  | .local _ .vmem, ⟨21, _⟩ => ⟨S128, .f32⟩
  | .local _ .vmem, ⟨22, _⟩ => ⟨S5000x128, .f32⟩
  | .local _ .vmem, ⟨23, _⟩ => ⟨S5000x128, .f32⟩
  | .local _ .vmem, ⟨24, _⟩ => ⟨S10000x128, .f32⟩
  | .local _ .vmem, ⟨25, _⟩ => ⟨S10000x128, .f32⟩
  | .local _ .vmem, ⟨26, _⟩ => ⟨S10000x128, .f32⟩
  | .local _ .vmem, ⟨27, _⟩ => ⟨S10000x128, .f32⟩
  | .local _ .vmem, ⟨28, _⟩ => ⟨S128x128, .f32⟩
  | .local _ .vmem, ⟨29, _⟩ => ⟨S128x128, .f32⟩
  | .local _ .vmem, ⟨30, _⟩ => ⟨S128, .f32⟩
  | .local _ .vmem, ⟨31, _⟩ => ⟨S10000x128, .f32⟩
  | .local _ .vmem, ⟨32, _⟩ => ⟨S10000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S128x128, .f32⟩
  | .local _ .vmem, ⟨38, _⟩ => ⟨S128x128, .f32⟩
  | .local _ .vmem, ⟨39, _⟩ => ⟨S128, .f32⟩
  | .local _ .vmem, ⟨40, _⟩ => ⟨S5000x128, .f32⟩
  | .local _ .vmem, ⟨41, _⟩ => ⟨S5000x128, .f32⟩
  | .local _ .vmem, ⟨42, _⟩ => ⟨S10000x128, .f32⟩
  | .local _ .vmem, ⟨43, _⟩ => ⟨S10000x128, .f32⟩
  | .local _ .vmem, ⟨44, _⟩ => ⟨S10000x128, .f32⟩
  | .local _ .vmem, ⟨45, _⟩ => ⟨S10000x128, .f32⟩
  | .local _ .vmem, ⟨46, _⟩ => ⟨S128x128, .f32⟩
  | .local _ .vmem, ⟨47, _⟩ => ⟨S128x128, .f32⟩
  | .local _ .vmem, ⟨48, _⟩ => ⟨S128, .f32⟩
  | .local _ .vmem, ⟨49, _⟩ => ⟨S10000x128, .f32⟩
  | .local _ .vmem, ⟨50, _⟩ => ⟨S10000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S128x128, .f32⟩
  | .local _ .vmem, ⟨56, _⟩ => ⟨S128x128, .f32⟩
  | .local _ .vmem, ⟨57, _⟩ => ⟨S128, .f32⟩
  | .local _ .vmem, ⟨58, _⟩ => ⟨S5000x128, .f32⟩
  | .local _ .vmem, ⟨59, _⟩ => ⟨S5000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_1 : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_3 : Ref sig .tc := ⟨.hbm, 55, rfl⟩
abbrev main_v36 : Ref sig .tc := ⟨.hbm, 56, rfl⟩
abbrev main_v37 : Ref sig .tc := ⟨.hbm, 57, rfl⟩
abbrev main_c_4 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_5 : Ref sig .tc := ⟨.hbm, 64, rfl⟩
abbrev main_v43 : Ref sig .tc := ⟨.hbm, 65, rfl⟩
abbrev main_v44 : Ref sig .tc := ⟨.hbm, 66, rfl⟩
abbrev main_c_6 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_7 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_c_8 : Ref sig .tc := ⟨.hbm, 91, rfl⟩
abbrev main_v67 : Ref sig .tc := ⟨.hbm, 92, rfl⟩
abbrev main_v68 : Ref sig .tc := ⟨.hbm, 93, rfl⟩
abbrev main_c_9 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_10 : Ref sig .tc := ⟨.hbm, 100, rfl⟩
abbrev main_v74 : Ref sig .tc := ⟨.hbm, 101, rfl⟩
abbrev main_v75 : Ref sig .tc := ⟨.hbm, 102, rfl⟩
abbrev main_c_11 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_12 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_13 : Ref sig .tc := ⟨.hbm, 127, rfl⟩
abbrev main_v98 : Ref sig .tc := ⟨.hbm, 128, rfl⟩
abbrev main_v99 : Ref sig .tc := ⟨.hbm, 129, rfl⟩
abbrev main_cst_14 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_call0_cst : Ref sig .tc := ⟨.hbm, 136, rfl⟩
abbrev main_call0_v0 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_call1_cst : Ref sig .tc := ⟨.hbm, 142, rfl⟩
abbrev main_call1_v0 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg5_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg5_1 : Ref sig .tc := ⟨.vmem, 50, rfl⟩
abbrev cc6_stg0_0 : Ref sig .tc := ⟨.vmem, 51, rfl⟩
abbrev cc6_stg0_1 : Ref sig .tc := ⟨.vmem, 52, rfl⟩
abbrev cc6_stg1_0 : Ref sig .tc := ⟨.vmem, 53, rfl⟩
abbrev cc6_stg1_1 : Ref sig .tc := ⟨.vmem, 54, rfl⟩
abbrev cc6_stg2_0 : Ref sig .tc := ⟨.vmem, 55, rfl⟩
abbrev cc6_stg3_0 : Ref sig .tc := ⟨.vmem, 56, rfl⟩
abbrev cc6_stg4_0 : Ref sig .tc := ⟨.vmem, 57, rfl⟩
abbrev cc6_stg5_0 : Ref sig .tc := ⟨.vmem, 58, rfl⟩
abbrev cc6_stg5_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem5_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem3_0 : DmaSem sig := 47
abbrev cc5_sem4_0 : DmaSem sig := 48
abbrev cc5_sem5_0 : DmaSem sig := 49
abbrev cc5_sem5_1 : DmaSem sig := 50
abbrev cc6_sem0_0 : DmaSem sig := 51
abbrev cc6_sem0_1 : DmaSem sig := 52
abbrev cc6_sem1_0 : DmaSem sig := 53
abbrev cc6_sem1_1 : DmaSem sig := 54
abbrev cc6_sem2_0 : DmaSem sig := 55
abbrev cc6_sem3_0 : DmaSem sig := 56
abbrev cc6_sem4_0 : DmaSem sig := 57
abbrev cc6_sem5_0 : DmaSem sig := 58
abbrev cc6_sem5_1 : DmaSem sig := 59

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![80], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![80], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S800000 : S_.BroadcastsInDim S800000 (![] : Fin 0 → Fin S800000.rank)
  bcast_S800000_S800000x1_0 : S800000.BroadcastsInDim S800000x1 (![0] : Fin 1 → Fin S800000x1.rank)
  slices_S3x256x128_S1x128x128_0_0_0 : S3x256x128.Slices ![0, 0, 0] S1x128x128
  shapeCasts_S1x128x128_S128x128 : S1x128x128.ShapeCasts S128x128
  slices_S3x256x128_S1x128x128_0_128_0 : S3x256x128.Slices ![0, 128, 0] S1x128x128
  slices_S3x128_S1x128_0_0 : S3x128.Slices ![0, 0] S1x128
  shapeCasts_S1x128_S128 : S1x128.ShapeCasts S128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128_S128 : S128.ShapeCasts S128
  broadcasts_S1x128_S10000x128 : S1x128.Broadcasts S10000x128
  bcast_S_S50000x128 : S_.BroadcastsInDim S50000x128 (![] : Fin 0 → Fin S50000x128.rank)
  shapeCasts_S5000x128_S5000x128 : S5000x128.ShapeCasts S5000x128
  slices_S3x256x128_S1x128x128_1_0_0 : S3x256x128.Slices ![1, 0, 0] S1x128x128
  slices_S3x256x128_S1x128x128_1_128_0 : S3x256x128.Slices ![1, 128, 0] S1x128x128
  slices_S3x128_S1x128_1_0 : S3x128.Slices ![1, 0] S1x128
  slices_S3x256x128_S1x128x128_2_0_0 : S3x256x128.Slices ![2, 0, 0] S1x128x128
  slices_S3x256x128_S1x128x128_2_128_0 : S3x256x128.Slices ![2, 128, 0] S1x128x128
  slices_S3x128_S1x128_2_0 : S3x128.Slices ![2, 0] S1x128
  reducesTo_S50000x128_S128_d0 : S50000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S64_S1x64_1 : S64.BroadcastsInDim S1x64 (![1] : Fin 1 → Fin S1x64.rank)
  bcast_S_S1x64 : S_.BroadcastsInDim S1x64 (![] : Fin 0 → Fin S1x64.rank)
  bcast_S32_S1x32_1 : S32.BroadcastsInDim S1x32 (![1] : Fin 1 → Fin S1x32.rank)
  bcast_S_S1x32 : S_.BroadcastsInDim S1x32 (![] : Fin 0 → Fin S1x32.rank)
  bcast_S1_S1x1_1 : S1.BroadcastsInDim S1x1 (![1] : Fin 1 → Fin S1x1.rank)
  dot_S5000x64_S64x128_S5000x128_1_0_0_1_n_n_wf : DotDims.WF S5000x64 S64x128 S5000x128 [1] [0] [0] [1] [] []
  gather_S50000x128_S800000x1_S800000x128_1_0_n_n_0_1_1128_wf : GatherDims.WF S50000x128 S800000x1 S800000x128 [1] [0] [] [0] [] 1 ![1, 128]
  dot_S10000x128_S128x128_S10000x128_1_0_0_1_n_n_wf : DotDims.WF S10000x128 S128x128 S10000x128 [1] [0] [0] [1] [] []
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S1x128_S128x64_S1x64_1_0_0_1_n_n_wf : DotDims.WF S1x128 S128x64 S1x64 [1] [0] [0] [1] [] []
  dot_S1x64_S64x32_S1x32_1_0_0_1_n_n_wf : DotDims.WF S1x64 S64x32 S1x32 [1] [0] [0] [1] [] []
  dot_S1x32_S32x1_S1x1_1_0_0_1_n_n_wf : DotDims.WF S1x32 S32x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S800000x128.size a
  hwx1_0 : ∀ i : grid1.Coords, EltTy.bits .f32 = 32 ∨ (Rect.block (s := S800000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S800000x128.size a
  hwx1_1 : ∀ i : grid1.Coords, EltTy.bits .f32 = 32 ∨ (Rect.block (s := S800000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S800000x128.size a
  hwx1_5 : ∀ i : grid1.Coords, EltTy.bits .f32 = 32 ∨ (Rect.block (s := S800000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S800000x128.size a
  hwx3_0 : ∀ i : grid3.Coords, EltTy.bits .f32 = 32 ∨ (Rect.block (s := S800000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S800000x128.size a
  hwx3_1 : ∀ i : grid3.Coords, EltTy.bits .f32 = 32 ∨ (Rect.block (s := S800000x128) S10000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S800000x128.size a
  hwx3_5 : ∀ i : grid3.Coords, EltTy.bits .f32 = 32 ∨ (Rect.block (s := S800000x128) S10000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S800000x128.size a
  hwx5_0 : ∀ i : grid5.Coords, EltTy.bits .f32 = 32 ∨ (Rect.block (s := S800000x128) S10000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x128.size a ≤ S800000x128.size a
  hwx5_1 : ∀ i : grid5.Coords, EltTy.bits .f32 = 32 ∨ (Rect.block (s := S800000x128) S10000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x128.size a ≤ S800000x128.size a
  hwx5_5 : ∀ i : grid5.Coords, EltTy.bits .f32 = 32 ∨ (Rect.block (s := S800000x128) S10000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128.size a ≤ S128.size a
  hwx6_4 : ∀ i : grid6.Coords, EltTy.bits .f32 = 32 ∨ (Rect.block (s := S128) S128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S50000x128.size a
  hwx6_5 : ∀ i : grid6.Coords, EltTy.bits .f32 = 32 ∨ (Rect.block (s := S50000x128) S5000x128.size (cc6_transform_5 i) (hinb6_5 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S1x128_S128x64_S1x64_1_0_0_1_n_n : DotDims S1x128 S128x64 S1x64 where
  lhsContracting := [1]
  rhsContracting := [0]
  lhsNonContracting := [0]
  rhsNonContracting := [1]
  lhsBatch := []
  rhsBatch := []
  wf := dot_S1x128_S128x64_S1x64_1_0_0_1_n_n_wf
def dot_S1x64_S64x32_S1x32_1_0_0_1_n_n : DotDims S1x64 S64x32 S1x32 where
  lhsContracting := [1]
  rhsContracting := [0]
  lhsNonContracting := [0]
  rhsNonContracting := [1]
  lhsBatch := []
  rhsBatch := []
  wf := dot_S1x64_S64x32_S1x32_1_0_0_1_n_n_wf
def dot_S1x32_S32x1_S1x1_1_0_0_1_n_n : DotDims S1x32 S32x1 S1x1 where
  lhsContracting := [1]
  rhsContracting := [0]
  lhsNonContracting := [0]
  rhsNonContracting := [1]
  lhsBatch := []
  rhsBatch := []
  wf := dot_S1x32_S32x1_S1x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v4) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v35) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v42) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S10000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v51) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v53) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v56) S10000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v35) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v59) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v61) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v63) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v65) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v66) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v73) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v80) S10000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v82) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v84) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v86) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v87) S10000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v66) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v90) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v92) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v94) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v96) S128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v97) S5000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S3x256x128 : Shape := ⟨3, ![3, 256, 128]⟩
abbrev S3x128 : Shape := ⟨2, ![3, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x800000 : Shape := ⟨2, ![1, 800000]⟩
abbrev S800000 : Shape := ⟨1, ![800000]⟩
abbrev S50000x128 : Shape := ⟨2, ![50000, 128]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S1x256x128 : Shape := ⟨3, ![1, 256, 128]⟩
abbrev S256x128 : Shape := ⟨2, ![256, 128]⟩
abbrev S50000x256 : Shape := ⟨2, ![50000, 256]⟩
abbrev S1x64 : Shape := ⟨2, ![1, 64]⟩
abbrev S1x32 : Shape := ⟨2, ![1, 32]⟩
abbrev S1x1 : Shape := ⟨2, ![1, 1]⟩

abbrev nBuf : Space → Nat
  | .hbm => 175
  | .vmem => 0
  | .smem => 0
  | _ => 0

abbrev hbmTy0_0 (i : Nat) : BufTy := match i % 128 with
  | 0 => ⟨S50000x64, .f32⟩
  | 1 => ⟨S2x800000, .i32⟩
  | 2 => ⟨S64x128, .f32⟩
  | 3 => ⟨S128, .f32⟩
  | 4 => ⟨S3x256x128, .f32⟩
  | 5 => ⟨S3x128, .f32⟩
  | 6 => ⟨S3x256x128, .f32⟩
  | 7 => ⟨S3x128, .f32⟩
  | 8 => ⟨S128x64, .f32⟩
  | 9 => ⟨S64, .f32⟩
  | 10 => ⟨S64x32, .f32⟩
  | 11 => ⟨S32, .f32⟩
  | 12 => ⟨S32x1, .f32⟩
  | 13 => ⟨S1, .f32⟩
  | 14 => ⟨S1x800000, .i32⟩
  | 15 => ⟨S800000, .i32⟩
  | 16 => ⟨S1x800000, .i32⟩
  | 17 => ⟨S800000, .i32⟩
  | 18 => ⟨S50000x128, .f32⟩
  | 19 => ⟨S1x128, .f32⟩
  | 20 => ⟨S50000x128, .f32⟩
  | 21 => ⟨S50000x128, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x128, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x128, .f32⟩
  | 40 => ⟨S800000x256, .f32⟩
  | 41 => ⟨S1x256x128, .f32⟩
  | 42 => ⟨S256x128, .f32⟩
  | 43 => ⟨S800000x128, .f32⟩
  | 44 => ⟨S1x128, .f32⟩
  | 45 => ⟨S128, .f32⟩
  | 46 => ⟨S1x128, .f32⟩
  | 47 => ⟨S800000x128, .f32⟩
  | 48 => ⟨S800000x128, .f32⟩
  | 49 => ⟨S_, .f32⟩
  | 50 => ⟨S50000x128, .f32⟩
  | 51 => ⟨S800000x1, .i32⟩
  | 52 => ⟨S50000x128, .f32⟩
  | 53 => ⟨S50000x256, .f32⟩
  | 54 => ⟨S1x256x128, .f32⟩
  | 55 => ⟨S256x128, .f32⟩
  | 56 => ⟨S50000x128, .f32⟩
  | 57 => ⟨S1x128, .f32⟩
  | 58 => ⟨S128, .f32⟩
  | 59 => ⟨S1x128, .f32⟩
  | 60 => ⟨S50000x128, .f32⟩
  | 61 => ⟨S50000x128, .f32⟩
  | 62 => ⟨S_, .f32⟩
  | 63 => ⟨S50000x128, .f32⟩
  | 64 => ⟨S50000x128, .f32⟩
  | 65 => ⟨S50000x128, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x128, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x128, .f32⟩
  | 84 => ⟨S800000x256, .f32⟩
  | 85 => ⟨S1x256x128, .f32⟩
  | 86 => ⟨S256x128, .f32⟩
  | 87 => ⟨S800000x128, .f32⟩
  | 88 => ⟨S1x128, .f32⟩
  | 89 => ⟨S128, .f32⟩
  | 90 => ⟨S1x128, .f32⟩
  | 91 => ⟨S800000x128, .f32⟩
  | 92 => ⟨S800000x128, .f32⟩
  | 93 => ⟨S_, .f32⟩
  | 94 => ⟨S50000x128, .f32⟩
  | 95 => ⟨S800000x1, .i32⟩
  | 96 => ⟨S50000x128, .f32⟩
  | 97 => ⟨S50000x256, .f32⟩
  | 98 => ⟨S1x256x128, .f32⟩
  | 99 => ⟨S256x128, .f32⟩
  | 100 => ⟨S50000x128, .f32⟩
  | 101 => ⟨S1x128, .f32⟩
  | 102 => ⟨S128, .f32⟩
  | 103 => ⟨S1x128, .f32⟩
  | 104 => ⟨S50000x128, .f32⟩
  | 105 => ⟨S50000x128, .f32⟩
  | 106 => ⟨S_, .f32⟩
  | 107 => ⟨S50000x128, .f32⟩
  | 108 => ⟨S50000x128, .f32⟩
  | 109 => ⟨S50000x128, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x128, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000x128, .f32⟩
  | _ => ⟨S50000x64, .f32⟩

abbrev hbmTy0_1 (i : Nat) : BufTy := match i % 128 with
  | 0 => ⟨S800000x256, .f32⟩
  | 1 => ⟨S1x256x128, .f32⟩
  | 2 => ⟨S256x128, .f32⟩
  | 3 => ⟨S800000x128, .f32⟩
  | 4 => ⟨S1x128, .f32⟩
  | 5 => ⟨S128, .f32⟩
  | 6 => ⟨S1x128, .f32⟩
  | 7 => ⟨S800000x128, .f32⟩
  | 8 => ⟨S800000x128, .f32⟩
  | 9 => ⟨S_, .f32⟩
  | 10 => ⟨S50000x128, .f32⟩
  | 11 => ⟨S800000x1, .i32⟩
  | 12 => ⟨S50000x128, .f32⟩
  | 13 => ⟨S50000x256, .f32⟩
  | 14 => ⟨S1x256x128, .f32⟩
  | 15 => ⟨S256x128, .f32⟩
  | 16 => ⟨S50000x128, .f32⟩
  | 17 => ⟨S1x128, .f32⟩
  | 18 => ⟨S128, .f32⟩
  | 19 => ⟨S1x128, .f32⟩
  | 20 => ⟨S50000x128, .f32⟩
  | 21 => ⟨S50000x128, .f32⟩
  | 22 => ⟨S_, .f32⟩
  | 23 => ⟨S50000x128, .f32⟩
  | 24 => ⟨S50000x128, .f32⟩
  | 25 => ⟨S50000x128, .f32⟩
  | 26 => ⟨S_, .f32⟩
  | 27 => ⟨S128, .f32⟩
  | 28 => ⟨S1x128, .f32⟩
  | 29 => ⟨S_, .f32⟩
  | 30 => ⟨S1x128, .f32⟩
  | 31 => ⟨S1x128, .f32⟩
  | 32 => ⟨S1x64, .f32⟩
  | 33 => ⟨S1x64, .f32⟩
  | 34 => ⟨S1x64, .f32⟩
  | 35 => ⟨S_, .f32⟩
  | 36 => ⟨S1x64, .f32⟩
  | 37 => ⟨S1x64, .f32⟩
  | 38 => ⟨S1x32, .f32⟩
  | 39 => ⟨S1x32, .f32⟩
  | 40 => ⟨S1x32, .f32⟩
  | 41 => ⟨S_, .f32⟩
  | 42 => ⟨S1x32, .f32⟩
  | 43 => ⟨S1x32, .f32⟩
  | 44 => ⟨S1x1, .f32⟩
  | 45 => ⟨S1x1, .f32⟩
  | 46 => ⟨S1x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_1 : Ref sig .tc := ⟨.hbm, 31, rfl⟩
abbrev main_v15 : Ref sig .tc := ⟨.hbm, 32, rfl⟩
abbrev main_v16 : Ref sig .tc := ⟨.hbm, 33, rfl⟩
abbrev main_c_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call0_cst : Ref sig .tc := ⟨.hbm, 62, rfl⟩
abbrev main_call0_v0 : Ref sig .tc := ⟨.hbm, 63, rfl⟩
abbrev main_v43 : Ref sig .tc := ⟨.hbm, 64, rfl⟩
abbrev main_v44 : Ref sig .tc := ⟨.hbm, 65, rfl⟩
abbrev main_c_3 : Ref sig .tc := ⟨.hbm, 66, rfl⟩
abbrev main_v45 : Ref sig .tc := ⟨.hbm, 67, rfl⟩
abbrev main_v46 : Ref sig .tc := ⟨.hbm, 68, rfl⟩
abbrev main_c_4 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_5 : Ref sig .tc := ⟨.hbm, 75, rfl⟩
abbrev main_v52 : Ref sig .tc := ⟨.hbm, 76, rfl⟩
abbrev main_v53 : Ref sig .tc := ⟨.hbm, 77, rfl⟩
abbrev main_c_6 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_7 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_call1_cst : Ref sig .tc := ⟨.hbm, 106, rfl⟩
abbrev main_call1_v0 : Ref sig .tc := ⟨.hbm, 107, rfl⟩
abbrev main_v80 : Ref sig .tc := ⟨.hbm, 108, rfl⟩
abbrev main_v81 : Ref sig .tc := ⟨.hbm, 109, rfl⟩
abbrev main_c_8 : Ref sig .tc := ⟨.hbm, 110, rfl⟩
abbrev main_v82 : Ref sig .tc := ⟨.hbm, 111, rfl⟩
abbrev main_v83 : Ref sig .tc := ⟨.hbm, 112, rfl⟩
abbrev main_c_9 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_c_10 : Ref sig .tc := ⟨.hbm, 119, rfl⟩
abbrev main_v89 : Ref sig .tc := ⟨.hbm, 120, rfl⟩
abbrev main_v90 : Ref sig .tc := ⟨.hbm, 121, rfl⟩
abbrev main_c_11 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_12 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_call2_cst : Ref sig .tc := ⟨.hbm, 150, rfl⟩
abbrev main_call2_v0 : Ref sig .tc := ⟨.hbm, 151, rfl⟩
abbrev main_v117 : Ref sig .tc := ⟨.hbm, 152, rfl⟩
abbrev main_v118 : Ref sig .tc := ⟨.hbm, 153, rfl⟩
abbrev main_cst_13 : Ref sig .tc := ⟨.hbm, 154, rfl⟩
abbrev main_v119 : Ref sig .tc := ⟨.hbm, 155, rfl⟩
abbrev main_v120 : Ref sig .tc := ⟨.hbm, 156, rfl⟩
abbrev main_cst_14 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_call3_cst : Ref sig .tc := ⟨.hbm, 163, rfl⟩
abbrev main_call3_v0 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_call4_cst : Ref sig .tc := ⟨.hbm, 169, rfl⟩
abbrev main_call4_v0 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  slices_S3x256x128_S1x256x128_0_0_0 : S3x256x128.Slices ![0, 0, 0] S1x256x128
  shapeCasts_S1x256x128_S256x128 : S1x256x128.ShapeCasts S256x128
  slices_S3x128_S1x128_0_0 : S3x128.Slices ![0, 0] S1x128
  shapeCasts_S1x128_S128 : S1x128.ShapeCasts S128
  bcast_S1x128_S800000x128_0_1 : S1x128.BroadcastsInDim S800000x128 (![0, 1] : Fin 2 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  slices_S3x256x128_S1x256x128_1_0_0 : S3x256x128.Slices ![1, 0, 0] S1x256x128
  slices_S3x128_S1x128_1_0 : S3x128.Slices ![1, 0] S1x128
  slices_S3x256x128_S1x256x128_2_0_0 : S3x256x128.Slices ![2, 0, 0] S1x256x128
  slices_S3x128_S1x128_2_0 : S3x128.Slices ![2, 0] S1x128
  reducesTo_S50000x128_S128_d0 : S50000x128.ReducesTo [0] S128
  h_S_ : 0 < S_.numel
  bcast_S_S1x128 : S_.BroadcastsInDim S1x128 (![] : Fin 0 → Fin S1x128.rank)
  bcast_S64_S1x64_1 : S64.BroadcastsInDim S1x64 (![1] : Fin 1 → Fin S1x64.rank)
  bcast_S_S1x64 : S_.BroadcastsInDim S1x64 (![] : Fin 0 → Fin S1x64.rank)
  bcast_S32_S1x32_1 : S32.BroadcastsInDim S1x32 (![1] : Fin 1 → Fin S1x32.rank)
  bcast_S_S1x32 : S_.BroadcastsInDim S1x32 (![] : Fin 0 → Fin S1x32.rank)
  bcast_S1_S1x1_1 : S1.BroadcastsInDim S1x1 (![1] : Fin 1 → Fin S1x1.rank)
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S1x128_S128x64_S1x64_1_0_0_1_n_n_wf : DotDims.WF S1x128 S128x64 S1x64 [1] [0] [0] [1] [] []
  dot_S1x64_S64x32_S1x32_1_0_0_1_n_n_wf : DotDims.WF S1x64 S64x32 S1x32 [1] [0] [0] [1] [] []
  dot_S1x32_S32x1_S1x1_1_0_0_1_n_n_wf : DotDims.WF S1x32 S32x1 S1x1 [1] [0] [0] [1] [] []

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S1x128_S128x64_S1x64_1_0_0_1_n_n : DotDims S1x128 S128x64 S1x64 where
  lhsContracting := [1]
  rhsContracting := [0]
  lhsNonContracting := [0]
  rhsNonContracting := [1]
  lhsBatch := []
  rhsBatch := []
  wf := dot_S1x128_S128x64_S1x64_1_0_0_1_n_n_wf
def dot_S1x64_S64x32_S1x32_1_0_0_1_n_n : DotDims S1x64 S64x32 S1x32 where
  lhsContracting := [1]
  rhsContracting := [0]
  lhsNonContracting := [0]
  rhsNonContracting := [1]
  lhsBatch := []
  rhsBatch := []
  wf := dot_S1x64_S64x32_S1x32_1_0_0_1_n_n_wf
def dot_S1x32_S32x1_S1x1_1_0_0_1_n_n : DotDims S1x32 S32x1 S1x1 where
  lhsContracting := [1]
  rhsContracting := [0]
  lhsNonContracting := [0]
  rhsNonContracting := [1]
  lhsBatch := []
  rhsBatch := []
  wf := dot_S1x32_S32x1_S1x1_1_0_0_1_n_n_wf

class Facts : Prop extends Facts₀ where

variable [Facts]
-- ==== Proof.Keep.lean ====
/-
  What each boundary of @main leaves in place.

  @main is nineteen steps: twelve stretches of host operations and seven grids of row tiles. A stretch changes only the
  buffers its operations write; a grid changes at most the arrays of its own windows. So a buffer that is neither keeps,
  across the step, what it held before it (`keepN`). Chained down to the launch, a buffer no step up to `N` touches
  still holds its launch contents at boundary `N` (`backN`: the arguments); chained down to the first boundary, it holds
  what the first stretch left there (`sinceN`: the two index vectors cut from the edge list).
-/
import proofs.«400170_j9105330668112_3_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg)

/-! ## The buffers each step may change -/

/-- The buffers step 1 writes: the results of its operations. -/
abbrev wr1 : List (Ref sig .tc) := [main_v0, main_v1, main_v2, main_v3]
theorem wr1_writes : (hostOps0 : List (HloOp τ sig (Elt F))).Forall fun op => op.writes ⊆ (wr1.map (Proc.devRef (τ := τ) .tc)).toFinset := by
  simp only [hostOps0, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The arrays of step 2's windows (grid 0). -/
abbrev wr2 : List (Ref sig .tc) := [main_arg0, main_arg2, main_arg3, main_v4]
theorem wr2_mem : ∀ w, Pipeline.arrRef spec0 w ∈ wr2 := by decide
/-- The buffers step 3 writes: the results of its operations. -/
abbrev wr3 : List (Ref sig .tc) := [main_c, main_v5, main_v6, main_c_0, main_v7, main_v8, main_v9, main_v10, main_v11, main_c_1, main_v12, main_v13, main_c_2, main_v14, main_v15, main_v16, main_v17, main_v18, main_v19, main_v20, main_v21, main_v22, main_v23, main_v24]
theorem wr3_writes : (hostOps1 : List (HloOp τ sig (Elt F))).Forall fun op => op.writes ⊆ (wr3.map (Proc.devRef (τ := τ) .tc)).toFinset := by
  simp only [hostOps1, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The arrays of step 4's windows (grid 1). -/
abbrev wr4 : List (Ref sig .tc) := [main_v11, main_v18, main_v20, main_v22, main_v24, main_v25]
theorem wr4_mem : ∀ w, Pipeline.arrRef spec1 w ∈ wr4 := by decide
/-- The buffers step 5 writes: the results of its operations. -/
abbrev wr5 : List (Ref sig .tc) := [main_cst, main_v26, main_v27, main_v28, main_v29, main_v30, main_v31, main_v32, main_v33, main_v34]
theorem wr5_writes : (hostOps2 : List (HloOp τ sig (Elt F))).Forall fun op => op.writes ⊆ (wr5.map (Proc.devRef (τ := τ) .tc)).toFinset := by
  simp only [hostOps2, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The arrays of step 6's windows (grid 2). -/
abbrev wr6 : List (Ref sig .tc) := [main_v4, main_v28, main_v30, main_v32, main_v34, main_v35]
theorem wr6_mem : ∀ w, Pipeline.arrRef spec2 w ∈ wr6 := by decide
/-- The buffers step 7 writes: the results of its operations. -/
abbrev wr7 : List (Ref sig .tc) := [main_c_3, main_v36, main_v37, main_c_4, main_v38, main_v39, main_v40, main_v41, main_v42, main_c_5, main_v43, main_v44, main_c_6, main_v45, main_v46, main_v47, main_v48, main_v49, main_v50, main_v51, main_v52, main_v53, main_v54, main_v55]
theorem wr7_writes : (hostOps3 : List (HloOp τ sig (Elt F))).Forall fun op => op.writes ⊆ (wr7.map (Proc.devRef (τ := τ) .tc)).toFinset := by
  simp only [hostOps3, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The arrays of step 8's windows (grid 3). -/
abbrev wr8 : List (Ref sig .tc) := [main_v42, main_v49, main_v51, main_v53, main_v55, main_v56]
theorem wr8_mem : ∀ w, Pipeline.arrRef spec3 w ∈ wr8 := by decide
/-- The buffers step 9 writes: the results of its operations. -/
abbrev wr9 : List (Ref sig .tc) := [main_cst_7, main_v57, main_v58, main_v59, main_v60, main_v61, main_v62, main_v63, main_v64, main_v65]
theorem wr9_writes : (hostOps4 : List (HloOp τ sig (Elt F))).Forall fun op => op.writes ⊆ (wr9.map (Proc.devRef (τ := τ) .tc)).toFinset := by
  simp only [hostOps4, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The arrays of step 10's windows (grid 4). -/
abbrev wr10 : List (Ref sig .tc) := [main_v35, main_v59, main_v61, main_v63, main_v65, main_v66]
theorem wr10_mem : ∀ w, Pipeline.arrRef spec4 w ∈ wr10 := by decide
/-- The buffers step 11 writes: the results of its operations. -/
abbrev wr11 : List (Ref sig .tc) := [main_c_8, main_v67, main_v68, main_c_9, main_v69, main_v70, main_v71, main_v72, main_v73, main_c_10, main_v74, main_v75, main_c_11, main_v76, main_v77, main_v78, main_v79, main_v80, main_v81, main_v82, main_v83, main_v84, main_v85, main_v86]
theorem wr11_writes : (hostOps5 : List (HloOp τ sig (Elt F))).Forall fun op => op.writes ⊆ (wr11.map (Proc.devRef (τ := τ) .tc)).toFinset := by
  simp only [hostOps5, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The arrays of step 12's windows (grid 5). -/
abbrev wr12 : List (Ref sig .tc) := [main_v73, main_v80, main_v82, main_v84, main_v86, main_v87]
theorem wr12_mem : ∀ w, Pipeline.arrRef spec5 w ∈ wr12 := by decide
/-- The buffers step 13 writes: the results of its operations. -/
abbrev wr13 : List (Ref sig .tc) := [main_cst_12, main_v88, main_v89, main_v90, main_v91, main_v92, main_v93, main_v94, main_v95, main_v96]
theorem wr13_writes : (hostOps6 : List (HloOp τ sig (Elt F))).Forall fun op => op.writes ⊆ (wr13.map (Proc.devRef (τ := τ) .tc)).toFinset := by
  simp only [hostOps6, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The arrays of step 14's windows (grid 6). -/
abbrev wr14 : List (Ref sig .tc) := [main_v66, main_v90, main_v92, main_v94, main_v96, main_v97]
theorem wr14_mem : ∀ w, Pipeline.arrRef spec6 w ∈ wr14 := by decide
/-- The buffers step 15 writes: the results of its operations. -/
abbrev wr15 : List (Ref sig .tc) := [main_cst_13, main_v98, main_v99, main_cst_14, main_v100, main_v101, main_v102, main_v103, main_v104]
theorem wr15_writes : (hostOps7 : List (HloOp τ sig (Elt F))).Forall fun op => op.writes ⊆ (wr15.map (Proc.devRef (τ := τ) .tc)).toFinset := by
  simp only [hostOps7, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The buffers step 16 writes: the results of its operations. -/
abbrev wr16 : List (Ref sig .tc) := [main_call0_cst, main_call0_v0, main_v105]
theorem wr16_writes : (hostOps7_1 : List (HloOp τ sig (Elt F))).Forall fun op => op.writes ⊆ (wr16.map (Proc.devRef (τ := τ) .tc)).toFinset := by
  simp only [hostOps7_1, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The buffers step 17 writes: the results of its operations. -/
abbrev wr17 : List (Ref sig .tc) := [main_v106, main_v107, main_v108]
theorem wr17_writes : (hostOps7_2 : List (HloOp τ sig (Elt F))).Forall fun op => op.writes ⊆ (wr17.map (Proc.devRef (τ := τ) .tc)).toFinset := by
  simp only [hostOps7_2, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The buffers step 18 writes: the results of its operations. -/
abbrev wr18 : List (Ref sig .tc) := [main_call1_cst, main_call1_v0, main_v109]
theorem wr18_writes : (hostOps7_3 : List (HloOp τ sig (Elt F))).Forall fun op => op.writes ⊆ (wr18.map (Proc.devRef (τ := τ) .tc)).toFinset := by
  simp only [hostOps7_3, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The buffers step 19 writes: the results of its operations. -/
abbrev wr19 : List (Ref sig .tc) := [main_v110, main_v111, main_v112]
theorem wr19_writes : (hostOps7_4 : List (HloOp τ sig (Elt F))).Forall fun op => op.writes ⊆ (wr19.map (Proc.devRef (τ := τ) .tc)).toFinset := by
  simp only [hostOps7_4, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-! ## One step -/

theorem keep1 (c : Dev nD) (r : Ref sig .tc) (h : r ∉ wr1) : W1 m ρ c (Proc.devRef .tc r) = W0 m ρ c (Proc.devRef .tc r) :=
  StableHlo.after_of_writes_sub hostOps0 _ wr1_writes h
theorem keep2 (c : Dev nD) (r : Ref sig .tc) (h : r ∉ wr2) : W2 m ρ c (Proc.devRef .tc r) = W1 m ρ c (Proc.devRef .tc r) :=
  W2_of_ne m ρ c r fun w e => h (e ▸ wr2_mem w)
theorem keep3 (c : Dev nD) (r : Ref sig .tc) (h : r ∉ wr3) : W3 m ρ c (Proc.devRef .tc r) = W2 m ρ c (Proc.devRef .tc r) :=
  StableHlo.after_of_writes_sub hostOps1 _ wr3_writes h
theorem keep4 (c : Dev nD) (r : Ref sig .tc) (h : r ∉ wr4) : W4 m ρ c (Proc.devRef .tc r) = W3 m ρ c (Proc.devRef .tc r) :=
  W4_of_ne m ρ c r fun w e => h (e ▸ wr4_mem w)
theorem keep5 (c : Dev nD) (r : Ref sig .tc) (h : r ∉ wr5) : W5 m ρ c (Proc.devRef .tc r) = W4 m ρ c (Proc.devRef .tc r) :=
  StableHlo.after_of_writes_sub hostOps2 _ wr5_writes h
theorem keep6 (c : Dev nD) (r : Ref sig .tc) (h : r ∉ wr6) : W6 m ρ c (Proc.devRef .tc r) = W5 m ρ c (Proc.devRef .tc r) :=
  W6_of_ne m ρ c r fun w e => h (e ▸ wr6_mem w)
theorem keep7 (c : Dev nD) (r : Ref sig .tc) (h : r ∉ wr7) : W7 m ρ c (Proc.devRef .tc r) = W6 m ρ c (Proc.devRef .tc r) :=
  StableHlo.after_of_writes_sub hostOps3 _ wr7_writes h
theorem keep8 (c : Dev nD) (r : Ref sig .tc) (h : r ∉ wr8) : W8 m ρ c (Proc.devRef .tc r) = W7 m ρ c (Proc.devRef .tc r) :=
  W8_of_ne m ρ c r fun w e => h (e ▸ wr8_mem w)
theorem keep9 (c : Dev nD) (r : Ref sig .tc) (h : r ∉ wr9) : W9 m ρ c (Proc.devRef .tc r) = W8 m ρ c (Proc.devRef .tc r) :=
  StableHlo.after_of_writes_sub hostOps4 _ wr9_writes h
theorem keep10 (c : Dev nD) (r : Ref sig .tc) (h : r ∉ wr10) : W10 m ρ c (Proc.devRef .tc r) = W9 m ρ c (Proc.devRef .tc r) :=
  W10_of_ne m ρ c r fun w e => h (e ▸ wr10_mem w)
theorem keep11 (c : Dev nD) (r : Ref sig .tc) (h : r ∉ wr11) : W11 m ρ c (Proc.devRef .tc r) = W10 m ρ c (Proc.devRef .tc r) :=
  StableHlo.after_of_writes_sub hostOps5 _ wr11_writes h
theorem keep12 (c : Dev nD) (r : Ref sig .tc) (h : r ∉ wr12) : W12 m ρ c (Proc.devRef .tc r) = W11 m ρ c (Proc.devRef .tc r) :=
  W12_of_ne m ρ c r fun w e => h (e ▸ wr12_mem w)
theorem keep13 (c : Dev nD) (r : Ref sig .tc) (h : r ∉ wr13) : W13 m ρ c (Proc.devRef .tc r) = W12 m ρ c (Proc.devRef .tc r) :=
  StableHlo.after_of_writes_sub hostOps6 _ wr13_writes h
theorem keep14 (c : Dev nD) (r : Ref sig .tc) (h : r ∉ wr14) : W14 m ρ c (Proc.devRef .tc r) = W13 m ρ c (Proc.devRef .tc r) :=
  W14_of_ne m ρ c r fun w e => h (e ▸ wr14_mem w)
theorem keep15 (c : Dev nD) (r : Ref sig .tc) (h : r ∉ wr15) : W15 m ρ c (Proc.devRef .tc r) = W14 m ρ c (Proc.devRef .tc r) :=
  StableHlo.after_of_writes_sub hostOps7 _ wr15_writes h
theorem keep16 (c : Dev nD) (r : Ref sig .tc) (h : r ∉ wr16) : W16 m ρ c (Proc.devRef .tc r) = W15 m ρ c (Proc.devRef .tc r) :=
  StableHlo.after_of_writes_sub hostOps7_1 _ wr16_writes h
theorem keep17 (c : Dev nD) (r : Ref sig .tc) (h : r ∉ wr17) : W17 m ρ c (Proc.devRef .tc r) = W16 m ρ c (Proc.devRef .tc r) :=
  StableHlo.after_of_writes_sub hostOps7_2 _ wr17_writes h
theorem keep18 (c : Dev nD) (r : Ref sig .tc) (h : r ∉ wr18) : W18 m ρ c (Proc.devRef .tc r) = W17 m ρ c (Proc.devRef .tc r) :=
  StableHlo.after_of_writes_sub hostOps7_3 _ wr18_writes h
theorem keep19 (c : Dev nD) (r : Ref sig .tc) (h : r ∉ wr19) : W19 m ρ c (Proc.devRef .tc r) = W18 m ρ c (Proc.devRef .tc r) :=
  StableHlo.after_of_writes_sub hostOps7_4 _ wr19_writes h

/-! ## Down to the launch -/

/-- Everything written up to boundary `N`. -/
abbrev upto1 : List (Ref sig .tc) := wr1
abbrev upto2 : List (Ref sig .tc) := upto1 ++ wr2
abbrev upto3 : List (Ref sig .tc) := upto2 ++ wr3
abbrev upto4 : List (Ref sig .tc) := upto3 ++ wr4
abbrev upto5 : List (Ref sig .tc) := upto4 ++ wr5
abbrev upto6 : List (Ref sig .tc) := upto5 ++ wr6
abbrev upto7 : List (Ref sig .tc) := upto6 ++ wr7
abbrev upto8 : List (Ref sig .tc) := upto7 ++ wr8
abbrev upto9 : List (Ref sig .tc) := upto8 ++ wr9
abbrev upto10 : List (Ref sig .tc) := upto9 ++ wr10
abbrev upto11 : List (Ref sig .tc) := upto10 ++ wr11
abbrev upto12 : List (Ref sig .tc) := upto11 ++ wr12
abbrev upto13 : List (Ref sig .tc) := upto12 ++ wr13
abbrev upto14 : List (Ref sig .tc) := upto13 ++ wr14
abbrev upto15 : List (Ref sig .tc) := upto14 ++ wr15
abbrev upto16 : List (Ref sig .tc) := upto15 ++ wr16
abbrev upto17 : List (Ref sig .tc) := upto16 ++ wr17
abbrev upto18 : List (Ref sig .tc) := upto17 ++ wr18

theorem back1 (c : Dev nD) (r : Ref sig .tc) (h : r ∉ upto1) : W1 m ρ c (Proc.devRef .tc r) = m ((c : Thread nD τ).loc r) :=
  (keep1 m ρ c r h).trans rfl
theorem back2 (c : Dev nD) (r : Ref sig .tc) (h : r ∉ upto2) : W2 m ρ c (Proc.devRef .tc r) = m ((c : Thread nD τ).loc r) :=
  (keep2 m ρ c r fun hh => h (List.mem_append_right _ hh)).trans (back1 m ρ c r fun hh => h (List.mem_append_left _ hh))
theorem back3 (c : Dev nD) (r : Ref sig .tc) (h : r ∉ upto3) : W3 m ρ c (Proc.devRef .tc r) = m ((c : Thread nD τ).loc r) :=
  (keep3 m ρ c r fun hh => h (List.mem_append_right _ hh)).trans (back2 m ρ c r fun hh => h (List.mem_append_left _ hh))
theorem back4 (c : Dev nD) (r : Ref sig .tc) (h : r ∉ upto4) : W4 m ρ c (Proc.devRef .tc r) = m ((c : Thread nD τ).loc r) :=
  (keep4 m ρ c r fun hh => h (List.mem_append_right _ hh)).trans (back3 m ρ c r fun hh => h (List.mem_append_left _ hh))
theorem back5 (c : Dev nD) (r : Ref sig .tc) (h : r ∉ upto5) : W5 m ρ c (Proc.devRef .tc r) = m ((c : Thread nD τ).loc r) :=
  (keep5 m ρ c r fun hh => h (List.mem_append_right _ hh)).trans (back4 m ρ c r fun hh => h (List.mem_append_left _ hh))
theorem back6 (c : Dev nD) (r : Ref sig .tc) (h : r ∉ upto6) : W6 m ρ c (Proc.devRef .tc r) = m ((c : Thread nD τ).loc r) :=
  (keep6 m ρ c r fun hh => h (List.mem_append_right _ hh)).trans (back5 m ρ c r fun hh => h (List.mem_append_left _ hh))
theorem back7 (c : Dev nD) (r : Ref sig .tc) (h : r ∉ upto7) : W7 m ρ c (Proc.devRef .tc r) = m ((c : Thread nD τ).loc r) :=
  (keep7 m ρ c r fun hh => h (List.mem_append_right _ hh)).trans (back6 m ρ c r fun hh => h (List.mem_append_left _ hh))
theorem back8 (c : Dev nD) (r : Ref sig .tc) (h : r ∉ upto8) : W8 m ρ c (Proc.devRef .tc r) = m ((c : Thread nD τ).loc r) :=
  (keep8 m ρ c r fun hh => h (List.mem_append_right _ hh)).trans (back7 m ρ c r fun hh => h (List.mem_append_left _ hh))
theorem back9 (c : Dev nD) (r : Ref sig .tc) (h : r ∉ upto9) : W9 m ρ c (Proc.devRef .tc r) = m ((c : Thread nD τ).loc r) :=
  (keep9 m ρ c r fun hh => h (List.mem_append_right _ hh)).trans (back8 m ρ c r fun hh => h (List.mem_append_left _ hh))
theorem back10 (c : Dev nD) (r : Ref sig .tc) (h : r ∉ upto10) : W10 m ρ c (Proc.devRef .tc r) = m ((c : Thread nD τ).loc r) :=
  (keep10 m ρ c r fun hh => h (List.mem_append_right _ hh)).trans (back9 m ρ c r fun hh => h (List.mem_append_left _ hh))
theorem back11 (c : Dev nD) (r : Ref sig .tc) (h : r ∉ upto11) : W11 m ρ c (Proc.devRef .tc r) = m ((c : Thread nD τ).loc r) :=
  (keep11 m ρ c r fun hh => h (List.mem_append_right _ hh)).trans (back10 m ρ c r fun hh => h (List.mem_append_left _ hh))
theorem back12 (c : Dev nD) (r : Ref sig .tc) (h : r ∉ upto12) : W12 m ρ c (Proc.devRef .tc r) = m ((c : Thread nD τ).loc r) :=
  (keep12 m ρ c r fun hh => h (List.mem_append_right _ hh)).trans (back11 m ρ c r fun hh => h (List.mem_append_left _ hh))
theorem back13 (c : Dev nD) (r : Ref sig .tc) (h : r ∉ upto13) : W13 m ρ c (Proc.devRef .tc r) = m ((c : Thread nD τ).loc r) :=
  (keep13 m ρ c r fun hh => h (List.mem_append_right _ hh)).trans (back12 m ρ c r fun hh => h (List.mem_append_left _ hh))
theorem back14 (c : Dev nD) (r : Ref sig .tc) (h : r ∉ upto14) : W14 m ρ c (Proc.devRef .tc r) = m ((c : Thread nD τ).loc r) :=
  (keep14 m ρ c r fun hh => h (List.mem_append_right _ hh)).trans (back13 m ρ c r fun hh => h (List.mem_append_left _ hh))
theorem back15 (c : Dev nD) (r : Ref sig .tc) (h : r ∉ upto15) : W15 m ρ c (Proc.devRef .tc r) = m ((c : Thread nD τ).loc r) :=
  (keep15 m ρ c r fun hh => h (List.mem_append_right _ hh)).trans (back14 m ρ c r fun hh => h (List.mem_append_left _ hh))
theorem back16 (c : Dev nD) (r : Ref sig .tc) (h : r ∉ upto16) : W16 m ρ c (Proc.devRef .tc r) = m ((c : Thread nD τ).loc r) :=
  (keep16 m ρ c r fun hh => h (List.mem_append_right _ hh)).trans (back15 m ρ c r fun hh => h (List.mem_append_left _ hh))
theorem back17 (c : Dev nD) (r : Ref sig .tc) (h : r ∉ upto17) : W17 m ρ c (Proc.devRef .tc r) = m ((c : Thread nD τ).loc r) :=
  (keep17 m ρ c r fun hh => h (List.mem_append_right _ hh)).trans (back16 m ρ c r fun hh => h (List.mem_append_left _ hh))
theorem back18 (c : Dev nD) (r : Ref sig .tc) (h : r ∉ upto18) : W18 m ρ c (Proc.devRef .tc r) = m ((c : Thread nD τ).loc r) :=
  (keep18 m ρ c r fun hh => h (List.mem_append_right _ hh)).trans (back17 m ρ c r fun hh => h (List.mem_append_left _ hh))

/-! ## Down to the first boundary -/

/-- Everything written after the first boundary, up to boundary `N`. -/
abbrev from2 : List (Ref sig .tc) := wr2
abbrev from3 : List (Ref sig .tc) := from2 ++ wr3
abbrev from4 : List (Ref sig .tc) := from3 ++ wr4
abbrev from5 : List (Ref sig .tc) := from4 ++ wr5
abbrev from6 : List (Ref sig .tc) := from5 ++ wr6
abbrev from7 : List (Ref sig .tc) := from6 ++ wr7
abbrev from8 : List (Ref sig .tc) := from7 ++ wr8
abbrev from9 : List (Ref sig .tc) := from8 ++ wr9
abbrev from10 : List (Ref sig .tc) := from9 ++ wr10
abbrev from11 : List (Ref sig .tc) := from10 ++ wr11
abbrev from12 : List (Ref sig .tc) := from11 ++ wr12

theorem since2 (c : Dev nD) (r : Ref sig .tc) (h : r ∉ from2) : W2 m ρ c (Proc.devRef .tc r) = W1 m ρ c (Proc.devRef .tc r) :=
  keep2 m ρ c r h
theorem since3 (c : Dev nD) (r : Ref sig .tc) (h : r ∉ from3) : W3 m ρ c (Proc.devRef .tc r) = W1 m ρ c (Proc.devRef .tc r) :=
  (keep3 m ρ c r fun hh => h (List.mem_append_right _ hh)).trans (since2 m ρ c r fun hh => h (List.mem_append_left _ hh))
theorem since4 (c : Dev nD) (r : Ref sig .tc) (h : r ∉ from4) : W4 m ρ c (Proc.devRef .tc r) = W1 m ρ c (Proc.devRef .tc r) :=
  (keep4 m ρ c r fun hh => h (List.mem_append_right _ hh)).trans (since3 m ρ c r fun hh => h (List.mem_append_left _ hh))
theorem since5 (c : Dev nD) (r : Ref sig .tc) (h : r ∉ from5) : W5 m ρ c (Proc.devRef .tc r) = W1 m ρ c (Proc.devRef .tc r) :=
  (keep5 m ρ c r fun hh => h (List.mem_append_right _ hh)).trans (since4 m ρ c r fun hh => h (List.mem_append_left _ hh))
theorem since6 (c : Dev nD) (r : Ref sig .tc) (h : r ∉ from6) : W6 m ρ c (Proc.devRef .tc r) = W1 m ρ c (Proc.devRef .tc r) :=
  (keep6 m ρ c r fun hh => h (List.mem_append_right _ hh)).trans (since5 m ρ c r fun hh => h (List.mem_append_left _ hh))
theorem since7 (c : Dev nD) (r : Ref sig .tc) (h : r ∉ from7) : W7 m ρ c (Proc.devRef .tc r) = W1 m ρ c (Proc.devRef .tc r) :=
  (keep7 m ρ c r fun hh => h (List.mem_append_right _ hh)).trans (since6 m ρ c r fun hh => h (List.mem_append_left _ hh))
theorem since8 (c : Dev nD) (r : Ref sig .tc) (h : r ∉ from8) : W8 m ρ c (Proc.devRef .tc r) = W1 m ρ c (Proc.devRef .tc r) :=
  (keep8 m ρ c r fun hh => h (List.mem_append_right _ hh)).trans (since7 m ρ c r fun hh => h (List.mem_append_left _ hh))
theorem since9 (c : Dev nD) (r : Ref sig .tc) (h : r ∉ from9) : W9 m ρ c (Proc.devRef .tc r) = W1 m ρ c (Proc.devRef .tc r) :=
  (keep9 m ρ c r fun hh => h (List.mem_append_right _ hh)).trans (since8 m ρ c r fun hh => h (List.mem_append_left _ hh))
theorem since10 (c : Dev nD) (r : Ref sig .tc) (h : r ∉ from10) : W10 m ρ c (Proc.devRef .tc r) = W1 m ρ c (Proc.devRef .tc r) :=
  (keep10 m ρ c r fun hh => h (List.mem_append_right _ hh)).trans (since9 m ρ c r fun hh => h (List.mem_append_left _ hh))
theorem since11 (c : Dev nD) (r : Ref sig .tc) (h : r ∉ from11) : W11 m ρ c (Proc.devRef .tc r) = W1 m ρ c (Proc.devRef .tc r) :=
  (keep11 m ρ c r fun hh => h (List.mem_append_right _ hh)).trans (since10 m ρ c r fun hh => h (List.mem_append_left _ hh))
theorem since12 (c : Dev nD) (r : Ref sig .tc) (h : r ∉ from12) : W12 m ρ c (Proc.devRef .tc r) = W1 m ρ c (Proc.devRef .tc r) :=
  (keep12 m ρ c r fun hh => h (List.mem_append_right _ hh)).trans (since11 m ρ c r fun hh => h (List.mem_append_left _ hh))

end Cert.KernelIdeal.Keep

end
-- ==== Proof.LibPlainDot.lean ====
/-
  A plain product of two matrices at the ideal values, read at an entry.

  `DotDims.plain M K N` contracts the second axis of an `[M, K]` array with the first axis of a `[K, N]` array.
  At `Ideal` both a matrix unit's product onto a zero accumulator and the host's `dot_general` with these
  dimension numbers are, at entry `(i, j)`, the sum over `k < K` of `l (i, k) · r (k, j)` on the extended reals:
  the contraction index of a one-axis contraction is that axis's coordinate, the left operand is read at
  (row of the result, k) and the right operand at (k, column of the result). General in `M`, `K`, `N` and in the
  two operands' float formats.
-/
import Idealize.ShloMosaic.PureOps.Ideal.Laws
import Idealize.ShloMosaic.Lib.ValueIdx

noncomputable section

namespace Idealize.ShloMosaic.PlainDot

open Idealize.ShloMosaic Idealize.ShloMosaic.ValueIdx
open scoped BigOperators

variable {M K N : Nat}

/-- The left operand's index at result `i`, contraction index `q`: row `i 0`, -/
theorem lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- column the contracted coordinate. -/
theorem lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's index: row the contracted coordinate, -/
theorem rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- column `i 1`. -/
theorem rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product at entry `(i, j)`, re-indexed by the contracted coordinate. -/
theorem sum_plain {α : Type} [AddCommMonoid α] (f : (⟨2, ![M, K]⟩ : Shape).Idx → (⟨2, ![K, N]⟩ : Shape).Idx → α)
    (i : Fin M) (j : Fin N) :
    ∑ q : (DotDims.plain M K N).contr.Idx,
        f ((DotDims.plain M K N).lhsIdx (ix2 i j) q) ((DotDims.plain M K N).rhsIdx (ix2 i j) q)
      = ∑ k : Fin K, f (ix2 i k) (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_0 _ _
      | ⟨1, _⟩ => exact (lhs_1 _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_0 _ _).trans hk
      | ⟨1, _⟩ => exact rhs_1 _ _)
  rw [el, er]

/-- A matrix unit's plain product onto a zero accumulator, at entry `(i, j)`. -/
theorem matmul_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant (F := Ideal) ⟨2, ![M, N]⟩ .f32 0x00000000#32) (ix2 i j)
      = ∑ k : Fin K, l (ix2 i k) * r (ix2 k j) := by
  rw [Ideal.matmul_constant_zero_apply]
  exact sum_plain (fun a b => l a * r b) i j

/-- The host's plain `dot_general`, at entry `(i, j)`. -/
theorem dotGeneral_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j)
      = ∑ k : Fin K, l (ix2 i k) * r (ix2 k j) := by
  rw [Ideal.dotGeneral_apply]
  exact sum_plain (fun a b => l a * r b) i j

end Idealize.ShloMosaic.PlainDot

end
-- ==== Proof.Laws.lean ====
/-
  One layer of message passing, row by row, on the extended reals.

  Three maps of matrices with N = 128 columns, each read at row `p`, column `q`:
  `affine`   x·w + b                      (x : [M,K], w : [K,128], b : [128]);
  `affine2`  (x·wx + y·wy) + b            (x, y : [M,K]);
  `nodeUpd`  max ((h·wh + a·wa) + b, 0) + h   (h, a : [M,128]), the residual update.
  A row of the result depends on the same row of the row operands only, so a block of rows of the result is the
  same map of the block of rows of the operands: what lets a grid of row tiles compute the whole array.
  Then the forms a matrix unit's program gives these maps: the operands rounded on the way in (a change of format
  is the identity on the extended reals), each product onto a zero accumulator, the bias row cast to [1,128] and
  broadcast down the rows.
-/
import proofs.«400170_j9105330668112_3_alg».proof.Proof.LibPlainDot
import Idealize.ShloMosaic.Lib.Pipeline.Value
import Idealize.ShloMosaic.Lib.ValueLayout
import Idealize.ShloMosaic.Lib.ValueIdx
import Idealize.ShloMosaic.PureOps.Ideal.Laws

noncomputable section

namespace Cert.GNN

open Idealize.ShloMosaic Idealize.ShloMosaic.ValueIdx
open scoped BigOperators

variable {M K : Nat}

/-- `(x·w + b)` at row `p`, column `q`. -/
def affineAt (x : FVec Ideal ⟨2, ![M, K]⟩ .f32) (w : FVec Ideal ⟨2, ![K, 128]⟩ .f32) (b : FVec Ideal ⟨1, ![128]⟩ .f32)
    (p : Fin M) (q : Fin 128) : Ideal .f32 :=
  (∑ k : Fin K, x (ix2 p k) * w (ix2 k q)) + b (ix1 q)

/-- `x·w + b`, the bias added to every row. -/
def affine (x : FVec Ideal ⟨2, ![M, K]⟩ .f32) (w : FVec Ideal ⟨2, ![K, 128]⟩ .f32) (b : FVec Ideal ⟨1, ![128]⟩ .f32) :
    FVec Ideal ⟨2, ![M, 128]⟩ .f32 := fun i => affineAt x w b (i 0) (i 1)

/-- `((x·wx + y·wy) + b)` at row `p`, column `q`. -/
def affine2At (x y : FVec Ideal ⟨2, ![M, K]⟩ .f32) (wx wy : FVec Ideal ⟨2, ![K, 128]⟩ .f32) (b : FVec Ideal ⟨1, ![128]⟩ .f32)
    (p : Fin M) (q : Fin 128) : Ideal .f32 :=
  ((∑ k : Fin K, x (ix2 p k) * wx (ix2 k q)) + ∑ k : Fin K, y (ix2 p k) * wy (ix2 k q)) + b (ix1 q)

/-- `(x·wx + y·wy) + b`: a linear map of the two row operands side by side, with the weight matrix cut in two. -/
def affine2 (x y : FVec Ideal ⟨2, ![M, K]⟩ .f32) (wx wy : FVec Ideal ⟨2, ![K, 128]⟩ .f32) (b : FVec Ideal ⟨1, ![128]⟩ .f32) :
    FVec Ideal ⟨2, ![M, 128]⟩ .f32 := fun i => affine2At x y wx wy b (i 0) (i 1)

/-- The residual update at row `p`, column `q`: `max ((h·wh + a·wa) + b, 0) + h`. -/
def nodeUpdAt (h a : FVec Ideal ⟨2, ![M, 128]⟩ .f32) (wh wa : FVec Ideal ⟨2, ![128, 128]⟩ .f32) (b : FVec Ideal ⟨1, ![128]⟩ .f32)
    (p : Fin M) (q : Fin 128) : Ideal .f32 :=
  max (affine2At h a wh wa b p q) (Ideal.ofBits .f32 0x00000000#32) + h (ix2 p q)

/-- The residual update of the node features `h` by the aggregated messages `a`. -/
def nodeUpd (h a : FVec Ideal ⟨2, ![M, 128]⟩ .f32) (wh wa : FVec Ideal ⟨2, ![128, 128]⟩ .f32) (b : FVec Ideal ⟨1, ![128]⟩ .f32) :
    FVec Ideal ⟨2, ![M, 128]⟩ .f32 := fun i => nodeUpdAt h a wh wa b (i 0) (i 1)

theorem affine_apply (x : FVec Ideal ⟨2, ![M, K]⟩ .f32) (w : FVec Ideal ⟨2, ![K, 128]⟩ .f32) (b : FVec Ideal ⟨1, ![128]⟩ .f32)
    (p : Fin M) (q : Fin 128) : affine x w b (ix2 p q) = affineAt x w b p q := rfl
theorem affine2_apply (x y : FVec Ideal ⟨2, ![M, K]⟩ .f32) (wx wy : FVec Ideal ⟨2, ![K, 128]⟩ .f32) (b : FVec Ideal ⟨1, ![128]⟩ .f32)
    (p : Fin M) (q : Fin 128) : affine2 x y wx wy b (ix2 p q) = affine2At x y wx wy b p q := rfl
theorem nodeUpd_apply (h a : FVec Ideal ⟨2, ![M, 128]⟩ .f32) (wh wa : FVec Ideal ⟨2, ![128, 128]⟩ .f32) (b : FVec Ideal ⟨1, ![128]⟩ .f32)
    (p : Fin M) (q : Fin 128) : nodeUpd h a wh wa b (ix2 p q) = nodeUpdAt h a wh wa b p q := rfl

/-! ## A row of the result reads only that row of the row operands -/

/-- If row `p'` of `x'` is row `p` of `x`, the affine map of `x'` at row `p'` is that of `x` at row `p`. -/
theorem affineAt_row {M' : Nat} (x : FVec Ideal ⟨2, ![M, K]⟩ .f32) (x' : FVec Ideal ⟨2, ![M', K]⟩ .f32)
    (w : FVec Ideal ⟨2, ![K, 128]⟩ .f32) (b : FVec Ideal ⟨1, ![128]⟩ .f32) (p : Fin M) (p' : Fin M') (q : Fin 128)
    (hx : ∀ k, x' (ix2 p' k) = x (ix2 p k)) : affineAt x' w b p' q = affineAt x w b p q := by
  unfold affineAt
  simp only [hx]

/-- The same for the map of two row operands. -/
theorem affine2At_row {M' : Nat} (x y : FVec Ideal ⟨2, ![M, K]⟩ .f32) (x' y' : FVec Ideal ⟨2, ![M', K]⟩ .f32)
    (wx wy : FVec Ideal ⟨2, ![K, 128]⟩ .f32) (b : FVec Ideal ⟨1, ![128]⟩ .f32) (p : Fin M) (p' : Fin M') (q : Fin 128)
    (hx : ∀ k, x' (ix2 p' k) = x (ix2 p k)) (hy : ∀ k, y' (ix2 p' k) = y (ix2 p k)) :
    affine2At x' y' wx wy b p' q = affine2At x y wx wy b p q := by
  unfold affine2At
  simp only [hx, hy]

/-- The same for the residual update. -/
theorem nodeUpdAt_row {M' : Nat} (h a : FVec Ideal ⟨2, ![M, 128]⟩ .f32) (h' a' : FVec Ideal ⟨2, ![M', 128]⟩ .f32)
    (wh wa : FVec Ideal ⟨2, ![128, 128]⟩ .f32) (b : FVec Ideal ⟨1, ![128]⟩ .f32) (p : Fin M) (p' : Fin M') (q : Fin 128)
    (hh : ∀ k, h' (ix2 p' k) = h (ix2 p k)) (ha : ∀ k, a' (ix2 p' k) = a (ix2 p k)) :
    nodeUpdAt h' a' wh wa b p' q = nodeUpdAt h a wh wa b p q := by
  unfold nodeUpdAt
  rw [affine2At_row h a h' a' wh wa b p p' q hh ha, hh q]

/-! ## The forms a matrix unit's program gives them -/

/-- A bias row cast to [1,128] and broadcast down `M` rows reads, at (p, q), the row's entry `q`. -/
theorem biasRows_apply (b : FVec Ideal ⟨1, ![128]⟩ .f32) (hc : (⟨1, ![128]⟩ : Shape).ShapeCasts ⟨2, ![1, 128]⟩)
    (hb : (⟨2, ![1, 128]⟩ : Shape).Broadcasts ⟨2, ![M, 128]⟩) (p : Fin M) (q : Fin 128) :
    broadcastTo ⟨2, ![M, 128]⟩ (shapeCast ⟨2, ![1, 128]⟩ b hc) hb (ix2 p q) = b (ix1 q) := by
  refine (broadcastTo_apply _ hb (ix2 p q) (ix2 (0 : Fin 1) q) fun a => ?_).trans ?_
  · match a with
    | ⟨0, _⟩ => rfl
    | ⟨1, _⟩ => rfl
  · refine shapeCast_apply b hc (ix2 (0 : Fin 1) q) (ix1 q) ?_
    rw [Shape.rowMajor_val_one, Shape.rowMajor_val_two]
    show q.val = 0 * 128 + q.val
    omega

/-- The product of rounded operands onto a zero accumulator, plus the broadcast bias row, at (p, q). -/
theorem matmulBias_apply (d : DotDims ⟨2, ![M, K]⟩ ⟨2, ![K, 128]⟩ ⟨2, ![M, 128]⟩) (hd : d = DotDims.plain M K 128)
    (x : FVec Ideal ⟨2, ![M, K]⟩ .f32) (w : FVec Ideal ⟨2, ![K, 128]⟩ .f32) (b : FVec Ideal ⟨1, ![128]⟩ .f32)
    (h1 : FTy.bits .bf16 < FTy.bits .f32) (hc : (⟨1, ![128]⟩ : Shape).ShapeCasts ⟨2, ![1, 128]⟩)
    (hb : (⟨2, ![1, 128]⟩ : Shape).Broadcasts ⟨2, ![M, 128]⟩) (p : Fin M) (q : Fin 128) :
    addf (matmul d none (truncf .bf16 x h1) (truncf .bf16 w h1) (constant ⟨2, ![M, 128]⟩ .f32 0x00000000#32))
        (broadcastTo ⟨2, ![M, 128]⟩ (shapeCast ⟨2, ![1, 128]⟩ b hc) hb) (ix2 p q)
      = affineAt x w b p q := by
  subst hd
  rw [addf_apply, biasRows_apply]
  show FloatOps.matmul (DotDims.plain M K 128) none _ _ _ (ix2 p q) + _ = _
  rw [PlainDot.matmul_zero_apply]
  rfl

/-- Two such products added, plus the broadcast bias row, at (p, q). -/
theorem matmul2Bias_apply (d : DotDims ⟨2, ![M, K]⟩ ⟨2, ![K, 128]⟩ ⟨2, ![M, 128]⟩) (hd : d = DotDims.plain M K 128)
    (x y : FVec Ideal ⟨2, ![M, K]⟩ .f32) (wx wy : FVec Ideal ⟨2, ![K, 128]⟩ .f32) (b : FVec Ideal ⟨1, ![128]⟩ .f32)
    (h1 : FTy.bits .bf16 < FTy.bits .f32) (hc : (⟨1, ![128]⟩ : Shape).ShapeCasts ⟨2, ![1, 128]⟩)
    (hb : (⟨2, ![1, 128]⟩ : Shape).Broadcasts ⟨2, ![M, 128]⟩) (p : Fin M) (q : Fin 128) :
    addf (addf (matmul d none (truncf .bf16 x h1) (truncf .bf16 wx h1) (constant ⟨2, ![M, 128]⟩ .f32 0x00000000#32))
          (matmul d none (truncf .bf16 y h1) (truncf .bf16 wy h1) (constant ⟨2, ![M, 128]⟩ .f32 0x00000000#32)))
        (broadcastTo ⟨2, ![M, 128]⟩ (shapeCast ⟨2, ![1, 128]⟩ b hc) hb) (ix2 p q)
      = affine2At x y wx wy b p q := by
  subst hd
  rw [addf_apply, addf_apply, biasRows_apply]
  show (FloatOps.matmul (DotDims.plain M K 128) none _ _ _ (ix2 p q) + FloatOps.matmul (DotDims.plain M K 128) none _ _ _ (ix2 p q)) + _ = _
  rw [PlainDot.matmul_zero_apply, PlainDot.matmul_zero_apply]
  rfl

/-- The residual update as the matrix unit's program spells it, at (p, q): the two products and the bias row, the
    maximum with a splat zero, the node features added back. -/
theorem nodeUpdForm_apply (d : DotDims ⟨2, ![M, 128]⟩ ⟨2, ![128, 128]⟩ ⟨2, ![M, 128]⟩) (hd : d = DotDims.plain M 128 128)
    (h a : FVec Ideal ⟨2, ![M, 128]⟩ .f32) (wh wa : FVec Ideal ⟨2, ![128, 128]⟩ .f32) (b : FVec Ideal ⟨1, ![128]⟩ .f32)
    (h1 : FTy.bits .bf16 < FTy.bits .f32) (hc : (⟨1, ![128]⟩ : Shape).ShapeCasts ⟨2, ![1, 128]⟩)
    (hb : (⟨2, ![1, 128]⟩ : Shape).Broadcasts ⟨2, ![M, 128]⟩) (p : Fin M) (q : Fin 128) :
    addf (maximumf (addf (addf (matmul d none (truncf .bf16 h h1) (truncf .bf16 wh h1) (constant ⟨2, ![M, 128]⟩ .f32 0x00000000#32))
          (matmul d none (truncf .bf16 a h1) (truncf .bf16 wa h1) (constant ⟨2, ![M, 128]⟩ .f32 0x00000000#32)))
        (broadcastTo ⟨2, ![M, 128]⟩ (shapeCast ⟨2, ![1, 128]⟩ b hc) hb))
        (broadcast ⟨2, ![M, 128]⟩ (Scalar.ofBits (F := Ideal) .f32 0x00000000#32))) h (ix2 p q)
      = nodeUpdAt h a wh wa b p q := by
  rw [addf_apply, maximumf_apply, matmul2Bias_apply d hd h a wh wa b h1 hc hb p q]
  rfl

/-! ## The forms the host's program gives them -/

/-- A bias row broadcast to [1,128] and then down `M` rows reads, at (p, q), the row's entry `q`. -/
theorem biasHost_apply (b : FVec Ideal ⟨1, ![128]⟩ .f32) (h1 : (⟨1, ![128]⟩ : Shape).BroadcastsInDim ⟨2, ![1, 128]⟩ ![1])
    (h2 : (⟨2, ![1, 128]⟩ : Shape).BroadcastsInDim ⟨2, ![M, 128]⟩ ![0, 1]) (p : Fin M) (q : Fin 128) :
    broadcastInDim ⟨2, ![M, 128]⟩ ![0, 1] h2 (broadcastInDim ⟨2, ![1, 128]⟩ ![1] h1 b) (ix2 p q) = b (ix1 q) := by
  refine (broadcastInDim_apply _ h2 _ (ix2 p q) (ix2 (0 : Fin 1) q) fun a => ?_).trans ?_
  · match a with
    | ⟨0, _⟩ => rfl
    | ⟨1, _⟩ => rfl
  · refine broadcastInDim_apply _ h1 b (ix2 (0 : Fin 1) q) (ix1 q) fun a => ?_
    match a with
    | ⟨0, _⟩ => rfl

/-- The host's product plus the broadcast bias row is the affine map. -/
theorem dotBias_eq (d : DotDims ⟨2, ![M, K]⟩ ⟨2, ![K, 128]⟩ ⟨2, ![M, 128]⟩) (hd : d = DotDims.plain M K 128)
    (x : FVec Ideal ⟨2, ![M, K]⟩ .f32) (w : FVec Ideal ⟨2, ![K, 128]⟩ .f32) (b : FVec Ideal ⟨1, ![128]⟩ .f32)
    (h1 : (⟨1, ![128]⟩ : Shape).BroadcastsInDim ⟨2, ![1, 128]⟩ ![1])
    (h2 : (⟨2, ![1, 128]⟩ : Shape).BroadcastsInDim ⟨2, ![M, 128]⟩ ![0, 1]) :
    addf (Host.dotGeneral d none x w) (broadcastInDim ⟨2, ![M, 128]⟩ ![0, 1] h2 (broadcastInDim ⟨2, ![1, 128]⟩ ![1] h1 b))
      = affine x w b := by
  subst hd
  funext i
  obtain ⟨p, q, rfl⟩ : ∃ (p : Fin M) (q : Fin 128), i = ix2 p q := ⟨i 0, i 1, eq_ix2 i⟩
  rw [addf_apply, biasHost_apply]
  show FloatOps.dotGeneral (DotDims.plain M K 128) none .single x w (ix2 p q) + _ = _
  rw [PlainDot.dotGeneral_apply]
  rfl

/-- Two [M,128] arrays side by side, read at row `p`: a column below 128 is the first array's, -/
theorem sideBySide_left (x y : FVec Ideal ⟨2, ![M, 128]⟩ .f32)
    (hc : Shape.Concatenates (([⟨⟨2, ![M, 128]⟩, x⟩, ⟨⟨2, ![M, 128]⟩, y⟩] : List ((s : Shape) × (s.Idx → Ideal .f32))).map (·.1)) ⟨2, ![M, 256]⟩ 1)
    (p : Fin M) (k : Fin 128) :
    concatenate ⟨2, ![M, 256]⟩ 1 [⟨⟨2, ![M, 128]⟩, x⟩, ⟨⟨2, ![M, 128]⟩, y⟩] hc (ix2 p (⟨k.val, by omega⟩ : Fin 256)) = x (ix2 p k) := by
  refine concatenate_apply_piece 1 _ hc _ 0 (by show (0 : Nat) < 2; omega) ⟨2, ![M, 128]⟩ x rfl rfl 0 rfl (ix2 p k) (fun b hb => ?_) ?_
  · match b with
    | ⟨0, _⟩ => rfl
    | ⟨1, _⟩ => exact absurd rfl hb
  · show 0 + k.val = k.val
    omega

/-- a column from 128 on is the second array's. -/
theorem sideBySide_right (x y : FVec Ideal ⟨2, ![M, 128]⟩ .f32)
    (hc : Shape.Concatenates (([⟨⟨2, ![M, 128]⟩, x⟩, ⟨⟨2, ![M, 128]⟩, y⟩] : List ((s : Shape) × (s.Idx → Ideal .f32))).map (·.1)) ⟨2, ![M, 256]⟩ 1)
    (p : Fin M) (k : Fin 128) :
    concatenate ⟨2, ![M, 256]⟩ 1 [⟨⟨2, ![M, 128]⟩, x⟩, ⟨⟨2, ![M, 128]⟩, y⟩] hc (ix2 p (⟨128 + k.val, by omega⟩ : Fin 256)) = y (ix2 p k) := by
  refine concatenate_apply_piece 1 _ hc _ 1 (by show (1 : Nat) < 2; omega) ⟨2, ![M, 128]⟩ y rfl rfl 128 rfl (ix2 p k) (fun b hb => ?_) ?_
  · match b with
    | ⟨0, _⟩ => rfl
    | ⟨1, _⟩ => exact absurd rfl hb
  · show 128 + k.val = 128 + k.val
    rfl

/-- A sum over 256 columns is the sum over the first 128 plus the sum over the last 128. -/
theorem sum_256 (f : Fin 256 → Ideal .f32) :
    ∑ k : Fin 256, f k = (∑ k : Fin 128, f ⟨k.val, by omega⟩) + ∑ k : Fin 128, f ⟨128 + k.val, by omega⟩ :=
  Fin.sum_univ_add (a := 128) (b := 128) (fun k : Fin (128 + 128) => f k)

/-- The host's product of two arrays side by side with a 256-row matrix, plus the broadcast bias row, is the
    two-operand map with the matrix cut at row 128: the one sum over 256 columns split in two. -/
theorem sideBySideDotBias_eq (d : DotDims ⟨2, ![M, 256]⟩ ⟨2, ![256, 128]⟩ ⟨2, ![M, 128]⟩) (hd : d = DotDims.plain M 256 128)
    (x y : FVec Ideal ⟨2, ![M, 128]⟩ .f32) (w : FVec Ideal ⟨2, ![256, 128]⟩ .f32) (wt wb : FVec Ideal ⟨2, ![128, 128]⟩ .f32)
    (b : FVec Ideal ⟨1, ![128]⟩ .f32)
    (hwt : ∀ (k : Fin 128) (q : Fin 128), w (ix2 (⟨k.val, by omega⟩ : Fin 256) q) = wt (ix2 k q))
    (hwb : ∀ (k : Fin 128) (q : Fin 128), w (ix2 (⟨128 + k.val, by omega⟩ : Fin 256) q) = wb (ix2 k q))
    (hc : Shape.Concatenates (([⟨⟨2, ![M, 128]⟩, x⟩, ⟨⟨2, ![M, 128]⟩, y⟩] : List ((s : Shape) × (s.Idx → Ideal .f32))).map (·.1)) ⟨2, ![M, 256]⟩ 1)
    (h1 : (⟨1, ![128]⟩ : Shape).BroadcastsInDim ⟨2, ![1, 128]⟩ ![1])
    (h2 : (⟨2, ![1, 128]⟩ : Shape).BroadcastsInDim ⟨2, ![M, 128]⟩ ![0, 1]) :
    addf (Host.dotGeneral d none (concatenate ⟨2, ![M, 256]⟩ 1 [⟨⟨2, ![M, 128]⟩, x⟩, ⟨⟨2, ![M, 128]⟩, y⟩] hc) w)
        (broadcastInDim ⟨2, ![M, 128]⟩ ![0, 1] h2 (broadcastInDim ⟨2, ![1, 128]⟩ ![1] h1 b))
      = affine2 x y wt wb b := by
  subst hd
  funext i
  obtain ⟨p, q, rfl⟩ : ∃ (p : Fin M) (q : Fin 128), i = ix2 p q := ⟨i 0, i 1, eq_ix2 i⟩
  rw [addf_apply, biasHost_apply]
  show FloatOps.dotGeneral (DotDims.plain M 256 128) none .single _ w (ix2 p q) + _ = _
  rw [PlainDot.dotGeneral_apply, sum_256]
  simp only [sideBySide_left x y hc p, sideBySide_right x y hc p, hwt, hwb]
  rfl

/-- The host's rectified residual form is the residual update. -/
theorem rectResidual_eq (h a : FVec Ideal ⟨2, ![M, 128]⟩ .f32) (wh wa : FVec Ideal ⟨2, ![128, 128]⟩ .f32) (b : FVec Ideal ⟨1, ![128]⟩ .f32)
    (u : FVec Ideal ⟨2, ![M, 128]⟩ .f32) (hu : u = affine2 h a wh wa b)
    (h0 : (⟨0, ![]⟩ : Shape).BroadcastsInDim ⟨2, ![M, 128]⟩ ![]) :
    addf (maximumf u (broadcastInDim ⟨2, ![M, 128]⟩ ![] h0 (constant (F := Ideal) ⟨0, ![]⟩ .f32 0x00000000#32))) h = nodeUpd h a wh wa b := by
  subst hu
  funext i
  obtain ⟨p, q, rfl⟩ : ∃ (p : Fin M) (q : Fin 128), i = ix2 p q := ⟨i 0, i 1, eq_ix2 i⟩
  rw [addf_apply, maximumf_apply, broadcastInDim_apply _ h0 _ (ix2 p q) ix0 (fun a => a.elim0)]
  rfl

/-! ## A layer's weights cut out of their stack -/

/-- Rows `r0 … r0 + R − 1` of matrix `l` of a [3,256,128] stack, as an [R,128] matrix: entry (k, q) is the stack's
    entry (l, r0 + k, q). -/
theorem stackSlice_apply {R : Nat} (l : Fin 3) (r0 : Nat) (hr : r0 + R ≤ 256) (off : Fin 3 → Nat) (hoff : off = ![l.val, r0, 0])
    (x : FVec Ideal ⟨3, ![3, 256, 128]⟩ .f32) (hs : (⟨3, ![3, 256, 128]⟩ : Shape).Slices off ⟨3, ![1, R, 128]⟩)
    (hc : (⟨3, ![1, R, 128]⟩ : Shape).ShapeCasts ⟨2, ![R, 128]⟩) (k : Fin R) (q : Fin 128) :
    shapeCast ⟨2, ![R, 128]⟩ (extractStridedSlice ⟨3, ![1, R, 128]⟩ off x hs) hc (ix2 k q)
      = x (ix3 l (⟨r0 + k.val, by omega⟩ : Fin 256) q) := by
  subst hoff
  refine (shapeCast_apply _ hc (ix2 k q) (ix3 (0 : Fin 1) k q) ?_).trans ?_
  · rw [Shape.rowMajor_val_three, Shape.rowMajor_val_two]
    show ((0 : Nat) * R + k.val) * 128 + q.val = k.val * 128 + q.val
    simp
  · refine extractStridedSlice_apply _ x hs (ix3 (0 : Fin 1) k q) (ix3 l (⟨r0 + k.val, by omega⟩ : Fin 256) q) fun a => ?_
    match a with
    | ⟨0, _⟩ => show l.val = l.val + 0; omega
    | ⟨1, _⟩ => rfl
    | ⟨2, _⟩ => show q.val = 0 + q.val; omega

/-- The whole matrix `l` agrees with its upper half on rows below 128, -/
theorem stack_top (l : Fin 3) (offF offT : Fin 3 → Nat) (hF : offF = ![l.val, 0, 0]) (hT : offT = ![l.val, 0, 0])
    (x : FVec Ideal ⟨3, ![3, 256, 128]⟩ .f32)
    (hsF : (⟨3, ![3, 256, 128]⟩ : Shape).Slices offF ⟨3, ![1, 256, 128]⟩) (hcF : (⟨3, ![1, 256, 128]⟩ : Shape).ShapeCasts ⟨2, ![256, 128]⟩)
    (hsT : (⟨3, ![3, 256, 128]⟩ : Shape).Slices offT ⟨3, ![1, 128, 128]⟩) (hcT : (⟨3, ![1, 128, 128]⟩ : Shape).ShapeCasts ⟨2, ![128, 128]⟩)
    (k : Fin 128) (q : Fin 128) :
    shapeCast ⟨2, ![256, 128]⟩ (extractStridedSlice ⟨3, ![1, 256, 128]⟩ offF x hsF) hcF (ix2 (⟨k.val, by omega⟩ : Fin 256) q)
      = shapeCast ⟨2, ![128, 128]⟩ (extractStridedSlice ⟨3, ![1, 128, 128]⟩ offT x hsT) hcT (ix2 k q) := by
  rw [stackSlice_apply l 0 (by omega) offF hF x hsF hcF, stackSlice_apply l 0 (by omega) offT hT x hsT hcT]

/-- and with its lower half on rows from 128 on. -/
theorem stack_bot (l : Fin 3) (offF offB : Fin 3 → Nat) (hF : offF = ![l.val, 0, 0]) (hB : offB = ![l.val, 128, 0])
    (x : FVec Ideal ⟨3, ![3, 256, 128]⟩ .f32)
    (hsF : (⟨3, ![3, 256, 128]⟩ : Shape).Slices offF ⟨3, ![1, 256, 128]⟩) (hcF : (⟨3, ![1, 256, 128]⟩ : Shape).ShapeCasts ⟨2, ![256, 128]⟩)
    (hsB : (⟨3, ![3, 256, 128]⟩ : Shape).Slices offB ⟨3, ![1, 128, 128]⟩) (hcB : (⟨3, ![1, 128, 128]⟩ : Shape).ShapeCasts ⟨2, ![128, 128]⟩)
    (k : Fin 128) (q : Fin 128) :
    shapeCast ⟨2, ![256, 128]⟩ (extractStridedSlice ⟨3, ![1, 256, 128]⟩ offF x hsF) hcF (ix2 (⟨128 + k.val, by omega⟩ : Fin 256) q)
      = shapeCast ⟨2, ![128, 128]⟩ (extractStridedSlice ⟨3, ![1, 128, 128]⟩ offB x hsB) hcB (ix2 k q) := by
  rw [stackSlice_apply l 0 (by omega) offF hF x hsF hcF, stackSlice_apply l 128 (by omega) offB hB x hsB hcB]
  exact congrArg x (congrArg (fun r => ix3 l r q) (Fin.ext (by show 0 + (128 + k.val) = 128 + k.val; omega)))

end Cert.GNN

end
-- ==== Proof.Model.lean ====
/-
  The whole program as one function of its fourteen arguments, on the extended reals.

  Host chains both programs share are named here once and never opened: the two index vectors cut from the edge list,
  the row gather (with numpy's rule for a negative index), the segment sum from zero, the slices that cut a layer's
  weights and bias out of their stacks, and the readout (mean over the nodes, three dense layers). Between them sit the
  three row-by-row maps: the embedding, the edge messages and the residual node update.
-/
import proofs.«400170_j9105330668112_3_alg».proof.Proof.Gen.KernelIdeal
import proofs.«400170_j9105330668112_3_alg».proof.Proof.Laws

noncomputable section

namespace Cert.KernelIdeal.Model

open Cert.KernelIdeal Cert.KernelIdeal.Gen
open Idealize.ShloMosaic

/-! ## The shared host chains -/

/-- Row 0 of the edge list: the source node of every edge. -/
def edgeSrc (e : IVec S2x800000 32) : IVec S800000 32 :=
  shapeCast _ (extractStridedSlice S1x800000 ![0, 0] e slices_S2x800000_S1x800000_0_0) shapeCasts_S1x800000_S800000
/-- Row 1 of the edge list: the destination node of every edge. -/
def edgeDst (e : IVec S2x800000 32) : IVec S800000 32 :=
  shapeCast _ (extractStridedSlice S1x800000 ![1, 0] e slices_S2x800000_S1x800000_1_0) shapeCasts_S1x800000_S800000

/-- Node numbers as a column of start indices, a negative one counted from the end (numpy's rule). -/
def startIdx (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The node-feature rows the index vector names, one per edge. -/
def rowsAt (h : FVec Ideal S50000x128 .f32) (v : IVec S800000 32) : FVec Ideal S800000x128 .f32 :=
  Host.gather gather_S50000x128_S800000x1_S800000x128_1_0_n_n_0_1_1128 h (startIdx v)

/-- The edge rows summed into the node each names, from zero. -/
def sumInto (v : IVec S800000 32) (u : FVec Ideal S800000x128 .f32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 v) u

/-- Layer 0: rows 0–127 of matrix 0 of a [3,256,128] weight stack (the half that multiplies the first operand). -/
def wTop0 (a : FVec Ideal S3x256x128 .f32) : FVec Ideal S128x128 .f32 :=
  shapeCast _ (extractStridedSlice S1x128x128 ![0, 0, 0] a slices_S3x256x128_S1x128x128_0_0_0) shapeCasts_S1x128x128_S128x128
/-- Layer 0: rows 128–255 of matrix 0 (the half that multiplies the second operand). -/
def wBot0 (a : FVec Ideal S3x256x128 .f32) : FVec Ideal S128x128 .f32 :=
  shapeCast _ (extractStridedSlice S1x128x128 ![0, 128, 0] a slices_S3x256x128_S1x128x128_0_128_0) shapeCasts_S1x128x128_S128x128
/-- Layer 0: row 0 of a [3,128] bias stack. -/
def bRow0 (a : FVec Ideal S3x128 .f32) : FVec Ideal S128 .f32 :=
  shapeCast _ (extractStridedSlice S1x128 ![0, 0] a slices_S3x128_S1x128_0_0) shapeCasts_S1x128_S128

/-- Layer 1: rows 0–127 of matrix 1 of a [3,256,128] weight stack (the half that multiplies the first operand). -/
def wTop1 (a : FVec Ideal S3x256x128 .f32) : FVec Ideal S128x128 .f32 :=
  shapeCast _ (extractStridedSlice S1x128x128 ![1, 0, 0] a slices_S3x256x128_S1x128x128_1_0_0) shapeCasts_S1x128x128_S128x128
/-- Layer 1: rows 128–255 of matrix 1 (the half that multiplies the second operand). -/
def wBot1 (a : FVec Ideal S3x256x128 .f32) : FVec Ideal S128x128 .f32 :=
  shapeCast _ (extractStridedSlice S1x128x128 ![1, 128, 0] a slices_S3x256x128_S1x128x128_1_128_0) shapeCasts_S1x128x128_S128x128
/-- Layer 1: row 1 of a [3,128] bias stack. -/
def bRow1 (a : FVec Ideal S3x128 .f32) : FVec Ideal S128 .f32 :=
  shapeCast _ (extractStridedSlice S1x128 ![1, 0] a slices_S3x128_S1x128_1_0) shapeCasts_S1x128_S128

/-- Layer 2: rows 0–127 of matrix 2 of a [3,256,128] weight stack (the half that multiplies the first operand). -/
def wTop2 (a : FVec Ideal S3x256x128 .f32) : FVec Ideal S128x128 .f32 :=
  shapeCast _ (extractStridedSlice S1x128x128 ![2, 0, 0] a slices_S3x256x128_S1x128x128_2_0_0) shapeCasts_S1x128x128_S128x128
/-- Layer 2: rows 128–255 of matrix 2 (the half that multiplies the second operand). -/
def wBot2 (a : FVec Ideal S3x256x128 .f32) : FVec Ideal S128x128 .f32 :=
  shapeCast _ (extractStridedSlice S1x128x128 ![2, 128, 0] a slices_S3x256x128_S1x128x128_2_128_0) shapeCasts_S1x128x128_S128x128
/-- Layer 2: row 2 of a [3,128] bias stack. -/
def bRow2 (a : FVec Ideal S3x128 .f32) : FVec Ideal S128 .f32 :=
  shapeCast _ (extractStridedSlice S1x128 ![2, 0] a slices_S3x128_S1x128_2_0) shapeCasts_S1x128_S128

/-- The mean node, through the first dense layer: the node features summed over the nodes, divided by their number,
    times `w1`, plus the bias row. -/
def dense1 (h : FVec Ideal S50000x128 .f32) (w1 : FVec Ideal S128x64 .f32) (b1 : FVec Ideal S64 .f32) : FVec Ideal S1x64 .f32 :=
  addf (Host.dotGeneral dot_S1x128_S128x64_S1x64_1_0_0_1_n_n none
      (Host.divf (broadcastInDim S1x128 ![1] bcast_S128_S1x128_1
          (Host.reduceAdd h (constant S_ .f32 0x00000000#32) reducesTo_S50000x128_S128_d0 h_S_))
        (broadcastInDim S1x128 ![] bcast_S_S1x128 (constant S_ .f32 0x47435000#32))) w1)
    (broadcastInDim S1x64 ![1] bcast_S64_S1x64_1 b1)
/-- The maximum with zero, on a row of 64. -/
def rect64 (x : FVec Ideal S1x64 .f32) : FVec Ideal S1x64 .f32 :=
  maximumf x (broadcastInDim S1x64 ![] bcast_S_S1x64 (constant S_ .f32 0x00000000#32))
/-- The second dense layer. -/
def dense2 (x : FVec Ideal S1x64 .f32) (w2 : FVec Ideal S64x32 .f32) (b2 : FVec Ideal S32 .f32) : FVec Ideal S1x32 .f32 :=
  addf (Host.dotGeneral dot_S1x64_S64x32_S1x32_1_0_0_1_n_n none x w2) (broadcastInDim S1x32 ![1] bcast_S32_S1x32_1 b2)
/-- The maximum with zero, on a row of 32. -/
def rect32 (x : FVec Ideal S1x32 .f32) : FVec Ideal S1x32 .f32 :=
  maximumf x (broadcastInDim S1x32 ![] bcast_S_S1x32 (constant S_ .f32 0x00000000#32))
/-- The last dense layer. -/
def dense3 (x : FVec Ideal S1x32 .f32) (w3 : FVec Ideal S32x1 .f32) (b3 : FVec Ideal S1 .f32) : FVec Ideal S1x1 .f32 :=
  addf (Host.dotGeneral dot_S1x32_S32x1_S1x1_1_0_0_1_n_n none x w3) (broadcastInDim S1x1 ![1] bcast_S1_S1x1_1 b3)

/-- The readout: the mean over the nodes, then three dense layers, the first two rectified. -/
def readout (h : FVec Ideal S50000x128 .f32) (w1 : FVec Ideal S128x64 .f32) (b1 : FVec Ideal S64 .f32)
    (w2 : FVec Ideal S64x32 .f32) (b2 : FVec Ideal S32 .f32) (w3 : FVec Ideal S32x1 .f32) (b3 : FVec Ideal S1 .f32) :
    FVec Ideal S1x1 .f32 :=
  dense3 (rect32 (dense2 (rect64 (dense1 h w1 b1)) w2 b2)) w3 b3

/-! ## The layers -/

/-- The node embedding. -/
def embed (x : FVec Ideal S50000x64 .f32) (w : FVec Ideal S64x128 .f32) (b : FVec Ideal S128 .f32) : FVec Ideal S50000x128 .f32 :=
  Cert.GNN.affine x w b

/-- One message per edge: a linear map of its source's and its destination's features side by side. -/
def messages (h : FVec Ideal S50000x128 .f32) (e : IVec S2x800000 32) (wt wb : FVec Ideal S128x128 .f32) (b : FVec Ideal S128 .f32) :
    FVec Ideal S800000x128 .f32 :=
  Cert.GNN.affine2 (rowsAt h (edgeSrc e)) (rowsAt h (edgeDst e)) wt wb b

/-- One layer: every node's features updated by the messages that arrive at it. -/
def layer (h : FVec Ideal S50000x128 .f32) (e : IVec S2x800000 32) (mt mb : FVec Ideal S128x128 .f32) (mbias : FVec Ideal S128 .f32)
    (ut ub : FVec Ideal S128x128 .f32) (ubias : FVec Ideal S128 .f32) : FVec Ideal S50000x128 .f32 :=
  Cert.GNN.nodeUpd h (sumInto (edgeDst e) (messages h e mt mb mbias)) ut ub ubias

/-- The node features after the embedding and after each of the three layers. -/
def feat0 (a0 : FVec Ideal S50000x64 .f32) (a2 : FVec Ideal S64x128 .f32) (a3 : FVec Ideal S128 .f32) : FVec Ideal S50000x128 .f32 :=
  embed a0 a2 a3
def feat1 (a0 : FVec Ideal S50000x64 .f32) (a1 : IVec S2x800000 32) (a2 : FVec Ideal S64x128 .f32) (a3 : FVec Ideal S128 .f32)
    (a4 : FVec Ideal S3x256x128 .f32) (a5 : FVec Ideal S3x128 .f32) (a6 : FVec Ideal S3x256x128 .f32) (a7 : FVec Ideal S3x128 .f32) :
    FVec Ideal S50000x128 .f32 :=
  layer (feat0 a0 a2 a3) a1 (wTop0 a4) (wBot0 a4) (bRow0 a5) (wTop0 a6) (wBot0 a6) (bRow0 a7)
def feat2 (a0 : FVec Ideal S50000x64 .f32) (a1 : IVec S2x800000 32) (a2 : FVec Ideal S64x128 .f32) (a3 : FVec Ideal S128 .f32)
    (a4 : FVec Ideal S3x256x128 .f32) (a5 : FVec Ideal S3x128 .f32) (a6 : FVec Ideal S3x256x128 .f32) (a7 : FVec Ideal S3x128 .f32) :
    FVec Ideal S50000x128 .f32 :=
  layer (feat1 a0 a1 a2 a3 a4 a5 a6 a7) a1 (wTop1 a4) (wBot1 a4) (bRow1 a5) (wTop1 a6) (wBot1 a6) (bRow1 a7)
def feat3 (a0 : FVec Ideal S50000x64 .f32) (a1 : IVec S2x800000 32) (a2 : FVec Ideal S64x128 .f32) (a3 : FVec Ideal S128 .f32)
    (a4 : FVec Ideal S3x256x128 .f32) (a5 : FVec Ideal S3x128 .f32) (a6 : FVec Ideal S3x256x128 .f32) (a7 : FVec Ideal S3x128 .f32) :
    FVec Ideal S50000x128 .f32 :=
  layer (feat2 a0 a1 a2 a3 a4 a5 a6 a7) a1 (wTop2 a4) (wBot2 a4) (bRow2 a5) (wTop2 a6) (wBot2 a6) (bRow2 a7)

/-- The whole program: the readout of the node features after three layers. -/
def result (a0 : FVec Ideal S50000x64 .f32) (a1 : IVec S2x800000 32) (a2 : FVec Ideal S64x128 .f32) (a3 : FVec Ideal S128 .f32)
    (a4 : FVec Ideal S3x256x128 .f32) (a5 : FVec Ideal S3x128 .f32) (a6 : FVec Ideal S3x256x128 .f32) (a7 : FVec Ideal S3x128 .f32)
    (a8 : FVec Ideal S128x64 .f32) (a9 : FVec Ideal S64 .f32) (a10 : FVec Ideal S64x32 .f32) (a11 : FVec Ideal S32 .f32)
    (a12 : FVec Ideal S32x1 .f32) (a13 : FVec Ideal S1 .f32) : FVec Ideal S1x1 .f32 :=
  readout (feat3 a0 a1 a2 a3 a4 a5 a6 a7) a8 a9 a10 a11 a12 a13

end Cert.KernelIdeal.Model

end
-- ==== Proof.Region0.lean ====
/-
  Grid 0, the node embedding, read as a value.

  Ten tiles of 5000 node rows. At a tile the body loads the tile of atom features [5000,64], the whole embedding matrix
  [64,128] and the bias row, and stores `x·w + b` of them; the result's tile sits at the same rows. A row of `x·w + b`
  reads only that row of `x`, so what tile `t` writes back is tile `t` of the affine map of the WHOLE arrays, and the ten
  tiles cover the [50000,128] array: after the grid it holds that map of the arrays the grid found, whatever those are.
-/
import proofs.«400170_j9105330668112_3_alg».proof.Proof.Gen.KernelIdeal.Frame
import proofs.«400170_j9105330668112_3_alg».proof.Proof.Laws

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's stored value at row `p`, column `q` of a tile: the affine map of the tile's rows. -/
theorem pay_apply (x0 : Vec Ideal S5000x64 .f32) (x1 : Vec Ideal S64x128 .f32) (x2 : Vec Ideal S128 .f32)
    (p : Fin 5000) (q : Fin 128) : k0_pay1 x0 x1 x2 (ix2 p q) = Cert.GNN.affineAt x0 x1 x2 p q := by
  unfold k0_pay1
  exact Cert.GNN.matmulBias_apply _ rfl x0 x1 x2 _ _ _ p q

/-- The tile of rows, the weights and the bias row the body reads at point `t`, by their literal types. -/
abbrev xblk (c : Dev nD) (t : Fin cfg0.N) : Vec Ideal S5000x64 .f32 := iblk0 V c 0 t
abbrev wblk (c : Dev nD) (t : Fin cfg0.N) : Vec Ideal S64x128 .f32 := iblk0 V c 1 t
abbrev bblk (c : Dev nD) (t : Fin cfg0.N) : Vec Ideal S128 .f32 := iblk0 V c 2 t
/-- The arrays the grid reads, by their literal types. -/
abbrev xarr (c : Dev nD) : Vec Ideal S50000x64 .f32 := V c main_arg0
abbrev warr (c : Dev nD) : Vec Ideal S64x128 .f32 := V c main_arg2
abbrev barr (c : Dev nD) : Vec Ideal S128 .f32 := V c main_arg3

/-- The printed index maps over the ten points: tile `t` of the rows, the whole weights and bias at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- Row `p` of tile `t` is row `5000 t + p` of the array. -/
theorem xblk_apply (c : Dev nD) (t : Fin cfg0.N) (p : Fin 5000) (k : Fin 64) (r : Fin 50000) (hr : r.val = 5000 * t.val + p.val) :
    xblk V c t (ix2 p k) = xarr V c (ix2 r k) := by
  obtain ⟨e0, e1, -⟩ := idx_facts t
  unfold xblk iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 64 + 1 * k.val = k.val; rw [e1]; omega

/-- The weights' block is the whole array at every point. -/
theorem wblk_apply (c : Dev nD) (t : Fin cfg0.N) (k : Fin 64) (q : Fin 128) : wblk V c t (ix2 k q) = warr V c (ix2 k q) := by
  obtain ⟨-, -, e0, e1, -⟩ := idx_facts t
  unfold wblk iblk0
  rw [View.read_apply]
  show V c main_arg2 _ = V c main_arg2 _
  congr 1
  funext a
  apply Fin.ext
  match a with
  | ⟨0, _⟩ => show win0_1.index t (0 : Fin 2) * 64 + 1 * k.val = k.val; rw [e0]; omega
  | ⟨1, _⟩ => show win0_1.index t (1 : Fin 2) * 128 + 1 * q.val = q.val; rw [e1]; omega

/-- The bias row's block is the whole row at every point. -/
theorem bblk_apply (c : Dev nD) (t : Fin cfg0.N) (q : Fin 128) : bblk V c t (ix1 q) = barr V c (ix1 q) := by
  obtain ⟨-, -, -, -, e0, -⟩ := idx_facts t
  unfold bblk iblk0
  rw [View.read_apply]
  show V c main_arg3 _ = V c main_arg3 _
  congr 1
  funext a
  apply Fin.ext
  match a with
  | ⟨0, _⟩ => show win0_2.index t (0 : Fin 1) * 128 + 1 * q.val = q.val; rw [e0]; omega

/-- What the array ends holding: the affine map of the three arrays the grid reads. -/
abbrev G (c : Dev nD) : Vec Ideal S50000x128 .f32 := Cert.GNN.affine (xarr V c) (warr V c) (barr V c)

/-- WHAT POINT `t` WRITES BACK is tile `t` of `G`. -/
theorem flushed_eq (c : Dev nD) (t : Fin cfg0.N) :
    (dat0 V c).flushed 3 t = ((cfg0.win 3).blk t).view.read (Elt Ideal) (G V c) := by
  obtain ⟨-, -, -, -, -, e0, e1⟩ := idx_facts t
  show (cfg0.win 3).cut (grid0.coords t) ((dat0 V c).after 3 t) = _
  rw [after0_3]
  unfold out0_3
  rw [View.canon_unit_zero hz2]
  simp only [View.ld_unit_zero (S := S5000x64) hz2, View.ld_unit_zero (S := S64x128) hz2, View.ld_unit_zero (S := S128) hz1]
  funext j
  obtain ⟨p, q, rfl⟩ : ∃ (p : Fin 5000) (q : Fin 128), j = ix2 p q := ⟨j 0, j 1, eq_ix2 j⟩
  have hN : cfg0.N = 10 := N_0
  have ht : t.val < 10 := by have := t.isLt; omega
  rw [View.read_apply]
  have hemb : ((cfg0.win 3).blk t).view.emb (ix2 p q) = ix2 (⟨5000 * t.val + p.val, by omega⟩ : Fin 50000) q := by
    funext a
    apply Fin.ext
    match a with
    | ⟨0, _⟩ => show win0_3.index t (0 : Fin 2) * 5000 + 1 * p.val = 5000 * t.val + p.val; rw [e0]; omega
    | ⟨1, _⟩ => show win0_3.index t (1 : Fin 2) * 128 + 1 * q.val = q.val; rw [e1]; omega
  rw [hemb]
  show k0_pay1 (xblk V c t) (wblk V c t) (bblk V c t) (ix2 p q) = Cert.GNN.affineAt (xarr V c) (warr V c) (barr V c) _ q
  rw [pay_apply (xblk V c t) (wblk V c t) (bblk V c t) p q]
  unfold Cert.GNN.affineAt
  simp only [xblk_apply V c t p _ ⟨5000 * t.val + p.val, by omega⟩ rfl, wblk_apply V c t, bblk_apply V c t]

/-- An index of the array is in point `t`'s tile iff each coordinate is in the tile's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v4).slice (win0_3.rect t)).set ↔ _
  rw [View.set_slice_whole, Rect.mem_set_unit]
  exact Iff.rfl

/-- THE ARRAY after the grid: the ten tiles cover it, so it holds `G`. -/
theorem final (c : Dev nD) : (dat0 V c).arrAt 3 cfg0.N = G V c :=
  (dat0 V c).arrAt_eq_of_cover 3 (G V c) (fun t _ => flushed_eq V c t) fun i => by
    have hi0 : (i 0).val < 50000 := (i 0).isLt
    have hi1 : (i 1).val < 128 := (i 1).isLt
    have hN : cfg0.N = 10 := N_0
    let t : Fin cfg0.N := ⟨(i 0).val / 5000, by omega⟩
    obtain ⟨-, -, -, -, -, e0, e1⟩ := idx_facts t
    refine ⟨t, flush0_3 t, ?_⟩
    rw [mem_blk]
    intro a
    match a with
    | ⟨0, _⟩ => show win0_3.index t (0 : Fin 2) * 5000 ≤ (i 0).val ∧ (i 0).val < win0_3.index t (0 : Fin 2) * 5000 + 5000; rw [e0]; show (i 0).val / 5000 * 5000 ≤ (i 0).val ∧ (i 0).val < (i 0).val / 5000 * 5000 + 5000; omega
    | ⟨1, _⟩ => show win0_3.index t (1 : Fin 2) * 128 ≤ (i 1).val ∧ (i 1).val < win0_3.index t (1 : Fin 2) * 128 + 128; rw [e1]; omega

end Cert.KernelIdeal.Region0

end
-- ==== Proof.Region1.lean ====
/-
  Grid 1, the first layer's edge messages, read as a value.

  Eighty tiles of 10000 edge rows. At a tile the body loads the tile of gathered source features and the tile of gathered
  destination features [10000,128], the two halves of the message matrix [128,128] and the bias row, and stores
  `(s·ws + d·wd) + b`; the result's tile sits at the same rows. A row of that map reads only the same row of `s` and `d`,
  so what tile `t` writes back is tile `t` of the map of the WHOLE arrays, and the eighty tiles cover the [800000,128]
  array: after the grid it holds that map of the arrays the grid found.
-/
import proofs.«400170_j9105330668112_3_alg».proof.Proof.Gen.KernelIdeal.Frame
import proofs.«400170_j9105330668112_3_alg».proof.Proof.Laws

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's stored value at row `p`, column `q` of a tile: the two-operand linear map of the tile's rows. -/
theorem pay_apply (x0 x1 : Vec Ideal S10000x128 .f32) (x2 x3 : Vec Ideal S128x128 .f32) (x4 : Vec Ideal S128 .f32)
    (p : Fin 10000) (q : Fin 128) : k1_pay1 x0 x1 x2 x3 x4 (ix2 p q) = Cert.GNN.affine2At x0 x1 x2 x3 x4 p q := by
  unfold k1_pay1
  simp only [shapeCast_self]
  exact Cert.GNN.matmul2Bias_apply _ rfl x0 x1 x2 x3 x4 _ _ _ p q

/-- The two tiles of rows, the two weight halves and the bias row the body reads at point `t`, by their literal types. -/
abbrev sblk (c : Dev nD) (t : Fin cfg1.N) : Vec Ideal S10000x128 .f32 := iblk1 V c 0 t
abbrev dblk (c : Dev nD) (t : Fin cfg1.N) : Vec Ideal S10000x128 .f32 := iblk1 V c 1 t
abbrev wsblk (c : Dev nD) (t : Fin cfg1.N) : Vec Ideal S128x128 .f32 := iblk1 V c 2 t
abbrev wdblk (c : Dev nD) (t : Fin cfg1.N) : Vec Ideal S128x128 .f32 := iblk1 V c 3 t
abbrev bblk (c : Dev nD) (t : Fin cfg1.N) : Vec Ideal S128 .f32 := iblk1 V c 4 t
/-- The arrays the grid reads, by their literal types. -/
abbrev sarr (c : Dev nD) : Vec Ideal S800000x128 .f32 := V c main_v11
abbrev darr (c : Dev nD) : Vec Ideal S800000x128 .f32 := V c main_v18
abbrev wsarr (c : Dev nD) : Vec Ideal S128x128 .f32 := V c main_v20
abbrev wdarr (c : Dev nD) : Vec Ideal S128x128 .f32 := V c main_v22
abbrev barr (c : Dev nD) : Vec Ideal S128 .f32 := V c main_v24

/-- The printed index maps over the eighty points: tile `t` of each row operand and of the result, the whole weight
    halves and bias row at every point. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 ∧ win1_4.index t (0 : Fin 1) = 0
    ∧ win1_5.index t (0 : Fin 2) = t.val ∧ win1_5.index t (1 : Fin 2) = 0 :=
  (by decide +kernel : ∀ t : Fin grid1.N, _)

/-- Row `p` of tile `t` of the first row operand is row `10000 t + p` of its array. -/
theorem sblk_apply (c : Dev nD) (t : Fin cfg1.N) (p : Fin 10000) (k : Fin 128) (r : Fin 800000) (hr : r.val = 10000 * t.val + p.val) :
    sblk V c t (ix2 p k) = sarr V c (ix2 r k) := by
  obtain ⟨e0, e1, -⟩ := idx_facts t
  unfold sblk iblk1
  rw [View.read_apply]
  show V c main_v11 _ = V c main_v11 _
  congr 1
  funext a
  apply Fin.ext
  match a with
  | ⟨0, _⟩ => show win1_0.index t (0 : Fin 2) * 10000 + 1 * p.val = r.val; rw [e0, hr]; omega
  | ⟨1, _⟩ => show win1_0.index t (1 : Fin 2) * 128 + 1 * k.val = k.val; rw [e1]; omega

/-- The same for the second row operand. -/
theorem dblk_apply (c : Dev nD) (t : Fin cfg1.N) (p : Fin 10000) (k : Fin 128) (r : Fin 800000) (hr : r.val = 10000 * t.val + p.val) :
    dblk V c t (ix2 p k) = darr V c (ix2 r k) := by
  obtain ⟨-, -, e0, e1, -⟩ := idx_facts t
  unfold dblk iblk1
  rw [View.read_apply]
  show V c main_v18 _ = V c main_v18 _
  congr 1
  funext a
  apply Fin.ext
  match a with
  | ⟨0, _⟩ => show win1_1.index t (0 : Fin 2) * 10000 + 1 * p.val = r.val; rw [e0, hr]; omega
  | ⟨1, _⟩ => show win1_1.index t (1 : Fin 2) * 128 + 1 * k.val = k.val; rw [e1]; omega

/-- Each weight half's block is the whole array at every point. -/
theorem wsblk_apply (c : Dev nD) (t : Fin cfg1.N) (k : Fin 128) (q : Fin 128) : wsblk V c t (ix2 k q) = wsarr V c (ix2 k q) := by
  obtain ⟨-, -, -, -, e0, e1, -⟩ := idx_facts t
  unfold wsblk iblk1
  rw [View.read_apply]
  show V c main_v20 _ = V c main_v20 _
  congr 1
  funext a
  apply Fin.ext
  match a with
  | ⟨0, _⟩ => show win1_2.index t (0 : Fin 2) * 128 + 1 * k.val = k.val; rw [e0]; omega
  | ⟨1, _⟩ => show win1_2.index t (1 : Fin 2) * 128 + 1 * q.val = q.val; rw [e1]; omega
theorem wdblk_apply (c : Dev nD) (t : Fin cfg1.N) (k : Fin 128) (q : Fin 128) : wdblk V c t (ix2 k q) = wdarr V c (ix2 k q) := by
  obtain ⟨-, -, -, -, -, -, e0, e1, -⟩ := idx_facts t
  unfold wdblk iblk1
  rw [View.read_apply]
  show V c main_v22 _ = V c main_v22 _
  congr 1
  funext a
  apply Fin.ext
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- The bias row's block is the whole row at every point. -/
theorem bblk_apply (c : Dev nD) (t : Fin cfg1.N) (q : Fin 128) : bblk V c t (ix1 q) = barr V c (ix1 q) := by
  obtain ⟨-, -, -, -, -, -, -, -, e0, -⟩ := idx_facts t
  unfold bblk iblk1
  rw [View.read_apply]
  show V c main_v24 _ = V c main_v24 _
  congr 1
  funext a
  apply Fin.ext
  match a with
  | ⟨0, _⟩ => show win1_4.index t (0 : Fin 1) * 128 + 1 * q.val = q.val; rw [e0]; omega

/-- What the array ends holding: the two-operand linear map of the five arrays the grid reads. -/
abbrev G (c : Dev nD) : Vec Ideal S800000x128 .f32 := Cert.GNN.affine2 (sarr V c) (darr V c) (wsarr V c) (wdarr V c) (barr V c)

/-- WHAT POINT `t` WRITES BACK is tile `t` of `G`. -/
theorem flushed_eq (c : Dev nD) (t : Fin cfg1.N) :
    (dat1 V c).flushed 5 t = ((cfg1.win 5).blk t).view.read (Elt Ideal) (G V c) := by
  obtain ⟨-, -, -, -, -, -, -, -, -, e0, e1⟩ := idx_facts t
  show (cfg1.win 5).cut (grid1.coords t) ((dat1 V c).after 5 t) = _
  rw [after1_5]
  unfold out1_5
  rw [View.canon_unit_zero hz2]
  simp only [View.ld_unit_zero (S := S10000x128) hz2, View.ld_unit_zero (S := S128x128) hz2, View.ld_unit_zero (S := S128) hz1]
  funext j
  obtain ⟨p, q, rfl⟩ : ∃ (p : Fin 10000) (q : Fin 128), j = ix2 p q := ⟨j 0, j 1, eq_ix2 j⟩
  have hN : cfg1.N = 80 := N_1
  have ht : t.val < 80 := by have := t.isLt; omega
  rw [View.read_apply]
  have hemb : ((cfg1.win 5).blk t).view.emb (ix2 p q) = ix2 (⟨10000 * t.val + p.val, by omega⟩ : Fin 800000) q := by
    funext a
    apply Fin.ext
    match a with
    | ⟨0, _⟩ => show win1_5.index t (0 : Fin 2) * 10000 + 1 * p.val = 10000 * t.val + p.val; rw [e0]; omega
    | ⟨1, _⟩ => show win1_5.index t (1 : Fin 2) * 128 + 1 * q.val = q.val; rw [e1]; omega
  rw [hemb]
  show k1_pay1 (sblk V c t) (dblk V c t) (wsblk V c t) (wdblk V c t) (bblk V c t) (ix2 p q)
    = Cert.GNN.affine2At (sarr V c) (darr V c) (wsarr V c) (wdarr V c) (barr V c) _ q
  rw [pay_apply (sblk V c t) (dblk V c t) (wsblk V c t) (wdblk V c t) (bblk V c t) p q]
  unfold Cert.GNN.affine2At
  simp only [sblk_apply V c t p _ ⟨10000 * t.val + p.val, by omega⟩ rfl, dblk_apply V c t p _ ⟨10000 * t.val + p.val, by omega⟩ rfl,
    wsblk_apply V c t, wdblk_apply V c t, bblk_apply V c t]

/-- An index of the array is in point `t`'s tile iff each coordinate is in the tile's range on its axis. -/
theorem mem_blk (t : Fin cfg1.N) (i : S800000x128.Idx) :
    i ∈ ((cfg1.win 5).blk t).view.set ↔ ∀ a : Fin 2, win1_5.index t a * S10000x128.size a ≤ (i a).val ∧ (i a).val < win1_5.index t a * S10000x128.size a + S10000x128.size a := by
  show i ∈ ((View.whole main_v25).slice (win1_5.rect t)).set ↔ _
  rw [View.set_slice_whole, Rect.mem_set_unit]
  exact Iff.rfl

/-- THE ARRAY after the grid: the eighty tiles cover it, so it holds `G`. -/
theorem final (c : Dev nD) : (dat1 V c).arrAt 5 cfg1.N = G V c :=
  (dat1 V c).arrAt_eq_of_cover 5 (G V c) (fun t _ => flushed_eq V c t) fun i => by
    have hi0 : (i 0).val < 800000 := (i 0).isLt
    have hi1 : (i 1).val < 128 := (i 1).isLt
    have hN : cfg1.N = 80 := N_1
    let t : Fin cfg1.N := ⟨(i 0).val / 10000, by omega⟩
    obtain ⟨-, -, -, -, -, -, -, -, -, e0, e1⟩ := idx_facts t
    refine ⟨t, flush1_5 t, ?_⟩
    rw [mem_blk]
    intro a
    match a with
    | ⟨0, _⟩ => show win1_5.index t (0 : Fin 2) * 10000 ≤ (i 0).val ∧ (i 0).val < win1_5.index t (0 : Fin 2) * 10000 + 10000; rw [e0]; show (i 0).val / 10000 * 10000 ≤ (i 0).val ∧ (i 0).val < (i 0).val / 10000 * 10000 + 10000; omega
    | ⟨1, _⟩ => show win1_5.index t (1 : Fin 2) * 128 ≤ (i 1).val ∧ (i 1).val < win1_5.index t (1 : Fin 2) * 128 + 128; rw [e1]; omega

end Cert.KernelIdeal.Region1

end
-- ==== Proof.Region2.lean ====
/-
  Grid 2, the first layer's node update, read as a value.

  Ten tiles of 5000 node rows. At a tile the body loads the tile of node features and the tile of aggregated messages
  [5000,128], the two halves of the update matrix [128,128] and the bias row, and stores
  `max ((h·wh + a·wa) + b, 0) + h`; the result's tile sits at the same rows. A row of the update reads only the same row
  of `h` and `a`, so what tile `t` writes back is tile `t` of the update of the WHOLE arrays, and the ten tiles cover the
  [50000,128] array: after the grid it holds the residual update of the arrays the grid found.
-/
import proofs.«400170_j9105330668112_3_alg».proof.Proof.Gen.KernelIdeal.Frame
import proofs.«400170_j9105330668112_3_alg».proof.Proof.Laws

set_option maxRecDepth 16384

noncomputable section

namespace Cert.KernelIdeal.Region2

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's stored value at row `p`, column `q` of a tile: the residual update of the tile's rows. -/
theorem pay_apply (x0 x1 : Vec Ideal S5000x128 .f32) (x2 x3 : Vec Ideal S128x128 .f32) (x4 : Vec Ideal S128 .f32)
    (p : Fin 5000) (q : Fin 128) : k2_pay1 x0 x1 x2 x3 x4 (ix2 p q) = Cert.GNN.nodeUpdAt x0 x1 x2 x3 x4 p q := by
  unfold k2_pay1
  simp only [shapeCast_self]
  exact Cert.GNN.nodeUpdForm_apply _ rfl x0 x1 x2 x3 x4 _ _ _ p q

/-- The tile of node features, the tile of aggregated messages, the two weight halves and the bias row the body reads at point `t`, by their literal types. -/
abbrev sblk (c : Dev nD) (t : Fin cfg2.N) : Vec Ideal S5000x128 .f32 := iblk2 V c 0 t
abbrev dblk (c : Dev nD) (t : Fin cfg2.N) : Vec Ideal S5000x128 .f32 := iblk2 V c 1 t
abbrev wsblk (c : Dev nD) (t : Fin cfg2.N) : Vec Ideal S128x128 .f32 := iblk2 V c 2 t
abbrev wdblk (c : Dev nD) (t : Fin cfg2.N) : Vec Ideal S128x128 .f32 := iblk2 V c 3 t
abbrev bblk (c : Dev nD) (t : Fin cfg2.N) : Vec Ideal S128 .f32 := iblk2 V c 4 t
/-- The arrays the grid reads, by their literal types. -/
abbrev sarr (c : Dev nD) : Vec Ideal S50000x128 .f32 := V c main_v4
abbrev darr (c : Dev nD) : Vec Ideal S50000x128 .f32 := V c main_v28
abbrev wsarr (c : Dev nD) : Vec Ideal S128x128 .f32 := V c main_v30
abbrev wdarr (c : Dev nD) : Vec Ideal S128x128 .f32 := V c main_v32
abbrev barr (c : Dev nD) : Vec Ideal S128 .f32 := V c main_v34

/-- The printed index maps over the ten points: tile `t` of each row operand and of the result, the whole weight
    halves and bias row at every point. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 ∧ win2_4.index t (0 : Fin 1) = 0
    ∧ win2_5.index t (0 : Fin 2) = t.val ∧ win2_5.index t (1 : Fin 2) = 0 :=
  (by decide +kernel : ∀ t : Fin grid2.N, _)

/-- Row `p` of tile `t` of the first row operand is row `10000 t + p` of its array. -/
theorem sblk_apply (c : Dev nD) (t : Fin cfg2.N) (p : Fin 5000) (k : Fin 128) (r : Fin 50000) (hr : r.val = 5000 * t.val + p.val) :
    sblk V c t (ix2 p k) = sarr V c (ix2 r k) := by
  obtain ⟨e0, e1, -⟩ := idx_facts t
  unfold sblk iblk2
  rw [View.read_apply]
  show V c main_v4 _ = V c main_v4 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- The same for the second row operand. -/
theorem dblk_apply (c : Dev nD) (t : Fin cfg2.N) (p : Fin 5000) (k : Fin 128) (r : Fin 50000) (hr : r.val = 5000 * t.val + p.val) :
    dblk V c t (ix2 p k) = darr V c (ix2 r k) := by
  obtain ⟨-, -, e0, e1, -⟩ := idx_facts t
  unfold dblk iblk2
  rw [View.read_apply]
  show V c main_v28 _ = V c main_v28 _
  congr 1
  funext a
  apply Fin.ext
  match a with
  | ⟨0, _⟩ => show win2_1.index t (0 : Fin 2) * 5000 + 1 * p.val = r.val; rw [e0, hr]; omega
  | ⟨1, _⟩ => show win2_1.index t (1 : Fin 2) * 128 + 1 * k.val = k.val; rw [e1]; omega

/-- Each weight half's block is the whole array at every point. -/
theorem wsblk_apply (c : Dev nD) (t : Fin cfg2.N) (k : Fin 128) (q : Fin 128) : wsblk V c t (ix2 k q) = wsarr V c (ix2 k q) := by
  obtain ⟨-, -, -, -, e0, e1, -⟩ := idx_facts t
  unfold wsblk iblk2
  rw [View.read_apply]
  show V c main_v30 _ = V c main_v30 _
  congr 1
  funext a
  apply Fin.ext
  match a with
  | ⟨0, _⟩ => show win2_2.index t (0 : Fin 2) * 128 + 1 * k.val = k.val; rw [e0]; omega
  | ⟨1, _⟩ => show win2_2.index t (1 : Fin 2) * 128 + 1 * q.val = q.val; rw [e1]; omega
theorem wdblk_apply (c : Dev nD) (t : Fin cfg2.N) (k : Fin 128) (q : Fin 128) : wdblk V c t (ix2 k q) = wdarr V c (ix2 k q) := by
  obtain ⟨-, -, -, -, -, -, e0, e1, -⟩ := idx_facts t
  unfold wdblk iblk2
  rw [View.read_apply]
  show V c main_v32 _ = V c main_v32 _
  congr 1
  funext a
  apply Fin.ext
  match a with
  | ⟨0, _⟩ => show win2_3.index t (0 : Fin 2) * 128 + 1 * k.val = k.val; rw [e0]; omega
  | ⟨1, _⟩ => show win2_3.index t (1 : Fin 2) * 128 + 1 * q.val = q.val; rw [e1]; omega

/-- The bias row's block is the whole row at every point. -/
theorem bblk_apply (c : Dev nD) (t : Fin cfg2.N) (q : Fin 128) : bblk V c t (ix1 q) = barr V c (ix1 q) := by
  obtain ⟨-, -, -, -, -, -, -, -, e0, -⟩ := idx_facts t
  unfold bblk iblk2
  rw [View.read_apply]
  show V c main_v34 _ = V c main_v34 _
  congr 1
  funext a
  apply Fin.ext
  match a with
  | ⟨0, _⟩ => show win2_4.index t (0 : Fin 1) * 128 + 1 * q.val = q.val; rw [e0]; omega

/-- What the array ends holding: the residual update of the node features by the aggregated messages. -/
abbrev G (c : Dev nD) : Vec Ideal S50000x128 .f32 := Cert.GNN.nodeUpd (sarr V c) (darr V c) (wsarr V c) (wdarr V c) (barr V c)

/-- WHAT POINT `t` WRITES BACK is tile `t` of `G`. -/
theorem flushed_eq (c : Dev nD) (t : Fin cfg2.N) :
    (dat2 V c).flushed 5 t = ((cfg2.win 5).blk t).view.read (Elt Ideal) (G V c) := by
  obtain ⟨-, -, -, -, -, -, -, -, -, e0, e1⟩ := idx_facts t
  show (cfg2.win 5).cut (grid2.coords t) ((dat2 V c).after 5 t) = _
  rw [after2_5]
  unfold out2_5
  rw [View.canon_unit_zero hz2]
  simp only [View.ld_unit_zero (S := S5000x128) hz2, View.ld_unit_zero (S := S128x128) hz2, View.ld_unit_zero (S := S128) hz1]
  funext j
  obtain ⟨p, q, rfl⟩ : ∃ (p : Fin 5000) (q : Fin 128), j = ix2 p q := ⟨j 0, j 1, eq_ix2 j⟩
  have hN : cfg2.N = 10 := N_2
  have ht : t.val < 10 := by have := t.isLt; omega
  rw [View.read_apply]
  have hemb : ((cfg2.win 5).blk t).view.emb (ix2 p q) = ix2 (⟨5000 * t.val + p.val, by omega⟩ : Fin 50000) q := by
    funext a
    apply Fin.ext
    match a with
    | ⟨0, _⟩ => show win2_5.index t (0 : Fin 2) * 5000 + 1 * p.val = 5000 * t.val + p.val; rw [e0]; omega
    | ⟨1, _⟩ => show win2_5.index t (1 : Fin 2) * 128 + 1 * q.val = q.val; rw [e1]; omega
  rw [hemb]
  show k2_pay1 (sblk V c t) (dblk V c t) (wsblk V c t) (wdblk V c t) (bblk V c t) (ix2 p q)
    = Cert.GNN.nodeUpdAt (sarr V c) (darr V c) (wsarr V c) (wdarr V c) (barr V c) _ q
  rw [pay_apply (sblk V c t) (dblk V c t) (wsblk V c t) (wdblk V c t) (bblk V c t) p q]
  unfold Cert.GNN.nodeUpdAt Cert.GNN.affine2At
  simp only [sblk_apply V c t p _ ⟨5000 * t.val + p.val, by omega⟩ rfl, dblk_apply V c t p _ ⟨5000 * t.val + p.val, by omega⟩ rfl,
    wsblk_apply V c t, wdblk_apply V c t, bblk_apply V c t]

/-- An index of the array is in point `t`'s tile iff each coordinate is in the tile's range on its axis. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v35).slice (win2_5.rect t)).set ↔ _
  rw [View.set_slice_whole, Rect.mem_set_unit]
  exact Iff.rfl

/-- THE ARRAY after the grid: the ten tiles cover it, so it holds `G`. -/
theorem final (c : Dev nD) : (dat2 V c).arrAt 5 cfg2.N = G V c :=
  (dat2 V c).arrAt_eq_of_cover 5 (G V c) (fun t _ => flushed_eq V c t) fun i => by
    have hi0 : (i 0).val < 50000 := (i 0).isLt
    have hi1 : (i 1).val < 128 := (i 1).isLt
    have hN : cfg2.N = 10 := N_2
    let t : Fin cfg2.N := ⟨(i 0).val / 5000, by omega⟩
    obtain ⟨-, -, -, -, -, -, -, -, -, e0, e1⟩ := idx_facts t
    refine ⟨t, flush2_5 t, ?_⟩
    rw [mem_blk]
    intro a
    match a with
    | ⟨0, _⟩ => show win2_5.index t (0 : Fin 2) * 5000 ≤ (i 0).val ∧ (i 0).val < win2_5.index t (0 : Fin 2) * 5000 + 5000; rw [e0]; show (i 0).val / 5000 * 5000 ≤ (i 0).val ∧ (i 0).val < (i 0).val / 5000 * 5000 + 5000; omega
    | ⟨1, _⟩ => show win2_5.index t (1 : Fin 2) * 128 ≤ (i 1).val ∧ (i 1).val < win2_5.index t (1 : Fin 2) * 128 + 128; rw [e1]; omega

end Cert.KernelIdeal.Region2

end
-- ==== Proof.Layer1.lean ====
/-
  The first layer, walked across its five boundaries of @main.

  From the node features `H` held at the layer's entry: a stretch of host operations gathers the source and destination
  rows of every edge and cuts the layer's message weights out of their stacks; Grid 1 leaves the messages; a second stretch
  sums them into their destination nodes and cuts out the update weights; Grid 2 leaves the updated features. Each
  stretch's results are read off its operations; each grid's array is the row-by-row map of the arrays it found; the index
  vectors, the arguments and `H` itself are carried across the steps that do not touch them. Together: the layer of the
  model applied to `H`.
-/
import proofs.«400170_j9105330668112_3_alg».proof.Proof.Keep
import proofs.«400170_j9105330668112_3_alg».proof.Proof.Model
import proofs.«400170_j9105330668112_3_alg».proof.Proof.Region1
import proofs.«400170_j9105330668112_3_alg».proof.Proof.Region2

set_option maxRecDepth 16384

noncomputable section

namespace Cert.KernelIdeal.Layer1

open Cert.KernelIdeal Cert.KernelIdeal.Gen Cert.KernelIdeal.Keep Cert.KernelIdeal.Model
open Idealize.ShloMosaic Idealize.ShloMosaic.TcCoe Idealize.ShloMosaic.StableHlo

variable (m : (ℓ : Loc nD τ sig) → Buf (Elt Ideal) ℓ) (ρ : Dev nD → PrngReg)

/-! ## The stretch before the message grid: the two gathers and the layer's message weights -/

set_option maxHeartbeats 2000000 in
theorem gathSrc (c : Dev nD) : W3 m ρ c (Proc.devRef .tc main_v11)
    = rowsAt (W2 m ρ c (Proc.devRef .tc main_v4)) (W2 m ρ c (Proc.devRef .tc main_v1)) := by
  show StableHlo.after hostOps1 (W2 m ρ c) (Proc.devRef .tc main_v11) = _
  after_results
  rfl
set_option maxHeartbeats 2000000 in
theorem gathDst (c : Dev nD) : W3 m ρ c (Proc.devRef .tc main_v18)
    = rowsAt (W2 m ρ c (Proc.devRef .tc main_v4)) (W2 m ρ c (Proc.devRef .tc main_v3)) := by
  show StableHlo.after hostOps1 (W2 m ρ c) (Proc.devRef .tc main_v18) = _
  after_results
  rfl
set_option maxHeartbeats 2000000 in
theorem msgTop (c : Dev nD) : W3 m ρ c (Proc.devRef .tc main_v20) = wTop0 (W2 m ρ c (Proc.devRef .tc main_arg4)) := by
  show StableHlo.after hostOps1 (W2 m ρ c) (Proc.devRef .tc main_v20) = _
  after_results
  rfl
set_option maxHeartbeats 2000000 in
theorem msgBot (c : Dev nD) : W3 m ρ c (Proc.devRef .tc main_v22) = wBot0 (W2 m ρ c (Proc.devRef .tc main_arg4)) := by
  show StableHlo.after hostOps1 (W2 m ρ c) (Proc.devRef .tc main_v22) = _
  after_results
  rfl
set_option maxHeartbeats 2000000 in
theorem msgBias (c : Dev nD) : W3 m ρ c (Proc.devRef .tc main_v24) = bRow0 (W2 m ρ c (Proc.devRef .tc main_arg5)) := by
  show StableHlo.after hostOps1 (W2 m ρ c) (Proc.devRef .tc main_v24) = _
  after_results
  rfl

/-! ## The stretch before the update grid: the segment sum and the layer's update weights -/

set_option maxHeartbeats 2000000 in
theorem segSum (c : Dev nD) : W5 m ρ c (Proc.devRef .tc main_v28)
    = sumInto (W4 m ρ c (Proc.devRef .tc main_v3)) (W4 m ρ c (Proc.devRef .tc main_v25)) := by
  show StableHlo.after hostOps2 (W4 m ρ c) (Proc.devRef .tc main_v28) = _
  after_results
  rfl
set_option maxHeartbeats 2000000 in
theorem updTop (c : Dev nD) : W5 m ρ c (Proc.devRef .tc main_v30) = wTop0 (W4 m ρ c (Proc.devRef .tc main_arg6)) := by
  show StableHlo.after hostOps2 (W4 m ρ c) (Proc.devRef .tc main_v30) = _
  after_results
  rfl
set_option maxHeartbeats 2000000 in
theorem updBot (c : Dev nD) : W5 m ρ c (Proc.devRef .tc main_v32) = wBot0 (W4 m ρ c (Proc.devRef .tc main_arg6)) := by
  show StableHlo.after hostOps2 (W4 m ρ c) (Proc.devRef .tc main_v32) = _
  after_results
  rfl
set_option maxHeartbeats 2000000 in
theorem updBias (c : Dev nD) : W5 m ρ c (Proc.devRef .tc main_v34) = bRow0 (W4 m ρ c (Proc.devRef .tc main_arg7)) := by
  show StableHlo.after hostOps2 (W4 m ρ c) (Proc.devRef .tc main_v34) = _
  after_results
  rfl

/-! ## The layer -/

set_option maxHeartbeats 2000000 in
/-- The index vectors at the layer's entry are the two rows of the edge list. -/
theorem src_at (c : Dev nD) : W2 m ρ c (Proc.devRef .tc main_v1) = edgeSrc (m ((c : Thread nD τ).loc main_arg1)) := by
  rw [since2 m ρ c main_v1 (by decide)]
  show StableHlo.after hostOps0 (W0 m ρ c) (Proc.devRef .tc main_v1) = _
  after_results
  rfl
set_option maxHeartbeats 2000000 in
theorem dst_at (c : Dev nD) : W2 m ρ c (Proc.devRef .tc main_v3) = edgeDst (m ((c : Thread nD τ).loc main_arg1)) := by
  rw [since2 m ρ c main_v3 (by decide)]
  show StableHlo.after hostOps0 (W0 m ρ c) (Proc.devRef .tc main_v3) = _
  after_results
  rfl
set_option maxHeartbeats 2000000 in
theorem dst_mid (c : Dev nD) : W4 m ρ c (Proc.devRef .tc main_v3) = edgeDst (m ((c : Thread nD τ).loc main_arg1)) := by
  rw [since4 m ρ c main_v3 (by decide)]
  show StableHlo.after hostOps0 (W0 m ρ c) (Proc.devRef .tc main_v3) = _
  after_results
  rfl

/-- The messages the first grid leaves, from the node features `H` the layer found. -/
theorem msgs (c : Dev nD) (H : FVec Ideal S50000x128 .f32) (hH : W2 m ρ c (Proc.devRef .tc main_v4) = H) :
    W4 m ρ c (Proc.devRef .tc main_v25)
      = messages H (m ((c : Thread nD τ).loc main_arg1)) (wTop0 (m ((c : Thread nD τ).loc main_arg4)))
          (wBot0 (m ((c : Thread nD τ).loc main_arg4))) (bRow0 (m ((c : Thread nD τ).loc main_arg5))) := by
  refine (W4_arr m ρ c 5).trans ?_
  rw [Region1.final (V3 m ρ) c]
  show Cert.GNN.affine2 (W3 m ρ c (Proc.devRef .tc main_v11)) (W3 m ρ c (Proc.devRef .tc main_v18))
    (W3 m ρ c (Proc.devRef .tc main_v20)) (W3 m ρ c (Proc.devRef .tc main_v22)) (W3 m ρ c (Proc.devRef .tc main_v24)) = _
  rw [gathSrc, gathDst, msgTop, msgBot, msgBias, hH, src_at, dst_at, back2 m ρ c main_arg4 (by decide), back2 m ρ c main_arg5 (by decide)]
  rfl

/-- The node features the second grid leaves: the layer applied to the features `H` it found. -/
theorem feats (c : Dev nD) (H : FVec Ideal S50000x128 .f32) (hH : W2 m ρ c (Proc.devRef .tc main_v4) = H) :
    W6 m ρ c (Proc.devRef .tc main_v35)
      = layer H (m ((c : Thread nD τ).loc main_arg1)) (wTop0 (m ((c : Thread nD τ).loc main_arg4)))
          (wBot0 (m ((c : Thread nD τ).loc main_arg4))) (bRow0 (m ((c : Thread nD τ).loc main_arg5)))
          (wTop0 (m ((c : Thread nD τ).loc main_arg6))) (wBot0 (m ((c : Thread nD τ).loc main_arg6)))
          (bRow0 (m ((c : Thread nD τ).loc main_arg7))) := by
  refine (W6_arr m ρ c 5).trans ?_
  rw [Region2.final (V5 m ρ) c]
  show Cert.GNN.nodeUpd (W5 m ρ c (Proc.devRef .tc main_v4)) (W5 m ρ c (Proc.devRef .tc main_v28))
    (W5 m ρ c (Proc.devRef .tc main_v30)) (W5 m ρ c (Proc.devRef .tc main_v32)) (W5 m ρ c (Proc.devRef .tc main_v34)) = _
  rw [keep5 m ρ c main_v4 (by decide), keep4 m ρ c main_v4 (by decide), keep3 m ρ c main_v4 (by decide), hH,
    segSum, updTop, updBot, updBias, msgs m ρ c H hH, dst_mid, back4 m ρ c main_arg6 (by decide), back4 m ρ c main_arg7 (by decide)]
  rfl

end Cert.KernelIdeal.Layer1

end
-- ==== Proof.Region3.lean ====
/-
  Grid 3, the second layer's edge messages, read as a value.

  Eighty tiles of 10000 edge rows. At a tile the body loads the tile of gathered source features and the tile of gathered
  destination features [10000,128], the two halves of the message matrix [128,128] and the bias row, and stores
  `(s·ws + d·wd) + b`; the result's tile sits at the same rows. A row of that map reads only the same row of `s` and `d`,
  so what tile `t` writes back is tile `t` of the map of the WHOLE arrays, and the eighty tiles cover the [800000,128]
  array: after the grid it holds that map of the arrays the grid found.
-/
import proofs.«400170_j9105330668112_3_alg».proof.Proof.Gen.KernelIdeal.Frame
import proofs.«400170_j9105330668112_3_alg».proof.Proof.Laws

set_option maxRecDepth 16384

noncomputable section

namespace Cert.KernelIdeal.Region3

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's stored value at row `p`, column `q` of a tile: the two-operand linear map of the tile's rows. -/
theorem pay_apply (x0 x1 : Vec Ideal S10000x128 .f32) (x2 x3 : Vec Ideal S128x128 .f32) (x4 : Vec Ideal S128 .f32)
    (p : Fin 10000) (q : Fin 128) : k3_pay1 x0 x1 x2 x3 x4 (ix2 p q) = Cert.GNN.affine2At x0 x1 x2 x3 x4 p q := by
  unfold k3_pay1
  simp only [shapeCast_self]
  exact Cert.GNN.matmul2Bias_apply _ rfl x0 x1 x2 x3 x4 _ _ _ p q

/-- The two tiles of rows, the two weight halves and the bias row the body reads at point `t`, by their literal types. -/
abbrev sblk (c : Dev nD) (t : Fin cfg3.N) : Vec Ideal S10000x128 .f32 := iblk3 V c 0 t
abbrev dblk (c : Dev nD) (t : Fin cfg3.N) : Vec Ideal S10000x128 .f32 := iblk3 V c 1 t
abbrev wsblk (c : Dev nD) (t : Fin cfg3.N) : Vec Ideal S128x128 .f32 := iblk3 V c 2 t
abbrev wdblk (c : Dev nD) (t : Fin cfg3.N) : Vec Ideal S128x128 .f32 := iblk3 V c 3 t
abbrev bblk (c : Dev nD) (t : Fin cfg3.N) : Vec Ideal S128 .f32 := iblk3 V c 4 t
/-- The arrays the grid reads, by their literal types. -/
abbrev sarr (c : Dev nD) : Vec Ideal S800000x128 .f32 := V c main_v42
abbrev darr (c : Dev nD) : Vec Ideal S800000x128 .f32 := V c main_v49
abbrev wsarr (c : Dev nD) : Vec Ideal S128x128 .f32 := V c main_v51
abbrev wdarr (c : Dev nD) : Vec Ideal S128x128 .f32 := V c main_v53
abbrev barr (c : Dev nD) : Vec Ideal S128 .f32 := V c main_v55

/-- The printed index maps over the eighty points: tile `t` of each row operand and of the result, the whole weight
    halves and bias row at every point. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 ∧ win3_4.index t (0 : Fin 1) = 0
    ∧ win3_5.index t (0 : Fin 2) = t.val ∧ win3_5.index t (1 : Fin 2) = 0 :=
  (by decide +kernel : ∀ t : Fin grid3.N, _)

/-- Row `p` of tile `t` of the first row operand is row `10000 t + p` of its array. -/
theorem sblk_apply (c : Dev nD) (t : Fin cfg3.N) (p : Fin 10000) (k : Fin 128) (r : Fin 800000) (hr : r.val = 10000 * t.val + p.val) :
    sblk V c t (ix2 p k) = sarr V c (ix2 r k) := by
  obtain ⟨e0, e1, -⟩ := idx_facts t
  unfold sblk iblk3
  rw [View.read_apply]
  show V c main_v42 _ = V c main_v42 _
  congr 1
  funext a
  apply Fin.ext
  match a with
  | ⟨0, _⟩ => show win3_0.index t (0 : Fin 2) * 10000 + 1 * p.val = r.val; rw [e0, hr]; omega
  | ⟨1, _⟩ => show win3_0.index t (1 : Fin 2) * 128 + 1 * k.val = k.val; rw [e1]; omega

/-- The same for the second row operand. -/
theorem dblk_apply (c : Dev nD) (t : Fin cfg3.N) (p : Fin 10000) (k : Fin 128) (r : Fin 800000) (hr : r.val = 10000 * t.val + p.val) :
    dblk V c t (ix2 p k) = darr V c (ix2 r k) := by
  obtain ⟨-, -, e0, e1, -⟩ := idx_facts t
  unfold dblk iblk3
  rw [View.read_apply]
  show V c main_v49 _ = V c main_v49 _
  congr 1
  funext a
  apply Fin.ext
  match a with
  | ⟨0, _⟩ => show win3_1.index t (0 : Fin 2) * 10000 + 1 * p.val = r.val; rw [e0, hr]; omega
  | ⟨1, _⟩ => show win3_1.index t (1 : Fin 2) * 128 + 1 * k.val = k.val; rw [e1]; omega

/-- Each weight half's block is the whole array at every point. -/
theorem wsblk_apply (c : Dev nD) (t : Fin cfg3.N) (k : Fin 128) (q : Fin 128) : wsblk V c t (ix2 k q) = wsarr V c (ix2 k q) := by
  obtain ⟨-, -, -, -, e0, e1, -⟩ := idx_facts t
  unfold wsblk iblk3
  rw [View.read_apply]
  show V c main_v51 _ = V c main_v51 _
  congr 1
  funext a
  apply Fin.ext
  match a with
  | ⟨0, _⟩ => show win3_2.index t (0 : Fin 2) * 128 + 1 * k.val = k.val; rw [e0]; omega
  | ⟨1, _⟩ => show win3_2.index t (1 : Fin 2) * 128 + 1 * q.val = q.val; rw [e1]; omega
theorem wdblk_apply (c : Dev nD) (t : Fin cfg3.N) (k : Fin 128) (q : Fin 128) : wdblk V c t (ix2 k q) = wdarr V c (ix2 k q) := by
  obtain ⟨-, -, -, -, -, -, e0, e1, -⟩ := idx_facts t
  unfold wdblk iblk3
  rw [View.read_apply]
  show V c main_v53 _ = V c main_v53 _
  congr 1
  funext a
  apply Fin.ext
  match a with
  | ⟨0, _⟩ => show win3_3.index t (0 : Fin 2) * 128 + 1 * k.val = k.val; rw [e0]; omega
  | ⟨1, _⟩ => show win3_3.index t (1 : Fin 2) * 128 + 1 * q.val = q.val; rw [e1]; omega

/-- The bias row's block is the whole row at every point. -/
theorem bblk_apply (c : Dev nD) (t : Fin cfg3.N) (q : Fin 128) : bblk V c t (ix1 q) = barr V c (ix1 q) := by
  obtain ⟨-, -, -, -, -, -, -, -, e0, -⟩ := idx_facts t
  unfold bblk iblk3
  rw [View.read_apply]
  show V c main_v55 _ = V c main_v55 _
  congr 1
  funext a
  apply Fin.ext
  match a with
  | ⟨0, _⟩ => show win3_4.index t (0 : Fin 1) * 128 + 1 * q.val = q.val; rw [e0]; omega

/-- What the array ends holding: the two-operand linear map of the five arrays the grid reads. -/
abbrev G (c : Dev nD) : Vec Ideal S800000x128 .f32 := Cert.GNN.affine2 (sarr V c) (darr V c) (wsarr V c) (wdarr V c) (barr V c)

/-- WHAT POINT `t` WRITES BACK is tile `t` of `G`. -/
theorem flushed_eq (c : Dev nD) (t : Fin cfg3.N) :
    (dat3 V c).flushed 5 t = ((cfg3.win 5).blk t).view.read (Elt Ideal) (G V c) := by
  obtain ⟨-, -, -, -, -, -, -, -, -, e0, e1⟩ := idx_facts t
  show (cfg3.win 5).cut (grid3.coords t) ((dat3 V c).after 5 t) = _
  rw [after3_5]
  unfold out3_5
  rw [View.canon_unit_zero hz2]
  simp only [View.ld_unit_zero (S := S10000x128) hz2, View.ld_unit_zero (S := S128x128) hz2, View.ld_unit_zero (S := S128) hz1]
  funext j
  obtain ⟨p, q, rfl⟩ : ∃ (p : Fin 10000) (q : Fin 128), j = ix2 p q := ⟨j 0, j 1, eq_ix2 j⟩
  have hN : cfg3.N = 80 := N_3
  have ht : t.val < 80 := by have := t.isLt; omega
  rw [View.read_apply]
  have hemb : ((cfg3.win 5).blk t).view.emb (ix2 p q) = ix2 (⟨10000 * t.val + p.val, by omega⟩ : Fin 800000) q := by
    funext a
    apply Fin.ext
    match a with
    | ⟨0, _⟩ => show win3_5.index t (0 : Fin 2) * 10000 + 1 * p.val = 10000 * t.val + p.val; rw [e0]; omega
    | ⟨1, _⟩ => show win3_5.index t (1 : Fin 2) * 128 + 1 * q.val = q.val; rw [e1]; omega
  rw [hemb]
  show k3_pay1 (sblk V c t) (dblk V c t) (wsblk V c t) (wdblk V c t) (bblk V c t) (ix2 p q)
    = Cert.GNN.affine2At (sarr V c) (darr V c) (wsarr V c) (wdarr V c) (barr V c) _ q
  rw [pay_apply (sblk V c t) (dblk V c t) (wsblk V c t) (wdblk V c t) (bblk V c t) p q]
  unfold Cert.GNN.affine2At
  simp only [sblk_apply V c t p _ ⟨10000 * t.val + p.val, by omega⟩ rfl, dblk_apply V c t p _ ⟨10000 * t.val + p.val, by omega⟩ rfl,
    wsblk_apply V c t, wdblk_apply V c t, bblk_apply V c t]

/-- An index of the array is in point `t`'s tile iff each coordinate is in the tile's range on its axis. -/
theorem mem_blk (t : Fin cfg3.N) (i : S800000x128.Idx) :
    i ∈ ((cfg3.win 5).blk t).view.set ↔ ∀ a : Fin 2, win3_5.index t a * S10000x128.size a ≤ (i a).val ∧ (i a).val < win3_5.index t a * S10000x128.size a + S10000x128.size a := by
  show i ∈ ((View.whole main_v56).slice (win3_5.rect t)).set ↔ _
  rw [View.set_slice_whole, Rect.mem_set_unit]
  exact Iff.rfl

/-- THE ARRAY after the grid: the eighty tiles cover it, so it holds `G`. -/
theorem final (c : Dev nD) : (dat3 V c).arrAt 5 cfg3.N = G V c :=
  (dat3 V c).arrAt_eq_of_cover 5 (G V c) (fun t _ => flushed_eq V c t) fun i => by
    have hi0 : (i 0).val < 800000 := (i 0).isLt
    have hi1 : (i 1).val < 128 := (i 1).isLt
    have hN : cfg3.N = 80 := N_3
    let t : Fin cfg3.N := ⟨(i 0).val / 10000, by omega⟩
    obtain ⟨-, -, -, -, -, -, -, -, -, e0, e1⟩ := idx_facts t
    refine ⟨t, flush3_5 t, ?_⟩
    rw [mem_blk]
    intro a
    match a with
    | ⟨0, _⟩ => show win3_5.index t (0 : Fin 2) * 10000 ≤ (i 0).val ∧ (i 0).val < win3_5.index t (0 : Fin 2) * 10000 + 10000; rw [e0]; show (i 0).val / 10000 * 10000 ≤ (i 0).val ∧ (i 0).val < (i 0).val / 10000 * 10000 + 10000; omega
    | ⟨1, _⟩ => show win3_5.index t (1 : Fin 2) * 128 ≤ (i 1).val ∧ (i 1).val < win3_5.index t (1 : Fin 2) * 128 + 128; rw [e1]; omega

end Cert.KernelIdeal.Region3

end
-- ==== Proof.Region4.lean ====
/-
  Grid 4, the second layer's node update, read as a value.

  Ten tiles of 5000 node rows. At a tile the body loads the tile of node features and the tile of aggregated messages
  [5000,128], the two halves of the update matrix [128,128] and the bias row, and stores
  `max ((h·wh + a·wa) + b, 0) + h`; the result's tile sits at the same rows. A row of the update reads only the same row
  of `h` and `a`, so what tile `t` writes back is tile `t` of the update of the WHOLE arrays, and the ten tiles cover the
  [50000,128] array: after the grid it holds the residual update of the arrays the grid found.
-/
import proofs.«400170_j9105330668112_3_alg».proof.Proof.Gen.KernelIdeal.Frame
import proofs.«400170_j9105330668112_3_alg».proof.Proof.Laws

set_option maxRecDepth 16384

noncomputable section

namespace Cert.KernelIdeal.Region4

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's stored value at row `p`, column `q` of a tile: the residual update of the tile's rows. -/
theorem pay_apply (x0 x1 : Vec Ideal S5000x128 .f32) (x2 x3 : Vec Ideal S128x128 .f32) (x4 : Vec Ideal S128 .f32)
    (p : Fin 5000) (q : Fin 128) : k4_pay1 x0 x1 x2 x3 x4 (ix2 p q) = Cert.GNN.nodeUpdAt x0 x1 x2 x3 x4 p q := by
  unfold k4_pay1
  simp only [shapeCast_self]
  exact Cert.GNN.nodeUpdForm_apply _ rfl x0 x1 x2 x3 x4 _ _ _ p q

/-- The tile of node features, the tile of aggregated messages, the two weight halves and the bias row the body reads at point `t`, by their literal types. -/
abbrev sblk (c : Dev nD) (t : Fin cfg4.N) : Vec Ideal S5000x128 .f32 := iblk4 V c 0 t
abbrev dblk (c : Dev nD) (t : Fin cfg4.N) : Vec Ideal S5000x128 .f32 := iblk4 V c 1 t
abbrev wsblk (c : Dev nD) (t : Fin cfg4.N) : Vec Ideal S128x128 .f32 := iblk4 V c 2 t
abbrev wdblk (c : Dev nD) (t : Fin cfg4.N) : Vec Ideal S128x128 .f32 := iblk4 V c 3 t
abbrev bblk (c : Dev nD) (t : Fin cfg4.N) : Vec Ideal S128 .f32 := iblk4 V c 4 t
/-- The arrays the grid reads, by their literal types. -/
abbrev sarr (c : Dev nD) : Vec Ideal S50000x128 .f32 := V c main_v35
abbrev darr (c : Dev nD) : Vec Ideal S50000x128 .f32 := V c main_v59
abbrev wsarr (c : Dev nD) : Vec Ideal S128x128 .f32 := V c main_v61
abbrev wdarr (c : Dev nD) : Vec Ideal S128x128 .f32 := V c main_v63
abbrev barr (c : Dev nD) : Vec Ideal S128 .f32 := V c main_v65

/-- The printed index maps over the ten points: tile `t` of each row operand and of the result, the whole weight
    halves and bias row at every point. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 ∧ win4_4.index t (0 : Fin 1) = 0
    ∧ win4_5.index t (0 : Fin 2) = t.val ∧ win4_5.index t (1 : Fin 2) = 0 :=
  (by decide +kernel : ∀ t : Fin grid4.N, _)

/-- Row `p` of tile `t` of the first row operand is row `10000 t + p` of its array. -/
theorem sblk_apply (c : Dev nD) (t : Fin cfg4.N) (p : Fin 5000) (k : Fin 128) (r : Fin 50000) (hr : r.val = 5000 * t.val + p.val) :
    sblk V c t (ix2 p k) = sarr V c (ix2 r k) := by
  obtain ⟨e0, e1, -⟩ := idx_facts t
  unfold sblk iblk4
  rw [View.read_apply]
  show V c main_v35 _ = V c main_v35 _
  congr 1
  funext a
  apply Fin.ext
  match a with
  | ⟨0, _⟩ => show win4_0.index t (0 : Fin 2) * 5000 + 1 * p.val = r.val; rw [e0, hr]; omega
  | ⟨1, _⟩ => show win4_0.index t (1 : Fin 2) * 128 + 1 * k.val = k.val; rw [e1]; omega

/-- The same for the second row operand. -/
theorem dblk_apply (c : Dev nD) (t : Fin cfg4.N) (p : Fin 5000) (k : Fin 128) (r : Fin 50000) (hr : r.val = 5000 * t.val + p.val) :
    dblk V c t (ix2 p k) = darr V c (ix2 r k) := by
  obtain ⟨-, -, e0, e1, -⟩ := idx_facts t
  unfold dblk iblk4
  rw [View.read_apply]
  show V c main_v59 _ = V c main_v59 _
  congr 1
  funext a
  apply Fin.ext
  match a with
  | ⟨0, _⟩ => show win4_1.index t (0 : Fin 2) * 5000 + 1 * p.val = r.val; rw [e0, hr]; omega
  | ⟨1, _⟩ => show win4_1.index t (1 : Fin 2) * 128 + 1 * k.val = k.val; rw [e1]; omega

/-- Each weight half's block is the whole array at every point. -/
theorem wsblk_apply (c : Dev nD) (t : Fin cfg4.N) (k : Fin 128) (q : Fin 128) : wsblk V c t (ix2 k q) = wsarr V c (ix2 k q) := by
  obtain ⟨-, -, -, -, e0, e1, -⟩ := idx_facts t
  unfold wsblk iblk4
  rw [View.read_apply]
  show V c main_v61 _ = V c main_v61 _
  congr 1
  funext a
  apply Fin.ext
  match a with
  | ⟨0, _⟩ => show win4_2.index t (0 : Fin 2) * 128 + 1 * k.val = k.val; rw [e0]; omega
  | ⟨1, _⟩ => show win4_2.index t (1 : Fin 2) * 128 + 1 * q.val = q.val; rw [e1]; omega
theorem wdblk_apply (c : Dev nD) (t : Fin cfg4.N) (k : Fin 128) (q : Fin 128) : wdblk V c t (ix2 k q) = wdarr V c (ix2 k q) := by
  obtain ⟨-, -, -, -, -, -, e0, e1, -⟩ := idx_facts t
  unfold wdblk iblk4
  rw [View.read_apply]
  show V c main_v63 _ = V c main_v63 _
  congr 1
  funext a
  apply Fin.ext
  match a with
  | ⟨0, _⟩ => show win4_3.index t (0 : Fin 2) * 128 + 1 * k.val = k.val; rw [e0]; omega
  | ⟨1, _⟩ => show win4_3.index t (1 : Fin 2) * 128 + 1 * q.val = q.val; rw [e1]; omega

/-- The bias row's block is the whole row at every point. -/
theorem bblk_apply (c : Dev nD) (t : Fin cfg4.N) (q : Fin 128) : bblk V c t (ix1 q) = barr V c (ix1 q) := by
  obtain ⟨-, -, -, -, -, -, -, -, e0, -⟩ := idx_facts t
  unfold bblk iblk4
  rw [View.read_apply]
  show V c main_v65 _ = V c main_v65 _
  congr 1
  funext a
  apply Fin.ext
  match a with
  | ⟨0, _⟩ => show win4_4.index t (0 : Fin 1) * 128 + 1 * q.val = q.val; rw [e0]; omega

/-- What the array ends holding: the residual update of the node features by the aggregated messages. -/
abbrev G (c : Dev nD) : Vec Ideal S50000x128 .f32 := Cert.GNN.nodeUpd (sarr V c) (darr V c) (wsarr V c) (wdarr V c) (barr V c)

/-- WHAT POINT `t` WRITES BACK is tile `t` of `G`. -/
theorem flushed_eq (c : Dev nD) (t : Fin cfg4.N) :
    (dat4 V c).flushed 5 t = ((cfg4.win 5).blk t).view.read (Elt Ideal) (G V c) := by
  obtain ⟨-, -, -, -, -, -, -, -, -, e0, e1⟩ := idx_facts t
  show (cfg4.win 5).cut (grid4.coords t) ((dat4 V c).after 5 t) = _
  rw [after4_5]
  unfold out4_5
  rw [View.canon_unit_zero hz2]
  simp only [View.ld_unit_zero (S := S5000x128) hz2, View.ld_unit_zero (S := S128x128) hz2, View.ld_unit_zero (S := S128) hz1]
  funext j
  obtain ⟨p, q, rfl⟩ : ∃ (p : Fin 5000) (q : Fin 128), j = ix2 p q := ⟨j 0, j 1, eq_ix2 j⟩
  have hN : cfg4.N = 10 := N_4
  have ht : t.val < 10 := by have := t.isLt; omega
  rw [View.read_apply]
  have hemb : ((cfg4.win 5).blk t).view.emb (ix2 p q) = ix2 (⟨5000 * t.val + p.val, by omega⟩ : Fin 50000) q := by
    funext a
    apply Fin.ext
    match a with
    | ⟨0, _⟩ => show win4_5.index t (0 : Fin 2) * 5000 + 1 * p.val = 5000 * t.val + p.val; rw [e0]; omega
    | ⟨1, _⟩ => show win4_5.index t (1 : Fin 2) * 128 + 1 * q.val = q.val; rw [e1]; omega
  rw [hemb]
  show k4_pay1 (sblk V c t) (dblk V c t) (wsblk V c t) (wdblk V c t) (bblk V c t) (ix2 p q)
    = Cert.GNN.nodeUpdAt (sarr V c) (darr V c) (wsarr V c) (wdarr V c) (barr V c) _ q
  rw [pay_apply (sblk V c t) (dblk V c t) (wsblk V c t) (wdblk V c t) (bblk V c t) p q]
  unfold Cert.GNN.nodeUpdAt Cert.GNN.affine2At
  simp only [sblk_apply V c t p _ ⟨5000 * t.val + p.val, by omega⟩ rfl, dblk_apply V c t p _ ⟨5000 * t.val + p.val, by omega⟩ rfl,
    wsblk_apply V c t, wdblk_apply V c t, bblk_apply V c t]

/-- An index of the array is in point `t`'s tile iff each coordinate is in the tile's range on its axis. -/
theorem mem_blk (t : Fin cfg4.N) (i : S50000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v66).slice (win4_5.rect t)).set ↔ _
  rw [View.set_slice_whole, Rect.mem_set_unit]
  exact Iff.rfl

/-- THE ARRAY after the grid: the ten tiles cover it, so it holds `G`. -/
theorem final (c : Dev nD) : (dat4 V c).arrAt 5 cfg4.N = G V c :=
  (dat4 V c).arrAt_eq_of_cover 5 (G V c) (fun t _ => flushed_eq V c t) fun i => by
    have hi0 : (i 0).val < 50000 := (i 0).isLt
    have hi1 : (i 1).val < 128 := (i 1).isLt
    have hN : cfg4.N = 10 := N_4
    let t : Fin cfg4.N := ⟨(i 0).val / 5000, by omega⟩
    obtain ⟨-, -, -, -, -, -, -, -, -, e0, e1⟩ := idx_facts t
    refine ⟨t, flush4_5 t, ?_⟩
    rw [mem_blk]
    intro a
    match a with
    | ⟨0, _⟩ => show win4_5.index t (0 : Fin 2) * 5000 ≤ (i 0).val ∧ (i 0).val < win4_5.index t (0 : Fin 2) * 5000 + 5000; rw [e0]; show (i 0).val / 5000 * 5000 ≤ (i 0).val ∧ (i 0).val < (i 0).val / 5000 * 5000 + 5000; omega
    | ⟨1, _⟩ => show win4_5.index t (1 : Fin 2) * 128 ≤ (i 1).val ∧ (i 1).val < win4_5.index t (1 : Fin 2) * 128 + 128; rw [e1]; omega

end Cert.KernelIdeal.Region4

end
-- ==== Proof.Layer2.lean ====
/-
  The second layer, walked across its five boundaries of @main.

  From the node features `H` held at the layer's entry: a stretch of host operations gathers the source and destination
  rows of every edge and cuts the layer's message weights out of their stacks; Grid 3 leaves the messages; a second stretch
  sums them into their destination nodes and cuts out the update weights; Grid 4 leaves the updated features. Each
  stretch's results are read off its operations; each grid's array is the row-by-row map of the arrays it found; the index
  vectors, the arguments and `H` itself are carried across the steps that do not touch them. Together: the layer of the
  model applied to `H`.
-/
import proofs.«400170_j9105330668112_3_alg».proof.Proof.Keep
import proofs.«400170_j9105330668112_3_alg».proof.Proof.Model
import proofs.«400170_j9105330668112_3_alg».proof.Proof.Region3
import proofs.«400170_j9105330668112_3_alg».proof.Proof.Region4

set_option maxRecDepth 16384

noncomputable section

namespace Cert.KernelIdeal.Layer2

open Cert.KernelIdeal Cert.KernelIdeal.Gen Cert.KernelIdeal.Keep Cert.KernelIdeal.Model
open Idealize.ShloMosaic Idealize.ShloMosaic.TcCoe Idealize.ShloMosaic.StableHlo

variable (m : (ℓ : Loc nD τ sig) → Buf (Elt Ideal) ℓ) (ρ : Dev nD → PrngReg)

/-! ## The stretch before the message grid: the two gathers and the layer's message weights -/

set_option maxHeartbeats 2000000 in
theorem gathSrc (c : Dev nD) : W7 m ρ c (Proc.devRef .tc main_v42)
    = rowsAt (W6 m ρ c (Proc.devRef .tc main_v35)) (W6 m ρ c (Proc.devRef .tc main_v1)) := by
  show StableHlo.after hostOps3 (W6 m ρ c) (Proc.devRef .tc main_v42) = _
  after_results
  rfl
set_option maxHeartbeats 2000000 in
theorem gathDst (c : Dev nD) : W7 m ρ c (Proc.devRef .tc main_v49)
    = rowsAt (W6 m ρ c (Proc.devRef .tc main_v35)) (W6 m ρ c (Proc.devRef .tc main_v3)) := by
  show StableHlo.after hostOps3 (W6 m ρ c) (Proc.devRef .tc main_v49) = _
  after_results
  rfl
set_option maxHeartbeats 2000000 in
theorem msgTop (c : Dev nD) : W7 m ρ c (Proc.devRef .tc main_v51) = wTop1 (W6 m ρ c (Proc.devRef .tc main_arg4)) := by
  show StableHlo.after hostOps3 (W6 m ρ c) (Proc.devRef .tc main_v51) = _
  after_results
  rfl
set_option maxHeartbeats 2000000 in
theorem msgBot (c : Dev nD) : W7 m ρ c (Proc.devRef .tc main_v53) = wBot1 (W6 m ρ c (Proc.devRef .tc main_arg4)) := by
  show StableHlo.after hostOps3 (W6 m ρ c) (Proc.devRef .tc main_v53) = _
  after_results
  rfl
set_option maxHeartbeats 2000000 in
theorem msgBias (c : Dev nD) : W7 m ρ c (Proc.devRef .tc main_v55) = bRow1 (W6 m ρ c (Proc.devRef .tc main_arg5)) := by
  show StableHlo.after hostOps3 (W6 m ρ c) (Proc.devRef .tc main_v55) = _
  after_results
  rfl

/-! ## The stretch before the update grid: the segment sum and the layer's update weights -/

set_option maxHeartbeats 2000000 in
theorem segSum (c : Dev nD) : W9 m ρ c (Proc.devRef .tc main_v59)
    = sumInto (W8 m ρ c (Proc.devRef .tc main_v3)) (W8 m ρ c (Proc.devRef .tc main_v56)) := by
  show StableHlo.after hostOps4 (W8 m ρ c) (Proc.devRef .tc main_v59) = _
  after_results
  rfl
set_option maxHeartbeats 2000000 in
theorem updTop (c : Dev nD) : W9 m ρ c (Proc.devRef .tc main_v61) = wTop1 (W8 m ρ c (Proc.devRef .tc main_arg6)) := by
  show StableHlo.after hostOps4 (W8 m ρ c) (Proc.devRef .tc main_v61) = _
  after_results
  rfl
set_option maxHeartbeats 2000000 in
theorem updBot (c : Dev nD) : W9 m ρ c (Proc.devRef .tc main_v63) = wBot1 (W8 m ρ c (Proc.devRef .tc main_arg6)) := by
  show StableHlo.after hostOps4 (W8 m ρ c) (Proc.devRef .tc main_v63) = _
  after_results
  rfl
set_option maxHeartbeats 2000000 in
theorem updBias (c : Dev nD) : W9 m ρ c (Proc.devRef .tc main_v65) = bRow1 (W8 m ρ c (Proc.devRef .tc main_arg7)) := by
  show StableHlo.after hostOps4 (W8 m ρ c) (Proc.devRef .tc main_v65) = _
  after_results
  rfl

/-! ## The layer -/

set_option maxHeartbeats 2000000 in
/-- The index vectors at the layer's entry are the two rows of the edge list. -/
theorem src_at (c : Dev nD) : W6 m ρ c (Proc.devRef .tc main_v1) = edgeSrc (m ((c : Thread nD τ).loc main_arg1)) := by
  rw [since6 m ρ c main_v1 (by decide)]
  show StableHlo.after hostOps0 (W0 m ρ c) (Proc.devRef .tc main_v1) = _
  after_results
  rfl
set_option maxHeartbeats 2000000 in
theorem dst_at (c : Dev nD) : W6 m ρ c (Proc.devRef .tc main_v3) = edgeDst (m ((c : Thread nD τ).loc main_arg1)) := by
  rw [since6 m ρ c main_v3 (by decide)]
  show StableHlo.after hostOps0 (W0 m ρ c) (Proc.devRef .tc main_v3) = _
  after_results
  rfl
set_option maxHeartbeats 2000000 in
theorem dst_mid (c : Dev nD) : W8 m ρ c (Proc.devRef .tc main_v3) = edgeDst (m ((c : Thread nD τ).loc main_arg1)) := by
  rw [since8 m ρ c main_v3 (by decide)]
  show StableHlo.after hostOps0 (W0 m ρ c) (Proc.devRef .tc main_v3) = _
  after_results
  rfl

/-- The messages the first grid leaves, from the node features `H` the layer found. -/
theorem msgs (c : Dev nD) (H : FVec Ideal S50000x128 .f32) (hH : W6 m ρ c (Proc.devRef .tc main_v35) = H) :
    W8 m ρ c (Proc.devRef .tc main_v56)
      = messages H (m ((c : Thread nD τ).loc main_arg1)) (wTop1 (m ((c : Thread nD τ).loc main_arg4)))
          (wBot1 (m ((c : Thread nD τ).loc main_arg4))) (bRow1 (m ((c : Thread nD τ).loc main_arg5))) := by
  refine (W8_arr m ρ c 5).trans ?_
  rw [Region3.final (V7 m ρ) c]
  show Cert.GNN.affine2 (W7 m ρ c (Proc.devRef .tc main_v42)) (W7 m ρ c (Proc.devRef .tc main_v49))
    (W7 m ρ c (Proc.devRef .tc main_v51)) (W7 m ρ c (Proc.devRef .tc main_v53)) (W7 m ρ c (Proc.devRef .tc main_v55)) = _
  rw [gathSrc, gathDst, msgTop, msgBot, msgBias, hH, src_at, dst_at, back6 m ρ c main_arg4 (by decide), back6 m ρ c main_arg5 (by decide)]
  rfl

/-- The node features the second grid leaves: the layer applied to the features `H` it found. -/
theorem feats (c : Dev nD) (H : FVec Ideal S50000x128 .f32) (hH : W6 m ρ c (Proc.devRef .tc main_v35) = H) :
    W10 m ρ c (Proc.devRef .tc main_v66)
      = layer H (m ((c : Thread nD τ).loc main_arg1)) (wTop1 (m ((c : Thread nD τ).loc main_arg4)))
          (wBot1 (m ((c : Thread nD τ).loc main_arg4))) (bRow1 (m ((c : Thread nD τ).loc main_arg5)))
          (wTop1 (m ((c : Thread nD τ).loc main_arg6))) (wBot1 (m ((c : Thread nD τ).loc main_arg6)))
          (bRow1 (m ((c : Thread nD τ).loc main_arg7))) := by
  refine (W10_arr m ρ c 5).trans ?_
  rw [Region4.final (V9 m ρ) c]
  show Cert.GNN.nodeUpd (W9 m ρ c (Proc.devRef .tc main_v35)) (W9 m ρ c (Proc.devRef .tc main_v59))
    (W9 m ρ c (Proc.devRef .tc main_v61)) (W9 m ρ c (Proc.devRef .tc main_v63)) (W9 m ρ c (Proc.devRef .tc main_v65)) = _
  rw [keep9 m ρ c main_v35 (by decide), keep8 m ρ c main_v35 (by decide), keep7 m ρ c main_v35 (by decide), hH,
    segSum, updTop, updBot, updBias, msgs m ρ c H hH, dst_mid, back8 m ρ c main_arg6 (by decide), back8 m ρ c main_arg7 (by decide)]
  rfl

end Cert.KernelIdeal.Layer2

end
-- ==== Proof.Region5.lean ====
/-
  Grid 5, the third layer's edge messages, read as a value.

  Eighty tiles of 10000 edge rows. At a tile the body loads the tile of gathered source features and the tile of gathered
  destination features [10000,128], the two halves of the message matrix [128,128] and the bias row, and stores
  `(s·ws + d·wd) + b`; the result's tile sits at the same rows. A row of that map reads only the same row of `s` and `d`,
  so what tile `t` writes back is tile `t` of the map of the WHOLE arrays, and the eighty tiles cover the [800000,128]
  array: after the grid it holds that map of the arrays the grid found.
-/
import proofs.«400170_j9105330668112_3_alg».proof.Proof.Gen.KernelIdeal.Frame
import proofs.«400170_j9105330668112_3_alg».proof.Proof.Laws

set_option maxRecDepth 16384

noncomputable section

namespace Cert.KernelIdeal.Region5

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's stored value at row `p`, column `q` of a tile: the two-operand linear map of the tile's rows. -/
theorem pay_apply (x0 x1 : Vec Ideal S10000x128 .f32) (x2 x3 : Vec Ideal S128x128 .f32) (x4 : Vec Ideal S128 .f32)
    (p : Fin 10000) (q : Fin 128) : k5_pay1 x0 x1 x2 x3 x4 (ix2 p q) = Cert.GNN.affine2At x0 x1 x2 x3 x4 p q := by
  unfold k5_pay1
  simp only [shapeCast_self]
  exact Cert.GNN.matmul2Bias_apply _ rfl x0 x1 x2 x3 x4 _ _ _ p q

/-- The two tiles of rows, the two weight halves and the bias row the body reads at point `t`, by their literal types. -/
abbrev sblk (c : Dev nD) (t : Fin cfg5.N) : Vec Ideal S10000x128 .f32 := iblk5 V c 0 t
abbrev dblk (c : Dev nD) (t : Fin cfg5.N) : Vec Ideal S10000x128 .f32 := iblk5 V c 1 t
abbrev wsblk (c : Dev nD) (t : Fin cfg5.N) : Vec Ideal S128x128 .f32 := iblk5 V c 2 t
abbrev wdblk (c : Dev nD) (t : Fin cfg5.N) : Vec Ideal S128x128 .f32 := iblk5 V c 3 t
abbrev bblk (c : Dev nD) (t : Fin cfg5.N) : Vec Ideal S128 .f32 := iblk5 V c 4 t
/-- The arrays the grid reads, by their literal types. -/
abbrev sarr (c : Dev nD) : Vec Ideal S800000x128 .f32 := V c main_v73
abbrev darr (c : Dev nD) : Vec Ideal S800000x128 .f32 := V c main_v80
abbrev wsarr (c : Dev nD) : Vec Ideal S128x128 .f32 := V c main_v82
abbrev wdarr (c : Dev nD) : Vec Ideal S128x128 .f32 := V c main_v84
abbrev barr (c : Dev nD) : Vec Ideal S128 .f32 := V c main_v86

/-- The printed index maps over the eighty points: tile `t` of each row operand and of the result, the whole weight
    halves and bias row at every point. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0 ∧ win5_4.index t (0 : Fin 1) = 0
    ∧ win5_5.index t (0 : Fin 2) = t.val ∧ win5_5.index t (1 : Fin 2) = 0 :=
  (by decide +kernel : ∀ t : Fin grid5.N, _)

/-- Row `p` of tile `t` of the first row operand is row `10000 t + p` of its array. -/
theorem sblk_apply (c : Dev nD) (t : Fin cfg5.N) (p : Fin 10000) (k : Fin 128) (r : Fin 800000) (hr : r.val = 10000 * t.val + p.val) :
    sblk V c t (ix2 p k) = sarr V c (ix2 r k) := by
  obtain ⟨e0, e1, -⟩ := idx_facts t
  unfold sblk iblk5
  rw [View.read_apply]
  show V c main_v73 _ = V c main_v73 _
  congr 1
  funext a
  apply Fin.ext
  match a with
  | ⟨0, _⟩ => show win5_0.index t (0 : Fin 2) * 10000 + 1 * p.val = r.val; rw [e0, hr]; omega
  | ⟨1, _⟩ => show win5_0.index t (1 : Fin 2) * 128 + 1 * k.val = k.val; rw [e1]; omega

/-- The same for the second row operand. -/
theorem dblk_apply (c : Dev nD) (t : Fin cfg5.N) (p : Fin 10000) (k : Fin 128) (r : Fin 800000) (hr : r.val = 10000 * t.val + p.val) :
    dblk V c t (ix2 p k) = darr V c (ix2 r k) := by
  obtain ⟨-, -, e0, e1, -⟩ := idx_facts t
  unfold dblk iblk5
  rw [View.read_apply]
  show V c main_v80 _ = V c main_v80 _
  congr 1
  funext a
  apply Fin.ext
  match a with
  | ⟨0, _⟩ => show win5_1.index t (0 : Fin 2) * 10000 + 1 * p.val = r.val; rw [e0, hr]; omega
  | ⟨1, _⟩ => show win5_1.index t (1 : Fin 2) * 128 + 1 * k.val = k.val; rw [e1]; omega

/-- Each weight half's block is the whole array at every point. -/
theorem wsblk_apply (c : Dev nD) (t : Fin cfg5.N) (k : Fin 128) (q : Fin 128) : wsblk V c t (ix2 k q) = wsarr V c (ix2 k q) := by
  obtain ⟨-, -, -, -, e0, e1, -⟩ := idx_facts t
  unfold wsblk iblk5
  rw [View.read_apply]
  show V c main_v82 _ = V c main_v82 _
  congr 1
  funext a
  apply Fin.ext
  match a with
  | ⟨0, _⟩ => show win5_2.index t (0 : Fin 2) * 128 + 1 * k.val = k.val; rw [e0]; omega
  | ⟨1, _⟩ => show win5_2.index t (1 : Fin 2) * 128 + 1 * q.val = q.val; rw [e1]; omega
theorem wdblk_apply (c : Dev nD) (t : Fin cfg5.N) (k : Fin 128) (q : Fin 128) : wdblk V c t (ix2 k q) = wdarr V c (ix2 k q) := by
  obtain ⟨-, -, -, -, -, -, e0, e1, -⟩ := idx_facts t
  unfold wdblk iblk5
  rw [View.read_apply]
  show V c main_v84 _ = V c main_v84 _
  congr 1
  funext a
  apply Fin.ext
  match a with
  | ⟨0, _⟩ => show win5_3.index t (0 : Fin 2) * 128 + 1 * k.val = k.val; rw [e0]; omega
  | ⟨1, _⟩ => show win5_3.index t (1 : Fin 2) * 128 + 1 * q.val = q.val; rw [e1]; omega

/-- The bias row's block is the whole row at every point. -/
theorem bblk_apply (c : Dev nD) (t : Fin cfg5.N) (q : Fin 128) : bblk V c t (ix1 q) = barr V c (ix1 q) := by
  obtain ⟨-, -, -, -, -, -, -, -, e0, -⟩ := idx_facts t
  unfold bblk iblk5
  rw [View.read_apply]
  show V c main_v86 _ = V c main_v86 _
  congr 1
  funext a
  apply Fin.ext
  match a with
  | ⟨0, _⟩ => show win5_4.index t (0 : Fin 1) * 128 + 1 * q.val = q.val; rw [e0]; omega

/-- What the array ends holding: the two-operand linear map of the five arrays the grid reads. -/
abbrev G (c : Dev nD) : Vec Ideal S800000x128 .f32 := Cert.GNN.affine2 (sarr V c) (darr V c) (wsarr V c) (wdarr V c) (barr V c)

/-- WHAT POINT `t` WRITES BACK is tile `t` of `G`. -/
theorem flushed_eq (c : Dev nD) (t : Fin cfg5.N) :
    (dat5 V c).flushed 5 t = ((cfg5.win 5).blk t).view.read (Elt Ideal) (G V c) := by
  obtain ⟨-, -, -, -, -, -, -, -, -, e0, e1⟩ := idx_facts t
  show (cfg5.win 5).cut (grid5.coords t) ((dat5 V c).after 5 t) = _
  rw [after5_5]
  unfold out5_5
  rw [View.canon_unit_zero hz2]
  simp only [View.ld_unit_zero (S := S10000x128) hz2, View.ld_unit_zero (S := S128x128) hz2, View.ld_unit_zero (S := S128) hz1]
  funext j
  obtain ⟨p, q, rfl⟩ : ∃ (p : Fin 10000) (q : Fin 128), j = ix2 p q := ⟨j 0, j 1, eq_ix2 j⟩
  have hN : cfg5.N = 80 := N_5
  have ht : t.val < 80 := by have := t.isLt; omega
  rw [View.read_apply]
  have hemb : ((cfg5.win 5).blk t).view.emb (ix2 p q) = ix2 (⟨10000 * t.val + p.val, by omega⟩ : Fin 800000) q := by
    funext a
    apply Fin.ext
    match a with
    | ⟨0, _⟩ => show win5_5.index t (0 : Fin 2) * 10000 + 1 * p.val = 10000 * t.val + p.val; rw [e0]; omega
    | ⟨1, _⟩ => show win5_5.index t (1 : Fin 2) * 128 + 1 * q.val = q.val; rw [e1]; omega
  rw [hemb]
  show k5_pay1 (sblk V c t) (dblk V c t) (wsblk V c t) (wdblk V c t) (bblk V c t) (ix2 p q)
    = Cert.GNN.affine2At (sarr V c) (darr V c) (wsarr V c) (wdarr V c) (barr V c) _ q
  rw [pay_apply (sblk V c t) (dblk V c t) (wsblk V c t) (wdblk V c t) (bblk V c t) p q]
  unfold Cert.GNN.affine2At
  simp only [sblk_apply V c t p _ ⟨10000 * t.val + p.val, by omega⟩ rfl, dblk_apply V c t p _ ⟨10000 * t.val + p.val, by omega⟩ rfl,
    wsblk_apply V c t, wdblk_apply V c t, bblk_apply V c t]

/-- An index of the array is in point `t`'s tile iff each coordinate is in the tile's range on its axis. -/
theorem mem_blk (t : Fin cfg5.N) (i : S800000x128.Idx) :
    i ∈ ((cfg5.win 5).blk t).view.set ↔ ∀ a : Fin 2, win5_5.index t a * S10000x128.size a ≤ (i a).val ∧ (i a).val < win5_5.index t a * S10000x128.size a + S10000x128.size a := by
  show i ∈ ((View.whole main_v87).slice (win5_5.rect t)).set ↔ _
  rw [View.set_slice_whole, Rect.mem_set_unit]
  exact Iff.rfl

/-- THE ARRAY after the grid: the eighty tiles cover it, so it holds `G`. -/
theorem final (c : Dev nD) : (dat5 V c).arrAt 5 cfg5.N = G V c :=
  (dat5 V c).arrAt_eq_of_cover 5 (G V c) (fun t _ => flushed_eq V c t) fun i => by
    have hi0 : (i 0).val < 800000 := (i 0).isLt
    have hi1 : (i 1).val < 128 := (i 1).isLt
    have hN : cfg5.N = 80 := N_5
    let t : Fin cfg5.N := ⟨(i 0).val / 10000, by omega⟩
    obtain ⟨-, -, -, -, -, -, -, -, -, e0, e1⟩ := idx_facts t
    refine ⟨t, flush5_5 t, ?_⟩
    rw [mem_blk]
    intro a
    match a with
    | ⟨0, _⟩ => show win5_5.index t (0 : Fin 2) * 10000 ≤ (i 0).val ∧ (i 0).val < win5_5.index t (0 : Fin 2) * 10000 + 10000; rw [e0]; show (i 0).val / 10000 * 10000 ≤ (i 0).val ∧ (i 0).val < (i 0).val / 10000 * 10000 + 10000; omega
    | ⟨1, _⟩ => show win5_5.index t (1 : Fin 2) * 128 ≤ (i 1).val ∧ (i 1).val < win5_5.index t (1 : Fin 2) * 128 + 128; rw [e1]; omega

end Cert.KernelIdeal.Region5

end
-- ==== Proof.Region6.lean ====
/-
  Grid 6, the third layer's node update, read as a value.

  Ten tiles of 5000 node rows. At a tile the body loads the tile of node features and the tile of aggregated messages
  [5000,128], the two halves of the update matrix [128,128] and the bias row, and stores
  `max ((h·wh + a·wa) + b, 0) + h`; the result's tile sits at the same rows. A row of the update reads only the same row
  of `h` and `a`, so what tile `t` writes back is tile `t` of the update of the WHOLE arrays, and the ten tiles cover the
  [50000,128] array: after the grid it holds the residual update of the arrays the grid found.
-/
import proofs.«400170_j9105330668112_3_alg».proof.Proof.Gen.KernelIdeal.Frame
import proofs.«400170_j9105330668112_3_alg».proof.Proof.Laws

set_option maxRecDepth 16384

noncomputable section

namespace Cert.KernelIdeal.Region6

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's stored value at row `p`, column `q` of a tile: the residual update of the tile's rows. -/
theorem pay_apply (x0 x1 : Vec Ideal S5000x128 .f32) (x2 x3 : Vec Ideal S128x128 .f32) (x4 : Vec Ideal S128 .f32)
    (p : Fin 5000) (q : Fin 128) : k6_pay1 x0 x1 x2 x3 x4 (ix2 p q) = Cert.GNN.nodeUpdAt x0 x1 x2 x3 x4 p q := by
  unfold k6_pay1
  simp only [shapeCast_self]
  exact Cert.GNN.nodeUpdForm_apply _ rfl x0 x1 x2 x3 x4 _ _ _ p q

/-- The tile of node features, the tile of aggregated messages, the two weight halves and the bias row the body reads at point `t`, by their literal types. -/
abbrev sblk (c : Dev nD) (t : Fin cfg6.N) : Vec Ideal S5000x128 .f32 := iblk6 V c 0 t
abbrev dblk (c : Dev nD) (t : Fin cfg6.N) : Vec Ideal S5000x128 .f32 := iblk6 V c 1 t
abbrev wsblk (c : Dev nD) (t : Fin cfg6.N) : Vec Ideal S128x128 .f32 := iblk6 V c 2 t
abbrev wdblk (c : Dev nD) (t : Fin cfg6.N) : Vec Ideal S128x128 .f32 := iblk6 V c 3 t
abbrev bblk (c : Dev nD) (t : Fin cfg6.N) : Vec Ideal S128 .f32 := iblk6 V c 4 t
/-- The arrays the grid reads, by their literal types. -/
abbrev sarr (c : Dev nD) : Vec Ideal S50000x128 .f32 := V c main_v66
abbrev darr (c : Dev nD) : Vec Ideal S50000x128 .f32 := V c main_v90
abbrev wsarr (c : Dev nD) : Vec Ideal S128x128 .f32 := V c main_v92
abbrev wdarr (c : Dev nD) : Vec Ideal S128x128 .f32 := V c main_v94
abbrev barr (c : Dev nD) : Vec Ideal S128 .f32 := V c main_v96

/-- The printed index maps over the ten points: tile `t` of each row operand and of the result, the whole weight
    halves and bias row at every point. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 ∧ win6_4.index t (0 : Fin 1) = 0
    ∧ win6_5.index t (0 : Fin 2) = t.val ∧ win6_5.index t (1 : Fin 2) = 0 :=
  (by decide +kernel : ∀ t : Fin grid6.N, _)

/-- Row `p` of tile `t` of the first row operand is row `10000 t + p` of its array. -/
theorem sblk_apply (c : Dev nD) (t : Fin cfg6.N) (p : Fin 5000) (k : Fin 128) (r : Fin 50000) (hr : r.val = 5000 * t.val + p.val) :
    sblk V c t (ix2 p k) = sarr V c (ix2 r k) := by
  obtain ⟨e0, e1, -⟩ := idx_facts t
  unfold sblk iblk6
  rw [View.read_apply]
  show V c main_v66 _ = V c main_v66 _
  congr 1
  funext a
  apply Fin.ext
  match a with
  | ⟨0, _⟩ => show win6_0.index t (0 : Fin 2) * 5000 + 1 * p.val = r.val; rw [e0, hr]; omega
  | ⟨1, _⟩ => show win6_0.index t (1 : Fin 2) * 128 + 1 * k.val = k.val; rw [e1]; omega

/-- The same for the second row operand. -/
theorem dblk_apply (c : Dev nD) (t : Fin cfg6.N) (p : Fin 5000) (k : Fin 128) (r : Fin 50000) (hr : r.val = 5000 * t.val + p.val) :
    dblk V c t (ix2 p k) = darr V c (ix2 r k) := by
  obtain ⟨-, -, e0, e1, -⟩ := idx_facts t
  unfold dblk iblk6
  rw [View.read_apply]
  show V c main_v90 _ = V c main_v90 _
  congr 1
  funext a
  apply Fin.ext
  match a with
  | ⟨0, _⟩ => show win6_1.index t (0 : Fin 2) * 5000 + 1 * p.val = r.val; rw [e0, hr]; omega
  | ⟨1, _⟩ => show win6_1.index t (1 : Fin 2) * 128 + 1 * k.val = k.val; rw [e1]; omega

/-- Each weight half's block is the whole array at every point. -/
theorem wsblk_apply (c : Dev nD) (t : Fin cfg6.N) (k : Fin 128) (q : Fin 128) : wsblk V c t (ix2 k q) = wsarr V c (ix2 k q) := by
  obtain ⟨-, -, -, -, e0, e1, -⟩ := idx_facts t
  unfold wsblk iblk6
  rw [View.read_apply]
  show V c main_v92 _ = V c main_v92 _
  congr 1
  funext a
  apply Fin.ext
  match a with
  | ⟨0, _⟩ => show win6_2.index t (0 : Fin 2) * 128 + 1 * k.val = k.val; rw [e0]; omega
  | ⟨1, _⟩ => show win6_2.index t (1 : Fin 2) * 128 + 1 * q.val = q.val; rw [e1]; omega
theorem wdblk_apply (c : Dev nD) (t : Fin cfg6.N) (k : Fin 128) (q : Fin 128) : wdblk V c t (ix2 k q) = wdarr V c (ix2 k q) := by
  obtain ⟨-, -, -, -, -, -, e0, e1, -⟩ := idx_facts t
  unfold wdblk iblk6
  rw [View.read_apply]
  show V c main_v94 _ = V c main_v94 _
  congr 1
  funext a
  apply Fin.ext
  match a with
  | ⟨0, _⟩ => show win6_3.index t (0 : Fin 2) * 128 + 1 * k.val = k.val; rw [e0]; omega
  | ⟨1, _⟩ => show win6_3.index t (1 : Fin 2) * 128 + 1 * q.val = q.val; rw [e1]; omega

/-- The bias row's block is the whole row at every point. -/
theorem bblk_apply (c : Dev nD) (t : Fin cfg6.N) (q : Fin 128) : bblk V c t (ix1 q) = barr V c (ix1 q) := by
  obtain ⟨-, -, -, -, -, -, -, -, e0, -⟩ := idx_facts t
  unfold bblk iblk6
  rw [View.read_apply]
  show V c main_v96 _ = V c main_v96 _
  congr 1
  funext a
  apply Fin.ext
  match a with
  | ⟨0, _⟩ => show win6_4.index t (0 : Fin 1) * 128 + 1 * q.val = q.val; rw [e0]; omega

/-- What the array ends holding: the residual update of the node features by the aggregated messages. -/
abbrev G (c : Dev nD) : Vec Ideal S50000x128 .f32 := Cert.GNN.nodeUpd (sarr V c) (darr V c) (wsarr V c) (wdarr V c) (barr V c)

/-- WHAT POINT `t` WRITES BACK is tile `t` of `G`. -/
theorem flushed_eq (c : Dev nD) (t : Fin cfg6.N) :
    (dat6 V c).flushed 5 t = ((cfg6.win 5).blk t).view.read (Elt Ideal) (G V c) := by
  obtain ⟨-, -, -, -, -, -, -, -, -, e0, e1⟩ := idx_facts t
  show (cfg6.win 5).cut (grid6.coords t) ((dat6 V c).after 5 t) = _
  rw [after6_5]
  unfold out6_5
  rw [View.canon_unit_zero hz2]
  simp only [View.ld_unit_zero (S := S5000x128) hz2, View.ld_unit_zero (S := S128x128) hz2, View.ld_unit_zero (S := S128) hz1]
  funext j
  obtain ⟨p, q, rfl⟩ : ∃ (p : Fin 5000) (q : Fin 128), j = ix2 p q := ⟨j 0, j 1, eq_ix2 j⟩
  have hN : cfg6.N = 10 := N_6
  have ht : t.val < 10 := by have := t.isLt; omega
  rw [View.read_apply]
  have hemb : ((cfg6.win 5).blk t).view.emb (ix2 p q) = ix2 (⟨5000 * t.val + p.val, by omega⟩ : Fin 50000) q := by
    funext a
    apply Fin.ext
    match a with
    | ⟨0, _⟩ => show win6_5.index t (0 : Fin 2) * 5000 + 1 * p.val = 5000 * t.val + p.val; rw [e0]; omega
    | ⟨1, _⟩ => show win6_5.index t (1 : Fin 2) * 128 + 1 * q.val = q.val; rw [e1]; omega
  rw [hemb]
  show k6_pay1 (sblk V c t) (dblk V c t) (wsblk V c t) (wdblk V c t) (bblk V c t) (ix2 p q)
    = Cert.GNN.nodeUpdAt (sarr V c) (darr V c) (wsarr V c) (wdarr V c) (barr V c) _ q
  rw [pay_apply (sblk V c t) (dblk V c t) (wsblk V c t) (wdblk V c t) (bblk V c t) p q]
  unfold Cert.GNN.nodeUpdAt Cert.GNN.affine2At
  simp only [sblk_apply V c t p _ ⟨5000 * t.val + p.val, by omega⟩ rfl, dblk_apply V c t p _ ⟨5000 * t.val + p.val, by omega⟩ rfl,
    wsblk_apply V c t, wdblk_apply V c t, bblk_apply V c t]

/-- An index of the array is in point `t`'s tile iff each coordinate is in the tile's range on its axis. -/
theorem mem_blk (t : Fin cfg6.N) (i : S50000x128.Idx) :
    i ∈ ((cfg6.win 5).blk t).view.set ↔ ∀ a : Fin 2, win6_5.index t a * S5000x128.size a ≤ (i a).val ∧ (i a).val < win6_5.index t a * S5000x128.size a + S5000x128.size a := by
  show i ∈ ((View.whole main_v97).slice (win6_5.rect t)).set ↔ _
  rw [View.set_slice_whole, Rect.mem_set_unit]
  exact Iff.rfl

/-- THE ARRAY after the grid: the ten tiles cover it, so it holds `G`. -/
theorem final (c : Dev nD) : (dat6 V c).arrAt 5 cfg6.N = G V c :=
  (dat6 V c).arrAt_eq_of_cover 5 (G V c) (fun t _ => flushed_eq V c t) fun i => by
    have hi0 : (i 0).val < 50000 := (i 0).isLt
    have hi1 : (i 1).val < 128 := (i 1).isLt
    have hN : cfg6.N = 10 := N_6
    let t : Fin cfg6.N := ⟨(i 0).val / 5000, by omega⟩
    obtain ⟨-, -, -, -, -, -, -, -, -, e0, e1⟩ := idx_facts t
    refine ⟨t, flush6_5 t, ?_⟩
    rw [mem_blk]
    intro a
    match a with
    | ⟨0, _⟩ => show win6_5.index t (0 : Fin 2) * 5000 ≤ (i 0).val ∧ (i 0).val < win6_5.index t (0 : Fin 2) * 5000 + 5000; rw [e0]; show (i 0).val / 5000 * 5000 ≤ (i 0).val ∧ (i 0).val < (i 0).val / 5000 * 5000 + 5000; omega
    | ⟨1, _⟩ => show win6_5.index t (1 : Fin 2) * 128 ≤ (i 1).val ∧ (i 1).val < win6_5.index t (1 : Fin 2) * 128 + 128; rw [e1]; omega

end Cert.KernelIdeal.Region6

end
-- ==== Proof.Layer3.lean ====
/-
  The third layer, walked across its five boundaries of @main.

  From the node features `H` held at the layer's entry: a stretch of host operations gathers the source and destination
  rows of every edge and cuts the layer's message weights out of their stacks; Grid 5 leaves the messages; a second stretch
  sums them into their destination nodes and cuts out the update weights; Grid 6 leaves the updated features. Each
  stretch's results are read off its operations; each grid's array is the row-by-row map of the arrays it found; the index
  vectors, the arguments and `H` itself are carried across the steps that do not touch them. Together: the layer of the
  model applied to `H`.
-/
import proofs.«400170_j9105330668112_3_alg».proof.Proof.Keep
import proofs.«400170_j9105330668112_3_alg».proof.Proof.Model
import proofs.«400170_j9105330668112_3_alg».proof.Proof.Region5
import proofs.«400170_j9105330668112_3_alg».proof.Proof.Region6

set_option maxRecDepth 16384

noncomputable section

namespace Cert.KernelIdeal.Layer3

open Cert.KernelIdeal Cert.KernelIdeal.Gen Cert.KernelIdeal.Keep Cert.KernelIdeal.Model
open Idealize.ShloMosaic Idealize.ShloMosaic.TcCoe Idealize.ShloMosaic.StableHlo

variable (m : (ℓ : Loc nD τ sig) → Buf (Elt Ideal) ℓ) (ρ : Dev nD → PrngReg)

/-! ## The stretch before the message grid: the two gathers and the layer's message weights -/

set_option maxHeartbeats 2000000 in
theorem gathSrc (c : Dev nD) : W11 m ρ c (Proc.devRef .tc main_v73)
    = rowsAt (W10 m ρ c (Proc.devRef .tc main_v66)) (W10 m ρ c (Proc.devRef .tc main_v1)) := by
  show StableHlo.after hostOps5 (W10 m ρ c) (Proc.devRef .tc main_v73) = _
  after_results
  rfl
set_option maxHeartbeats 2000000 in
theorem gathDst (c : Dev nD) : W11 m ρ c (Proc.devRef .tc main_v80)
    = rowsAt (W10 m ρ c (Proc.devRef .tc main_v66)) (W10 m ρ c (Proc.devRef .tc main_v3)) := by
  show StableHlo.after hostOps5 (W10 m ρ c) (Proc.devRef .tc main_v80) = _
  after_results
  rfl
set_option maxHeartbeats 2000000 in
theorem msgTop (c : Dev nD) : W11 m ρ c (Proc.devRef .tc main_v82) = wTop2 (W10 m ρ c (Proc.devRef .tc main_arg4)) := by
  show StableHlo.after hostOps5 (W10 m ρ c) (Proc.devRef .tc main_v82) = _
  after_results
  rfl
set_option maxHeartbeats 2000000 in
theorem msgBot (c : Dev nD) : W11 m ρ c (Proc.devRef .tc main_v84) = wBot2 (W10 m ρ c (Proc.devRef .tc main_arg4)) := by
  show StableHlo.after hostOps5 (W10 m ρ c) (Proc.devRef .tc main_v84) = _
  after_results
  rfl
set_option maxHeartbeats 2000000 in
theorem msgBias (c : Dev nD) : W11 m ρ c (Proc.devRef .tc main_v86) = bRow2 (W10 m ρ c (Proc.devRef .tc main_arg5)) := by
  show StableHlo.after hostOps5 (W10 m ρ c) (Proc.devRef .tc main_v86) = _
  after_results
  rfl

/-! ## The stretch before the update grid: the segment sum and the layer's update weights -/

set_option maxHeartbeats 2000000 in
theorem segSum (c : Dev nD) : W13 m ρ c (Proc.devRef .tc main_v90)
    = sumInto (W12 m ρ c (Proc.devRef .tc main_v3)) (W12 m ρ c (Proc.devRef .tc main_v87)) := by
  show StableHlo.after hostOps6 (W12 m ρ c) (Proc.devRef .tc main_v90) = _
  after_results
  rfl
set_option maxHeartbeats 2000000 in
theorem updTop (c : Dev nD) : W13 m ρ c (Proc.devRef .tc main_v92) = wTop2 (W12 m ρ c (Proc.devRef .tc main_arg6)) := by
  show StableHlo.after hostOps6 (W12 m ρ c) (Proc.devRef .tc main_v92) = _
  after_results
  rfl
set_option maxHeartbeats 2000000 in
theorem updBot (c : Dev nD) : W13 m ρ c (Proc.devRef .tc main_v94) = wBot2 (W12 m ρ c (Proc.devRef .tc main_arg6)) := by
  show StableHlo.after hostOps6 (W12 m ρ c) (Proc.devRef .tc main_v94) = _
  after_results
  rfl
set_option maxHeartbeats 2000000 in
theorem updBias (c : Dev nD) : W13 m ρ c (Proc.devRef .tc main_v96) = bRow2 (W12 m ρ c (Proc.devRef .tc main_arg7)) := by
  show StableHlo.after hostOps6 (W12 m ρ c) (Proc.devRef .tc main_v96) = _
  after_results
  rfl

/-! ## The layer -/

set_option maxHeartbeats 2000000 in
/-- The index vectors at the layer's entry are the two rows of the edge list. -/
theorem src_at (c : Dev nD) : W10 m ρ c (Proc.devRef .tc main_v1) = edgeSrc (m ((c : Thread nD τ).loc main_arg1)) := by
  rw [since10 m ρ c main_v1 (by decide)]
  show StableHlo.after hostOps0 (W0 m ρ c) (Proc.devRef .tc main_v1) = _
  after_results
  rfl
set_option maxHeartbeats 2000000 in
theorem dst_at (c : Dev nD) : W10 m ρ c (Proc.devRef .tc main_v3) = edgeDst (m ((c : Thread nD τ).loc main_arg1)) := by
  rw [since10 m ρ c main_v3 (by decide)]
  show StableHlo.after hostOps0 (W0 m ρ c) (Proc.devRef .tc main_v3) = _
  after_results
  rfl
set_option maxHeartbeats 2000000 in
theorem dst_mid (c : Dev nD) : W12 m ρ c (Proc.devRef .tc main_v3) = edgeDst (m ((c : Thread nD τ).loc main_arg1)) := by
  rw [since12 m ρ c main_v3 (by decide)]
  show StableHlo.after hostOps0 (W0 m ρ c) (Proc.devRef .tc main_v3) = _
  after_results
  rfl

/-- The messages the first grid leaves, from the node features `H` the layer found. -/
theorem msgs (c : Dev nD) (H : FVec Ideal S50000x128 .f32) (hH : W10 m ρ c (Proc.devRef .tc main_v66) = H) :
    W12 m ρ c (Proc.devRef .tc main_v87)
      = messages H (m ((c : Thread nD τ).loc main_arg1)) (wTop2 (m ((c : Thread nD τ).loc main_arg4)))
          (wBot2 (m ((c : Thread nD τ).loc main_arg4))) (bRow2 (m ((c : Thread nD τ).loc main_arg5))) := by
  refine (W12_arr m ρ c 5).trans ?_
  rw [Region5.final (V11 m ρ) c]
  show Cert.GNN.affine2 (W11 m ρ c (Proc.devRef .tc main_v73)) (W11 m ρ c (Proc.devRef .tc main_v80))
    (W11 m ρ c (Proc.devRef .tc main_v82)) (W11 m ρ c (Proc.devRef .tc main_v84)) (W11 m ρ c (Proc.devRef .tc main_v86)) = _
  rw [gathSrc, gathDst, msgTop, msgBot, msgBias, hH, src_at, dst_at, back10 m ρ c main_arg4 (by decide), back10 m ρ c main_arg5 (by decide)]
  rfl

/-- The node features the second grid leaves: the layer applied to the features `H` it found. -/
theorem feats (c : Dev nD) (H : FVec Ideal S50000x128 .f32) (hH : W10 m ρ c (Proc.devRef .tc main_v66) = H) :
    W14 m ρ c (Proc.devRef .tc main_v97)
      = layer H (m ((c : Thread nD τ).loc main_arg1)) (wTop2 (m ((c : Thread nD τ).loc main_arg4)))
          (wBot2 (m ((c : Thread nD τ).loc main_arg4))) (bRow2 (m ((c : Thread nD τ).loc main_arg5)))
          (wTop2 (m ((c : Thread nD τ).loc main_arg6))) (wBot2 (m ((c : Thread nD τ).loc main_arg6)))
          (bRow2 (m ((c : Thread nD τ).loc main_arg7))) := by
  refine (W14_arr m ρ c 5).trans ?_
  rw [Region6.final (V13 m ρ) c]
  show Cert.GNN.nodeUpd (W13 m ρ c (Proc.devRef .tc main_v66)) (W13 m ρ c (Proc.devRef .tc main_v90))
    (W13 m ρ c (Proc.devRef .tc main_v92)) (W13 m ρ c (Proc.devRef .tc main_v94)) (W13 m ρ c (Proc.devRef .tc main_v96)) = _
  rw [keep13 m ρ c main_v66 (by decide), keep12 m ρ c main_v66 (by decide), keep11 m ρ c main_v66 (by decide), hH,
    segSum, updTop, updBot, updBias, msgs m ρ c H hH, dst_mid, back12 m ρ c main_arg6 (by decide), back12 m ρ c main_arg7 (by decide)]
  rfl

end Cert.KernelIdeal.Layer3

end
-- ==== Proof.KernelValue.lean ====
/-
  What @main leaves in its result buffer, as the model's function of the launch arguments.

  The embedding's grid leaves the embedded node features; each layer's walk turns the features one layer further; five
  last stretches of host operations are the readout. The arguments reach every stretch as launched.
-/
import proofs.«400170_j9105330668112_3_alg».proof.Proof.Keep
import proofs.«400170_j9105330668112_3_alg».proof.Proof.Model
import proofs.«400170_j9105330668112_3_alg».proof.Proof.Region0
import proofs.«400170_j9105330668112_3_alg».proof.Proof.Layer1
import proofs.«400170_j9105330668112_3_alg».proof.Proof.Layer2
import proofs.«400170_j9105330668112_3_alg».proof.Proof.Layer3

set_option maxRecDepth 16384

noncomputable section

namespace Cert.KernelIdeal.KernelValue

open Cert.KernelIdeal Cert.KernelIdeal.Gen Cert.KernelIdeal.Keep Cert.KernelIdeal.Model
open Idealize.ShloMosaic Idealize.ShloMosaic.TcCoe Idealize.ShloMosaic.StableHlo

variable (m : (ℓ : Loc nD τ sig) → Buf (Elt Ideal) ℓ) (ρ : Dev nD → PrngReg)

/-- After Grid 0 the embedding's array holds the embedding of the launch arguments. -/
theorem feat0_at (c : Dev nD) : W2 m ρ c (Proc.devRef .tc main_v4) = feat0 (m ((c : Thread nD τ).loc main_arg0)) (m ((c : Thread nD τ).loc main_arg2)) (m ((c : Thread nD τ).loc main_arg3)) := by
  refine (W2_arr m ρ c 3).trans ?_
  rw [Region0.final (V1 m ρ) c]
  show Cert.GNN.affine (W1 m ρ c (Proc.devRef .tc main_arg0)) (W1 m ρ c (Proc.devRef .tc main_arg2)) (W1 m ρ c (Proc.devRef .tc main_arg3)) = _
  rw [back1 m ρ c main_arg0 (by decide), back1 m ρ c main_arg2 (by decide), back1 m ρ c main_arg3 (by decide)]
  rfl

/-- After each layer's second grid its array holds the model's node features. -/
theorem feat1_at (c : Dev nD) : W6 m ρ c (Proc.devRef .tc main_v35) = feat1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  Layer1.feats m ρ c _ (feat0_at m ρ c)
theorem feat2_at (c : Dev nD) : W10 m ρ c (Proc.devRef .tc main_v66) = feat2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  Layer2.feats m ρ c _ (feat1_at m ρ c)
theorem feat3_at (c : Dev nD) : W14 m ρ c (Proc.devRef .tc main_v97) = feat3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  Layer3.feats m ρ c _ (feat2_at m ρ c)

/-! ## The readout: five stretches of host operations after the last grid -/

set_option maxHeartbeats 2000000 in
theorem tail1 (c : Dev nD) : W15 m ρ c (Proc.devRef .tc main_v104)
    = dense1 (W14 m ρ c (Proc.devRef .tc main_v97)) (W14 m ρ c (Proc.devRef .tc main_arg8)) (W14 m ρ c (Proc.devRef .tc main_arg9)) := by
  show StableHlo.after hostOps7 (W14 m ρ c) (Proc.devRef .tc main_v104) = _
  generalize W14 m ρ c = V
  after_results
  rfl
set_option maxHeartbeats 2000000 in
theorem tail2 (c : Dev nD) : W16 m ρ c (Proc.devRef .tc main_v105) = rect64 (W15 m ρ c (Proc.devRef .tc main_v104)) := by
  show StableHlo.after hostOps7_1 (W15 m ρ c) (Proc.devRef .tc main_v105) = _
  generalize W15 m ρ c = V
  after_results
  rfl
set_option maxHeartbeats 2000000 in
theorem tail3 (c : Dev nD) : W17 m ρ c (Proc.devRef .tc main_v108)
    = dense2 (W16 m ρ c (Proc.devRef .tc main_v105)) (W16 m ρ c (Proc.devRef .tc main_arg10)) (W16 m ρ c (Proc.devRef .tc main_arg11)) := by
  show StableHlo.after hostOps7_2 (W16 m ρ c) (Proc.devRef .tc main_v108) = _
  generalize W16 m ρ c = V
  after_results
  rfl
set_option maxHeartbeats 2000000 in
theorem tail4 (c : Dev nD) : W18 m ρ c (Proc.devRef .tc main_v109) = rect32 (W17 m ρ c (Proc.devRef .tc main_v108)) := by
  show StableHlo.after hostOps7_3 (W17 m ρ c) (Proc.devRef .tc main_v109) = _
  generalize W17 m ρ c = V
  after_results
  rfl
set_option maxHeartbeats 2000000 in
theorem tail5 (c : Dev nD) : W19 m ρ c (Proc.devRef .tc main_v112)
    = dense3 (W18 m ρ c (Proc.devRef .tc main_v109)) (W18 m ρ c (Proc.devRef .tc main_arg12)) (W18 m ρ c (Proc.devRef .tc main_arg13)) := by
  show StableHlo.after hostOps7_4 (W18 m ρ c) (Proc.devRef .tc main_v112) = _
  generalize W18 m ρ c = V
  after_results
  rfl

/-- THE RESULT: at the last boundary the result buffer holds the model's value of the launch arguments. -/
theorem result_at (c : Dev nD) : W19 m ρ c (Proc.devRef .tc main_v112)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [tail5, tail4, tail3, tail2, tail1, feat3_at,
    back18 m ρ c main_arg12 (by decide), back18 m ρ c main_arg13 (by decide),
    back16 m ρ c main_arg10 (by decide), back16 m ρ c main_arg11 (by decide),
    back14 m ρ c main_arg8 (by decide), back14 m ρ c main_arg9 (by decide)]
  rfl

end Cert.KernelIdeal.KernelValue

end
-- ==== Proof.RefEmbed.lean ====
/-
  The reference's first stages as the model's: the two index vectors cut from the edge list, and the embedding.

  The reference embeds with the host's product and a bias row broadcast twice; at an entry that is the sum over the 64
  features of `x·w` plus the bias entry: the model's affine map.
-/
import proofs.«400170_j9105330668112_3_alg».proof.Proof.RefReadP
import proofs.«400170_j9105330668112_3_alg».proof.Proof.Model

noncomputable section

namespace Cert.ReferenceIdeal.RefEdges

open Cert.ReferenceIdeal Cert.ReferenceIdeal.Gen Cert.ReferenceIdeal.ReadP Cert.KernelIdeal.Model
open Idealize.ShloMosaic

variable (x0 : (⟨S50000x64, .f32⟩ : BufTy).Contents (Elt Ideal)) (x1 : (⟨S2x800000, .i32⟩ : BufTy).Contents (Elt Ideal))
  (x2 : (⟨S64x128, .f32⟩ : BufTy).Contents (Elt Ideal)) (x3 : (⟨S128, .f32⟩ : BufTy).Contents (Elt Ideal))
  (x4 : (⟨S3x256x128, .f32⟩ : BufTy).Contents (Elt Ideal)) (x5 : (⟨S3x128, .f32⟩ : BufTy).Contents (Elt Ideal))
  (x6 : (⟨S3x256x128, .f32⟩ : BufTy).Contents (Elt Ideal)) (x7 : (⟨S3x128, .f32⟩ : BufTy).Contents (Elt Ideal))

/-- The reference cuts the same two rows out of the edge list. -/
theorem srcIdx : val_main_v1 (F := Ideal) x1 = edgeSrc x1 := rfl
theorem dstIdx : val_main_v3 (F := Ideal) x1 = edgeDst x1 := rfl

end Cert.ReferenceIdeal.RefEdges

namespace Cert.ReferenceIdeal.RefEmbed

open Cert.ReferenceIdeal Cert.ReferenceIdeal.Gen Cert.ReferenceIdeal.ReadP Cert.KernelIdeal.Model
open Idealize.ShloMosaic

variable (x0 : (⟨S50000x64, .f32⟩ : BufTy).Contents (Elt Ideal)) (x1 : (⟨S2x800000, .i32⟩ : BufTy).Contents (Elt Ideal))
  (x2 : (⟨S64x128, .f32⟩ : BufTy).Contents (Elt Ideal)) (x3 : (⟨S128, .f32⟩ : BufTy).Contents (Elt Ideal))
  (x4 : (⟨S3x256x128, .f32⟩ : BufTy).Contents (Elt Ideal)) (x5 : (⟨S3x128, .f32⟩ : BufTy).Contents (Elt Ideal))
  (x6 : (⟨S3x256x128, .f32⟩ : BufTy).Contents (Elt Ideal)) (x7 : (⟨S3x128, .f32⟩ : BufTy).Contents (Elt Ideal))

/-- The reference's embedded node features are the model's. -/
theorem feat : val_main_v7 (F := Ideal) x0 x2 x3 = feat0 x0 x2 x3 := by
  unfold val_main_v7 val_main_v6 val_main_v5 val_main_v4 feat0 embed
  exact Cert.GNN.dotBias_eq _ rfl x0 x2 x3 _ _

end Cert.ReferenceIdeal.RefEmbed

end
-- ==== Proof.RefLayer1.lean ====
/-
  The reference's first layer as the model's.

  The reference puts the gathered source and destination rows side by side and multiplies by the whole 256-row message
  matrix; the model multiplies each by its half and adds. At an entry the one sum over 256 columns is the sum over the
  first 128 (the source row against the upper half) plus the sum over the last 128 (the destination row against the
  lower half): addition of extended reals is commutative and associative, which is all a split of a finite sum needs, so
  nothing here asks the entries to be finite. The same holds for the update (the node features beside the aggregated
  messages, against the 256-row update matrix), followed on both sides by the maximum with zero and the residual. The
  gathers and the segment sum are the same host operations on both sides and are never opened.
-/
import proofs.«400170_j9105330668112_3_alg».proof.Proof.RefEmbed

noncomputable section

namespace Cert.ReferenceIdeal.RefLayer1

open Cert.ReferenceIdeal Cert.ReferenceIdeal.Gen Cert.ReferenceIdeal.ReadP Cert.KernelIdeal.Model
open Idealize.ShloMosaic

variable (x0 : (⟨S50000x64, .f32⟩ : BufTy).Contents (Elt Ideal)) (x1 : (⟨S2x800000, .i32⟩ : BufTy).Contents (Elt Ideal))
  (x2 : (⟨S64x128, .f32⟩ : BufTy).Contents (Elt Ideal)) (x3 : (⟨S128, .f32⟩ : BufTy).Contents (Elt Ideal))
  (x4 : (⟨S3x256x128, .f32⟩ : BufTy).Contents (Elt Ideal)) (x5 : (⟨S3x128, .f32⟩ : BufTy).Contents (Elt Ideal))
  (x6 : (⟨S3x256x128, .f32⟩ : BufTy).Contents (Elt Ideal)) (x7 : (⟨S3x128, .f32⟩ : BufTy).Contents (Elt Ideal))

/-- The start indices of the two gathers: numpy's rule for a negative index on the edge list's two rows. -/
theorem srcStart : val_main_v13 (F := Ideal) x1 = startIdx (edgeSrc x1) := by
  unfold val_main_v13 val_main_v12 val_main_v11 val_main_v10 val_main_c_0 val_main_v9 val_main_v8 val_main_c
  rw [RefEdges.srcIdx]
  rfl
theorem dstStart : val_main_v20 (F := Ideal) x1 = startIdx (edgeDst x1) := by
  unfold val_main_v20 val_main_v19 val_main_v18 val_main_v17 val_main_c_2 val_main_v16 val_main_v15 val_main_c_1
  rw [RefEdges.dstIdx]
  rfl

/-- The reference's messages are the model's, of the model's node features. -/
theorem msgs : val_main_v30 (F := Ideal) x0 x1 x2 x3 x4 x5 = messages (feat0 x0 x2 x3) x1 (wTop0 x4) (wBot0 x4) (bRow0 x5) := by
  unfold val_main_v30 val_main_v29 val_main_v28 val_main_v25 val_main_v22 val_main_v14 val_main_v21
  rw [RefEmbed.feat, srcStart, dstStart]
  exact Cert.GNN.sideBySideDotBias_eq _ rfl _ _ (val_main_v24 (F := Ideal) x4) (wTop0 x4) (wBot0 x4) (val_main_v27 (F := Ideal) x5)
    (fun k q => Cert.GNN.stack_top 0 _ _ rfl rfl x4 _ _ _ _ k q) (fun k q => Cert.GNN.stack_bot 0 _ _ rfl rfl x4 _ _ _ _ k q) _ _ _

/-- The reference's node features after the layer are the model's. -/
theorem feat : val_main_v44 (F := Ideal) x0 x1 x2 x3 x4 x5 x6 x7 = feat1 x0 x1 x2 x3 x4 x5 x6 x7 := by
  unfold val_main_v44 val_main_v43 val_main_call0_v0 val_main_call0_cst
  rw [RefEmbed.feat]
  refine Cert.GNN.rectResidual_eq (feat0 x0 x2 x3) (sumInto (edgeDst x1) (messages (feat0 x0 x2 x3) x1 (wTop0 x4) (wBot0 x4) (bRow0 x5)))
    (wTop0 x6) (wBot0 x6) (bRow0 x7) _ ?_ _
  unfold val_main_v42 val_main_v41 val_main_v40 val_main_v37 val_main_v34 val_main_v33 val_main_v32 val_main_v31 val_main_cst
  rw [RefEmbed.feat, msgs, RefEdges.dstIdx]
  exact Cert.GNN.sideBySideDotBias_eq _ rfl _ _ (val_main_v36 (F := Ideal) x6) (wTop0 x6) (wBot0 x6) (val_main_v39 (F := Ideal) x7)
    (fun k q => Cert.GNN.stack_top 0 _ _ rfl rfl x6 _ _ _ _ k q) (fun k q => Cert.GNN.stack_bot 0 _ _ rfl rfl x6 _ _ _ _ k q) _ _ _

end Cert.ReferenceIdeal.RefLayer1

end
-- ==== Proof.RefLayer2.lean ====
/-
  The reference's second layer as the model's.

  The reference puts the gathered source and destination rows side by side and multiplies by the whole 256-row message
  matrix; the model multiplies each by its half and adds. At an entry the one sum over 256 columns is the sum over the
  first 128 (the source row against the upper half) plus the sum over the last 128 (the destination row against the
  lower half): addition of extended reals is commutative and associative, which is all a split of a finite sum needs, so
  nothing here asks the entries to be finite. The same holds for the update (the node features beside the aggregated
  messages, against the 256-row update matrix), followed on both sides by the maximum with zero and the residual. The
  gathers and the segment sum are the same host operations on both sides and are never opened.
-/
import proofs.«400170_j9105330668112_3_alg».proof.Proof.RefLayer1

noncomputable section

namespace Cert.ReferenceIdeal.RefLayer2

open Cert.ReferenceIdeal Cert.ReferenceIdeal.Gen Cert.ReferenceIdeal.ReadP Cert.KernelIdeal.Model
open Idealize.ShloMosaic

variable (x0 : (⟨S50000x64, .f32⟩ : BufTy).Contents (Elt Ideal)) (x1 : (⟨S2x800000, .i32⟩ : BufTy).Contents (Elt Ideal))
  (x2 : (⟨S64x128, .f32⟩ : BufTy).Contents (Elt Ideal)) (x3 : (⟨S128, .f32⟩ : BufTy).Contents (Elt Ideal))
  (x4 : (⟨S3x256x128, .f32⟩ : BufTy).Contents (Elt Ideal)) (x5 : (⟨S3x128, .f32⟩ : BufTy).Contents (Elt Ideal))
  (x6 : (⟨S3x256x128, .f32⟩ : BufTy).Contents (Elt Ideal)) (x7 : (⟨S3x128, .f32⟩ : BufTy).Contents (Elt Ideal))

/-- The start indices of the two gathers: numpy's rule for a negative index on the edge list's two rows. -/
theorem srcStart : val_main_v50 (F := Ideal) x1 = startIdx (edgeSrc x1) := by
  unfold val_main_v50 val_main_v49 val_main_v48 val_main_v47 val_main_c_4 val_main_v46 val_main_v45 val_main_c_3
  rw [RefEdges.srcIdx]
  rfl
theorem dstStart : val_main_v57 (F := Ideal) x1 = startIdx (edgeDst x1) := by
  unfold val_main_v57 val_main_v56 val_main_v55 val_main_v54 val_main_c_6 val_main_v53 val_main_v52 val_main_c_5
  rw [RefEdges.dstIdx]
  rfl

/-- The reference's messages are the model's, of the model's node features. -/
theorem msgs : val_main_v67 (F := Ideal) x0 x1 x2 x3 x4 x5 x6 x7 = messages (feat1 x0 x1 x2 x3 x4 x5 x6 x7) x1 (wTop1 x4) (wBot1 x4) (bRow1 x5) := by
  unfold val_main_v67 val_main_v66 val_main_v65 val_main_v62 val_main_v59 val_main_v51 val_main_v58
  rw [RefLayer1.feat, srcStart, dstStart]
  exact Cert.GNN.sideBySideDotBias_eq _ rfl _ _ (val_main_v61 (F := Ideal) x4) (wTop1 x4) (wBot1 x4) (val_main_v64 (F := Ideal) x5)
    (fun k q => Cert.GNN.stack_top 1 _ _ rfl rfl x4 _ _ _ _ k q) (fun k q => Cert.GNN.stack_bot 1 _ _ rfl rfl x4 _ _ _ _ k q) _ _ _

/-- The reference's node features after the layer are the model's. -/
theorem feat : val_main_v81 (F := Ideal) x0 x1 x2 x3 x4 x5 x6 x7 = feat2 x0 x1 x2 x3 x4 x5 x6 x7 := by
  unfold val_main_v81 val_main_v80 val_main_call1_v0 val_main_call1_cst
  rw [RefLayer1.feat]
  refine Cert.GNN.rectResidual_eq (feat1 x0 x1 x2 x3 x4 x5 x6 x7) (sumInto (edgeDst x1) (messages (feat1 x0 x1 x2 x3 x4 x5 x6 x7) x1 (wTop1 x4) (wBot1 x4) (bRow1 x5)))
    (wTop1 x6) (wBot1 x6) (bRow1 x7) _ ?_ _
  unfold val_main_v79 val_main_v78 val_main_v77 val_main_v74 val_main_v71 val_main_v70 val_main_v69 val_main_v68 val_main_cst_7
  rw [RefLayer1.feat, msgs, RefEdges.dstIdx]
  exact Cert.GNN.sideBySideDotBias_eq _ rfl _ _ (val_main_v73 (F := Ideal) x6) (wTop1 x6) (wBot1 x6) (val_main_v76 (F := Ideal) x7)
    (fun k q => Cert.GNN.stack_top 1 _ _ rfl rfl x6 _ _ _ _ k q) (fun k q => Cert.GNN.stack_bot 1 _ _ rfl rfl x6 _ _ _ _ k q) _ _ _

end Cert.ReferenceIdeal.RefLayer2

end
-- ==== Proof.RefLayer3.lean ====
/-
  The reference's third layer as the model's.

  The reference puts the gathered source and destination rows side by side and multiplies by the whole 256-row message
  matrix; the model multiplies each by its half and adds. At an entry the one sum over 256 columns is the sum over the
  first 128 (the source row against the upper half) plus the sum over the last 128 (the destination row against the
  lower half): addition of extended reals is commutative and associative, which is all a split of a finite sum needs, so
  nothing here asks the entries to be finite. The same holds for the update (the node features beside the aggregated
  messages, against the 256-row update matrix), followed on both sides by the maximum with zero and the residual. The
  gathers and the segment sum are the same host operations on both sides and are never opened.
-/
import proofs.«400170_j9105330668112_3_alg».proof.Proof.RefLayer2

noncomputable section

namespace Cert.ReferenceIdeal.RefLayer3

open Cert.ReferenceIdeal Cert.ReferenceIdeal.Gen Cert.ReferenceIdeal.ReadP Cert.KernelIdeal.Model
open Idealize.ShloMosaic

variable (x0 : (⟨S50000x64, .f32⟩ : BufTy).Contents (Elt Ideal)) (x1 : (⟨S2x800000, .i32⟩ : BufTy).Contents (Elt Ideal))
  (x2 : (⟨S64x128, .f32⟩ : BufTy).Contents (Elt Ideal)) (x3 : (⟨S128, .f32⟩ : BufTy).Contents (Elt Ideal))
  (x4 : (⟨S3x256x128, .f32⟩ : BufTy).Contents (Elt Ideal)) (x5 : (⟨S3x128, .f32⟩ : BufTy).Contents (Elt Ideal))
  (x6 : (⟨S3x256x128, .f32⟩ : BufTy).Contents (Elt Ideal)) (x7 : (⟨S3x128, .f32⟩ : BufTy).Contents (Elt Ideal))

/-- The start indices of the two gathers: numpy's rule for a negative index on the edge list's two rows. -/
theorem srcStart : val_main_v87 (F := Ideal) x1 = startIdx (edgeSrc x1) := by
  unfold val_main_v87 val_main_v86 val_main_v85 val_main_v84 val_main_c_9 val_main_v83 val_main_v82 val_main_c_8
  rw [RefEdges.srcIdx]
  rfl
theorem dstStart : val_main_v94 (F := Ideal) x1 = startIdx (edgeDst x1) := by
  unfold val_main_v94 val_main_v93 val_main_v92 val_main_v91 val_main_c_11 val_main_v90 val_main_v89 val_main_c_10
  rw [RefEdges.dstIdx]
  rfl

/-- The reference's messages are the model's, of the model's node features. -/
theorem msgs : val_main_v104 (F := Ideal) x0 x1 x2 x3 x4 x5 x6 x7 = messages (feat2 x0 x1 x2 x3 x4 x5 x6 x7) x1 (wTop2 x4) (wBot2 x4) (bRow2 x5) := by
  unfold val_main_v104 val_main_v103 val_main_v102 val_main_v99 val_main_v96 val_main_v88 val_main_v95
  rw [RefLayer2.feat, srcStart, dstStart]
  exact Cert.GNN.sideBySideDotBias_eq _ rfl _ _ (val_main_v98 (F := Ideal) x4) (wTop2 x4) (wBot2 x4) (val_main_v101 (F := Ideal) x5)
    (fun k q => Cert.GNN.stack_top 2 _ _ rfl rfl x4 _ _ _ _ k q) (fun k q => Cert.GNN.stack_bot 2 _ _ rfl rfl x4 _ _ _ _ k q) _ _ _

/-- The reference's node features after the layer are the model's. -/
theorem feat : val_main_v118 (F := Ideal) x0 x1 x2 x3 x4 x5 x6 x7 = feat3 x0 x1 x2 x3 x4 x5 x6 x7 := by
  unfold val_main_v118 val_main_v117 val_main_call2_v0 val_main_call2_cst
  rw [RefLayer2.feat]
  refine Cert.GNN.rectResidual_eq (feat2 x0 x1 x2 x3 x4 x5 x6 x7) (sumInto (edgeDst x1) (messages (feat2 x0 x1 x2 x3 x4 x5 x6 x7) x1 (wTop2 x4) (wBot2 x4) (bRow2 x5)))
    (wTop2 x6) (wBot2 x6) (bRow2 x7) _ ?_ _
  unfold val_main_v116 val_main_v115 val_main_v114 val_main_v111 val_main_v108 val_main_v107 val_main_v106 val_main_v105 val_main_cst_12
  rw [RefLayer2.feat, msgs, RefEdges.dstIdx]
  exact Cert.GNN.sideBySideDotBias_eq _ rfl _ _ (val_main_v110 (F := Ideal) x6) (wTop2 x6) (wBot2 x6) (val_main_v113 (F := Ideal) x7)
    (fun k q => Cert.GNN.stack_top 2 _ _ rfl rfl x6 _ _ _ _ k q) (fun k q => Cert.GNN.stack_bot 2 _ _ rfl rfl x6 _ _ _ _ k q) _ _ _

end Cert.ReferenceIdeal.RefLayer3

end
-- ==== Proof.RefValue.lean ====
/-
  The reference's result as the model's function of the arguments, and its run re-posted there.

  After the three layers both programs apply the same readout (the mean over the nodes, three dense layers) to the node
  features; it is never opened.
-/
import proofs.«400170_j9105330668112_3_alg».proof.Proof.RefLayer3

noncomputable section

namespace Cert.ReferenceIdeal.RefValue

open Cert.ReferenceIdeal Cert.ReferenceIdeal.Gen Cert.ReferenceIdeal.ReadP Cert.KernelIdeal.Model
open Idealize.ShloMosaic Idealize.ShloMosaic.TcCoe Idealize.SL.Sem

variable (x0 : (⟨S50000x64, .f32⟩ : BufTy).Contents (Elt Ideal)) (x1 : (⟨S2x800000, .i32⟩ : BufTy).Contents (Elt Ideal))
  (x2 : (⟨S64x128, .f32⟩ : BufTy).Contents (Elt Ideal)) (x3 : (⟨S128, .f32⟩ : BufTy).Contents (Elt Ideal))
  (x4 : (⟨S3x256x128, .f32⟩ : BufTy).Contents (Elt Ideal)) (x5 : (⟨S3x128, .f32⟩ : BufTy).Contents (Elt Ideal))
  (x6 : (⟨S3x256x128, .f32⟩ : BufTy).Contents (Elt Ideal)) (x7 : (⟨S3x128, .f32⟩ : BufTy).Contents (Elt Ideal))
  (x8 : (⟨S128x64, .f32⟩ : BufTy).Contents (Elt Ideal)) (x9 : (⟨S64, .f32⟩ : BufTy).Contents (Elt Ideal))
  (x10 : (⟨S64x32, .f32⟩ : BufTy).Contents (Elt Ideal)) (x11 : (⟨S32, .f32⟩ : BufTy).Contents (Elt Ideal))
  (x12 : (⟨S32x1, .f32⟩ : BufTy).Contents (Elt Ideal)) (x13 : (⟨S1, .f32⟩ : BufTy).Contents (Elt Ideal))

/-- The reference's last stage is the model's value of the arguments. -/
theorem result_eq : val_main_v133 (F := Ideal) x0 x1 x2 x3 x4 x5 x6 x7 x8 x9 x10 x11 x12 x13 = result x0 x1 x2 x3 x4 x5 x6 x7 x8 x9 x10 x11 x12 x13 := by
  unfold val_main_v133 val_main_v132 val_main_v131 val_main_v130 val_main_call4_v0 val_main_call4_cst val_main_v129 val_main_v128
    val_main_v127 val_main_v126 val_main_call3_v0 val_main_call3_cst val_main_v125 val_main_v124 val_main_v123 val_main_v122
    val_main_v121 val_main_cst_14 val_main_v120 val_main_v119 val_main_cst_13
  rw [RefLayer3.feat]
  rfl

end Cert.ReferenceIdeal.RefValue

end
-- ==== Proof.lean ====
/-
  A message-passing network on a graph of 50000 nodes and 800000 edges: a node embedding, three layers (gather the
  two end nodes' features of every edge, a linear message, a segment sum into the destination nodes, a rectified
  residual update), and a readout of the mean node. The kernel program computes the embedding, the messages and the
  updates on grids of row tiles, with the gathers, the segment sums and the readout as host operations around them; the
  reference is host operations only.

  Over the extended reals the two agree on every input. Each grid's array ends as a row-by-row map of the arrays the
  grid found, because a row of such a map reads only the same row of the row operands and the tiles cover the array.
  The reference multiplies two arrays laid side by side by a 256-row matrix where the kernel multiplies each by its
  128-row half and adds: one finite sum split in two, which commutativity and associativity of addition give (no
  entry need be finite, and the precondition is never opened). A change of float format is the identity here. The
  gathers, the segment sums and the readout are the same operations applied to equal arrays.

  The frames: the two kernel programs' by the launch over @main's nineteen segments; the reference's by its run.
-/
import proofs.«400170_j9105330668112_3_alg».proof.Defs
import proofs.«400170_j9105330668112_3_alg».proof.Proof.Gen.Kernel.Frame
import proofs.«400170_j9105330668112_3_alg».proof.Proof.Gen.KernelIdeal.Frame
import proofs.«400170_j9105330668112_3_alg».proof.Proof.Gen.ReferenceIdeal
import proofs.«400170_j9105330668112_3_alg».proof.Proof.RefRunP
import proofs.«400170_j9105330668112_3_alg».proof.Proof.RefReadP
import proofs.«400170_j9105330668112_3_alg».proof.Proof.Gen.Pre_finite_inputs
import proofs.«400170_j9105330668112_3_alg».proof.Proof.RunValue
import proofs.«400170_j9105330668112_3_alg».proof.Proof.KernelValue
import proofs.«400170_j9105330668112_3_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both programs end at the model's value of the (agreeing) arguments. -/
theorem algebraic : Cert.algebraic_KernelIdeal_ReferenceIdeal := by
  intro m ρ m' ρ' _ hagree
  refine ⟨fun c => Cert.KernelIdeal.Model.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.KernelValue.result_at m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v133_eq, Cert.ReferenceIdeal.RefValue.result_eq]
    obtain ⟨h0, h1, h2, h3, h4, h5, h6, h7, h8, h9, h10, h11, h12, h13⟩ := hagree c
    rw [h0, h1, h2, h3, h4, h5, h6, h7, h8, h9, h10, h11, h12, h13]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
